-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x393216 : Shape := ⟨2, ![2, 393216]⟩
abbrev S8192x64 : Shape := ⟨2, ![8192, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S8192x256 .f32) (main_arg1 : IVec S2x393216 32) (main_arg2 : FVec F S8192x64 .f32) (main_arg3 : FVec F S256x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x64 .f32 := Host.absf main_arg2
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S8192x256 : Shape := ⟨2, ![8192, 256]⟩
abbrev S2x393216 : Shape := ⟨2, ![2, 393216]⟩
abbrev S8192x64 : Shape := ⟨2, ![8192, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S8192 : Shape := ⟨1, ![8192]⟩
abbrev S1x393216 : Shape := ⟨2, ![1, 393216]⟩
abbrev S393216 : Shape := ⟨1, ![393216]⟩
abbrev S401408 : Shape := ⟨1, ![401408]⟩
abbrev S_ : Shape := ⟨0, ![]⟩
abbrev S401408x1 : Shape := ⟨2, ![401408, 1]⟩
abbrev S8192x128 : Shape := ⟨2, ![8192, 128]⟩
abbrev S1024x256 : Shape := ⟨2, ![1024, 256]⟩
abbrev S1024x128 : Shape := ⟨2, ![1024, 128]⟩
abbrev S401408x128 : Shape := ⟨2, ![401408, 128]⟩
abbrev S1x128 : Shape := ⟨2, ![1, 128]⟩
abbrev S128x128 : Shape := ⟨2, ![128, 128]⟩
abbrev S401408x64 : Shape := ⟨2, ![401408, 64]⟩
abbrev S1x64 : Shape := ⟨2, ![1, 64]⟩
abbrev S8192x8192 : Shape := ⟨2, ![8192, 8192]⟩
abbrev S1024x64 : Shape := ⟨2, ![1024, 64]⟩
abbrev S1024x1024 : Shape := ⟨2, ![1024, 1024]⟩
abbrev S64x1024 : Shape := ⟨2, ![64, 1024]⟩

abbrev nBuf : Space → Nat
  | .hbm => 128
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S2x393216, .i32⟩
  | .hbm, ⟨2, _⟩ => ⟨S8192x64, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S8192, .i32⟩
  | .hbm, ⟨10, _⟩ => ⟨S1x393216, .i32⟩
  | .hbm, ⟨11, _⟩ => ⟨S393216, .i32⟩
  | .hbm, ⟨12, _⟩ => ⟨S401408, .i32⟩
  | .hbm, ⟨13, _⟩ => ⟨S1x393216, .i32⟩
  | .hbm, ⟨14, _⟩ => ⟨S393216, .i32⟩
  | .hbm, ⟨15, _⟩ => ⟨S401408, .i32⟩
  | .hbm, ⟨16, _⟩ => ⟨S_, .f32⟩
  | .hbm, ⟨17, _⟩ => ⟨S401408, .f32⟩
  | .hbm, ⟨18, _⟩ => ⟨S_, .f32⟩
  | .hbm, ⟨19, _⟩ => ⟨S8192, .f32⟩
  | .hbm, ⟨20, _⟩ => ⟨S401408x1, .i32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S_, .i32⟩
  | .hbm, ⟨27, _⟩ => ⟨S401408, .i32⟩
  | .hbm, ⟨28, _⟩ => ⟨S401408, .i1⟩
  | .hbm, ⟨29, _⟩ => ⟨S_, .i32⟩
  | .hbm, ⟨30, _⟩ => ⟨S401408, .i32⟩
  | .hbm, ⟨31, _⟩ => ⟨S401408, .i32⟩
  | .hbm, ⟨32, _⟩ => ⟨S401408, .i32⟩
  | .hbm, ⟨33, _⟩ => ⟨S401408x1, .i32⟩
  | .hbm, ⟨34, _⟩ => ⟨S401408, .f32⟩
  | .hbm, ⟨35, _⟩ => ⟨S_, .i32⟩
  | .hbm, ⟨36, _⟩ => ⟨S401408, .i32⟩
  | .hbm, ⟨37, _⟩ => ⟨S401408, .i1⟩
  | .hbm, ⟨38, _⟩ => ⟨S_, .i32⟩
  | .hbm, ⟨39, _⟩ => ⟨S401408, .i32⟩
  | .hbm, ⟨40, _⟩ => ⟨S401408, .i32⟩
  | .hbm, ⟨41, _⟩ => ⟨S401408, .i32⟩
  | .hbm, ⟨42, _⟩ => ⟨S401408x1, .i32⟩
  | .hbm, ⟨43, _⟩ => ⟨S401408, .f32⟩
  | .hbm, ⟨44, _⟩ => ⟨S401408, .f32⟩
  | .hbm, ⟨45, _⟩ => ⟨S8192x128, .f32⟩
  | .hbm, ⟨46, _⟩ => ⟨S_, .i32⟩
  | .hbm, ⟨47, _⟩ => ⟨S401408, .i32⟩
  | .hbm, ⟨48, _⟩ => ⟨S401408, .i1⟩
  | .hbm, ⟨49, _⟩ => ⟨S_, .i32⟩
  | .hbm, ⟨50, _⟩ => ⟨S401408, .i32⟩
  | .hbm, ⟨51, _⟩ => ⟨S401408, .i32⟩
  | .hbm, ⟨52, _⟩ => ⟨S401408, .i32⟩
  | .hbm, ⟨53, _⟩ => ⟨S401408x1, .i32⟩
  | .hbm, ⟨54, _⟩ => ⟨S401408x128, .f32⟩
  | .hbm, ⟨55, _⟩ => ⟨S401408x1, .f32⟩
  | .hbm, ⟨56, _⟩ => ⟨S401408x128, .f32⟩
  | .hbm, ⟨57, _⟩ => ⟨S401408x128, .f32⟩
  | .hbm, ⟨58, _⟩ => ⟨S_, .f32⟩
  | .hbm, ⟨59, _⟩ => ⟨S8192x128, .f32⟩
  | .hbm, ⟨60, _⟩ => ⟨S401408x1, .i32⟩
  | .hbm, ⟨61, _⟩ => ⟨S8192x128, .f32⟩
  | .hbm, ⟨62, _⟩ => ⟨S1x128, .f32⟩
  | .hbm, ⟨63, _⟩ => ⟨S8192x128, .f32⟩
  | .hbm, ⟨64, _⟩ => ⟨S8192x128, .f32⟩
  | .hbm, ⟨65, _⟩ => ⟨S128x128, .f32⟩
  | .hbm, ⟨66, _⟩ => ⟨S8192x128, .f32⟩
  | .hbm, ⟨67, _⟩ => ⟨S8192x64, .f32⟩
  | .hbm, ⟨68, _⟩ => ⟨S8192x64, .f32⟩
  | .hbm, ⟨69, _⟩ => ⟨S_, .i32⟩
  | .hbm, ⟨70, _⟩ => ⟨S401408, .i32⟩
  | .hbm, ⟨71, _⟩ => ⟨S401408, .i1⟩
  | .hbm, ⟨72, _⟩ => ⟨S_, .i32⟩
  | .hbm, ⟨73, _⟩ => ⟨S401408, .i32⟩
  | .hbm, ⟨74, _⟩ => ⟨S401408, .i32⟩
  | .hbm, ⟨75, _⟩ => ⟨S401408, .i32⟩
  | .hbm, ⟨76, _⟩ => ⟨S401408x1, .i32⟩
  | .hbm, ⟨77, _⟩ => ⟨S401408x64, .f32⟩
  | .hbm, ⟨78, _⟩ => ⟨S401408x1, .f32⟩
  | .hbm, ⟨79, _⟩ => ⟨S401408x64, .f32⟩
  | .hbm, ⟨80, _⟩ => ⟨S401408x64, .f32⟩
  | .hbm, ⟨81, _⟩ => ⟨S_, .f32⟩
  | .hbm, ⟨82, _⟩ => ⟨S8192x64, .f32⟩
  | .hbm, ⟨83, _⟩ => ⟨S401408x1, .i32⟩
  | .hbm, ⟨84, _⟩ => ⟨S8192x64, .f32⟩
  | .hbm, ⟨85, _⟩ => ⟨S1x64, .f32⟩
  | .hbm, ⟨86, _⟩ => ⟨S8192x64, .f32⟩
  | .hbm, ⟨87, _⟩ => ⟨S8192x64, .f32⟩
  | .hbm, ⟨88, _⟩ => ⟨S_, .i32⟩
  | .hbm, ⟨89, _⟩ => ⟨S401408, .i32⟩
  | .hbm, ⟨90, _⟩ => ⟨S401408, .i1⟩
  | .hbm, ⟨91, _⟩ => ⟨S_, .i32⟩
  | .hbm, ⟨92, _⟩ => ⟨S401408, .i32⟩
  | .hbm, ⟨93, _⟩ => ⟨S401408, .i32⟩
  | .hbm, ⟨94, _⟩ => ⟨S401408, .i32⟩
  | .hbm, ⟨95, _⟩ => ⟨S401408x1, .i32⟩
  | .hbm, ⟨96, _⟩ => ⟨S401408x64, .f32⟩
  | .hbm, ⟨97, _⟩ => ⟨S401408x1, .f32⟩
  | .hbm, ⟨98, _⟩ => ⟨S401408x64, .f32⟩
  | .hbm, ⟨99, _⟩ => ⟨S401408x64, .f32⟩
  | .hbm, ⟨100, _⟩ => ⟨S_, .f32⟩
  | .hbm, ⟨101, _⟩ => ⟨S8192x64, .f32⟩
  | .hbm, ⟨102, _⟩ => ⟨S401408x1, .i32⟩
  | .hbm, ⟨103, _⟩ => ⟨S8192x64, .f32⟩
  | .hbm, ⟨104, _⟩ => ⟨S1x64, .f32⟩
  | .hbm, ⟨105, _⟩ => ⟨S8192x64, .f32⟩
  | .hbm, ⟨106, _⟩ => ⟨S8192x64, .f32⟩
  | .hbm, ⟨107, _⟩ => ⟨S8192x64, .f32⟩
  | .hbm, ⟨108, _⟩ => ⟨S8192x64, .f32⟩
  | .hbm, ⟨109, _⟩ => ⟨S8192x64, .f32⟩
  | .hbm, ⟨110, _⟩ => ⟨S8192x8192, .f32⟩
  | .hbm, ⟨111, _⟩ => ⟨S_, .f32⟩
  | .hbm, ⟨112, _⟩ => ⟨S8192x8192, .i1⟩
  | .hbm, ⟨113, _⟩ => ⟨S_, .f32⟩
  | .hbm, ⟨114, _⟩ => ⟨S8192x8192, .f32⟩
  | .hbm, ⟨115, _⟩ => ⟨S8192x8192, .f32⟩
  | .hbm, ⟨116, _⟩ => ⟨S_, .f32⟩
  | .hbm, ⟨117, _⟩ => ⟨S8192x8192, .f32⟩
  | .hbm, ⟨118, _⟩ => ⟨S8192x8192, .i1⟩
  | .hbm, ⟨119, _⟩ => ⟨S_, .f32⟩
  | .hbm, ⟨120, _⟩ => ⟨S8192x8192, .f32⟩
  | .hbm, ⟨121, _⟩ => ⟨S8192x8192, .f32⟩
  | .hbm, ⟨122, _⟩ => ⟨S_, .f32⟩
  | .hbm, ⟨123, _⟩ => ⟨S8192x8192, .f32⟩
  | .hbm, ⟨124, _⟩ => ⟨S8192x8192, .i1⟩
  | .hbm, ⟨125, _⟩ => ⟨S_, .f32⟩
  | .hbm, ⟨126, _⟩ => ⟨S8192x8192, .f32⟩
  | .hbm, ⟨127, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x1024, .f32⟩
  | .local _ .vmem, ⟨15, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_11 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_14 : Ref sig .tc := ⟨.hbm, 111, rfl⟩
abbrev main_call0_v0 : Ref sig .tc := ⟨.hbm, 112, rfl⟩
abbrev main_call0_v1 : Ref sig .tc := ⟨.hbm, 113, rfl⟩
abbrev main_call0_call0_v0 : Ref sig .tc := ⟨.hbm, 114, rfl⟩
abbrev main_call0_v2 : Ref sig .tc := ⟨.hbm, 115, rfl⟩
abbrev main_call0_cst : Ref sig .tc := ⟨.hbm, 116, rfl⟩
abbrev main_call0_v3 : Ref sig .tc := ⟨.hbm, 117, rfl⟩
abbrev main_call0_v4 : Ref sig .tc := ⟨.hbm, 118, rfl⟩
abbrev main_call0_cst_0 : Ref sig .tc := ⟨.hbm, 119, rfl⟩
abbrev main_call0_call1_v0 : Ref sig .tc := ⟨.hbm, 120, rfl⟩
abbrev main_call0_v5 : Ref sig .tc := ⟨.hbm, 121, rfl⟩
abbrev main_call0_cst_1 : Ref sig .tc := ⟨.hbm, 122, rfl⟩
abbrev main_call0_v6 : Ref sig .tc := ⟨.hbm, 123, rfl⟩
abbrev main_call0_v7 : Ref sig .tc := ⟨.hbm, 124, rfl⟩
abbrev main_call0_cst_2 : Ref sig .tc := ⟨.hbm, 125, rfl⟩
abbrev main_call0_call2_v0 : Ref sig .tc := ⟨.hbm, 126, rfl⟩
abbrev main_v86 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x393216_S1x393216_0_0 : S2x393216.Slices ![0, 0] S1x393216
  shapeCasts_S1x393216_S393216 : S1x393216.ShapeCasts S393216
  concatenates_S393216_S8192_S401408_d0 : Shape.Concatenates [S393216, S8192] S401408 0
  slices_S2x393216_S1x393216_1_0 : S2x393216.Slices ![1, 0] S1x393216
  bcast_S_S401408 : S_.BroadcastsInDim S401408 (![] : Fin 0 → Fin S401408.rank)
  bcast_S_S8192 : S_.BroadcastsInDim S8192 (![] : Fin 0 → Fin S8192.rank)
  bcast_S401408_S401408x1_0 : S401408.BroadcastsInDim S401408x1 (![0] : Fin 1 → Fin S401408x1.rank)
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  bcast_S401408x1_S401408x128_0_1 : S401408x1.BroadcastsInDim S401408x128 (![0, 1] : Fin 2 → Fin S401408x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  concatenates_S128x64_S128x64_S128x128_d1 : Shape.Concatenates [S128x64, S128x64] S128x128 1
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S8192x128_S8192x64_0_0 : S8192x128.Slices ![0, 0] S8192x64
  slices_S8192x128_S8192x64_0_64 : S8192x128.Slices ![0, 64] S8192x64
  bcast_S401408x1_S401408x64_0_1 : S401408x1.BroadcastsInDim S401408x64 (![0, 1] : Fin 2 → Fin S401408x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  bcast_S_S8192x8192 : S_.BroadcastsInDim S8192x8192 (![] : Fin 0 → Fin S8192x8192.rank)
  scatter_S8192_S401408x1_S401408_n_0_0_1_wf : ScatterDims.WF S8192 S401408x1 S401408 [] [0] [0] 1
  gather_S8192_S401408x1_S401408_n_0_n_n_0_1_1_wf : GatherDims.WF S8192 S401408x1 S401408 [] [0] [] [0] [] 1 ![1]
  dot_S1024x256_S256x128_S1024x128_1_0_0_1_n_n_wf : DotDims.WF S1024x256 S256x128 S1024x128 [1] [0] [0] [1] [] []
  gather_S8192x128_S401408x1_S401408x128_1_0_n_n_0_1_1128_wf : GatherDims.WF S8192x128 S401408x1 S401408x128 [1] [0] [] [0] [] 1 ![1, 128]
  scatter_S8192x128_S401408x1_S401408x128_1_0_0_1_wf : ScatterDims.WF S8192x128 S401408x1 S401408x128 [1] [0] [0] 1
  dot_S1024x128_S128x128_S1024x128_1_0_0_1_n_n_wf : DotDims.WF S1024x128 S128x128 S1024x128 [1] [0] [0] [1] [] []
  gather_S8192x64_S401408x1_S401408x64_1_0_n_n_0_1_164_wf : GatherDims.WF S8192x64 S401408x1 S401408x64 [1] [0] [] [0] [] 1 ![1, 64]
  scatter_S8192x64_S401408x1_S401408x64_1_0_0_1_wf : ScatterDims.WF S8192x64 S401408x1 S401408x64 [1] [0] [0] 1
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def scatter_S8192_S401408x1_S401408_n_0_0_1 : ScatterDims S8192 S401408x1 S401408 where
  updateWindowDims := []
  insertedWindowDims := [0]
  scatterDimsToOperandDims := [0]
  indexVectorDim := 1
  wf := scatter_S8192_S401408x1_S401408_n_0_0_1_wf
def gather_S8192_S401408x1_S401408_n_0_n_n_0_1_1 : GatherDims S8192 S401408x1 S401408 where
  offsetDims := []
  collapsedSliceDims := [0]
  operandBatchingDims := []
  startIndicesBatchingDims := []
  startIndexMap := [0]
  indexVectorDim := 1
  sliceSizes := ![1]
  wf := gather_S8192_S401408x1_S401408_n_0_n_n_0_1_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S8192x128_S401408x1_S401408x128_1_0_n_n_0_1_1128 : GatherDims S8192x128 S401408x1 S401408x128 where
  offsetDims := [1]
  collapsedSliceDims := [0]
  operandBatchingDims := []
  startIndicesBatchingDims := []
  startIndexMap := [0]
  indexVectorDim := 1
  sliceSizes := ![1, 128]
  wf := gather_S8192x128_S401408x1_S401408x128_1_0_n_n_0_1_1128_wf
def scatter_S8192x128_S401408x1_S401408x128_1_0_0_1 : ScatterDims S8192x128 S401408x1 S401408x128 where
  updateWindowDims := [1]
  insertedWindowDims := [0]
  scatterDimsToOperandDims := [0]
  indexVectorDim := 1
  wf := scatter_S8192x128_S401408x1_S401408x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S8192x64_S401408x1_S401408x64_1_0_n_n_0_1_164 : GatherDims S8192x64 S401408x1 S401408x64 where
  offsetDims := [1]
  collapsedSliceDims := [0]
  operandBatchingDims := []
  startIndicesBatchingDims := []
  startIndexMap := [0]
  indexVectorDim := 1
  sliceSizes := ![1, 64]
  wf := gather_S8192x64_S401408x1_S401408x64_1_0_n_n_0_1_164_wf
def scatter_S8192x64_S401408x1_S401408x64_1_0_0_1 : ScatterDims S8192x64 S401408x1 S401408x64 where
  updateWindowDims := [1]
  insertedWindowDims := [0]
  scatterDimsToOperandDims := [0]
  indexVectorDim := 1
  wf := scatter_S8192x64_S401408x1_S401408x64_1_0_0_1_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v84) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x256 : Shape := ⟨2, ![8192, 256]⟩
abbrev S2x393216 : Shape := ⟨2, ![2, 393216]⟩
abbrev S8192x64 : Shape := ⟨2, ![8192, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S8192 : Shape := ⟨1, ![8192]⟩
abbrev S1x393216 : Shape := ⟨2, ![1, 393216]⟩
abbrev S393216 : Shape := ⟨1, ![393216]⟩
abbrev S401408 : Shape := ⟨1, ![401408]⟩
abbrev S_ : Shape := ⟨0, ![]⟩
abbrev S401408x1 : Shape := ⟨2, ![401408, 1]⟩
abbrev S8192x128 : Shape := ⟨2, ![8192, 128]⟩
abbrev S401408x128 : Shape := ⟨2, ![401408, 128]⟩
abbrev S1x128 : Shape := ⟨2, ![1, 128]⟩
abbrev S401408x64 : Shape := ⟨2, ![401408, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 135
  | .vmem => 0
  | .smem => 0
  | _ => 0

abbrev hbmTy0_0 (i : Nat) : BufTy := match i % 128 with
  | 0 => ⟨S8192x256, .f32⟩
  | 1 => ⟨S2x393216, .i32⟩
  | 2 => ⟨S8192x64, .f32⟩
  | 3 => ⟨S256x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S8192, .i32⟩
  | 10 => ⟨S1x393216, .i32⟩
  | 11 => ⟨S393216, .i32⟩
  | 12 => ⟨S401408, .i32⟩
  | 13 => ⟨S1x393216, .i32⟩
  | 14 => ⟨S393216, .i32⟩
  | 15 => ⟨S401408, .i32⟩
  | 16 => ⟨S_, .f32⟩
  | 17 => ⟨S401408, .f32⟩
  | 18 => ⟨S_, .f32⟩
  | 19 => ⟨S8192, .f32⟩
  | 20 => ⟨S401408x1, .i32⟩
  | 21 => ⟨S8192, .f32⟩
  | 22 => ⟨S_, .f32⟩
  | 23 => ⟨S8192, .f32⟩
  | 24 => ⟨S8192, .f32⟩
  | 25 => ⟨S8192, .f32⟩
  | 26 => ⟨S_, .i32⟩
  | 27 => ⟨S401408, .i32⟩
  | 28 => ⟨S401408, .i1⟩
  | 29 => ⟨S_, .i32⟩
  | 30 => ⟨S401408, .i32⟩
  | 31 => ⟨S401408, .i32⟩
  | 32 => ⟨S401408, .i32⟩
  | 33 => ⟨S401408x1, .i32⟩
  | 34 => ⟨S401408, .f32⟩
  | 35 => ⟨S_, .i32⟩
  | 36 => ⟨S401408, .i32⟩
  | 37 => ⟨S401408, .i1⟩
  | 38 => ⟨S_, .i32⟩
  | 39 => ⟨S401408, .i32⟩
  | 40 => ⟨S401408, .i32⟩
  | 41 => ⟨S401408, .i32⟩
  | 42 => ⟨S401408x1, .i32⟩
  | 43 => ⟨S401408, .f32⟩
  | 44 => ⟨S401408, .f32⟩
  | 45 => ⟨S8192x128, .f32⟩
  | 46 => ⟨S_, .i32⟩
  | 47 => ⟨S401408, .i32⟩
  | 48 => ⟨S401408, .i1⟩
  | 49 => ⟨S_, .i32⟩
  | 50 => ⟨S401408, .i32⟩
  | 51 => ⟨S401408, .i32⟩
  | 52 => ⟨S401408, .i32⟩
  | 53 => ⟨S401408x1, .i32⟩
  | 54 => ⟨S401408x128, .f32⟩
  | 55 => ⟨S401408x1, .f32⟩
  | 56 => ⟨S401408x128, .f32⟩
  | 57 => ⟨S401408x128, .f32⟩
  | 58 => ⟨S_, .f32⟩
  | 59 => ⟨S8192x128, .f32⟩
  | 60 => ⟨S401408x1, .i32⟩
  | 61 => ⟨S8192x128, .f32⟩
  | 62 => ⟨S1x128, .f32⟩
  | 63 => ⟨S8192x128, .f32⟩
  | 64 => ⟨S8192x128, .f32⟩
  | 65 => ⟨S8192x64, .f32⟩
  | 66 => ⟨S_, .i32⟩
  | 67 => ⟨S401408, .i32⟩
  | 68 => ⟨S401408, .i1⟩
  | 69 => ⟨S_, .i32⟩
  | 70 => ⟨S401408, .i32⟩
  | 71 => ⟨S401408, .i32⟩
  | 72 => ⟨S401408, .i32⟩
  | 73 => ⟨S401408x1, .i32⟩
  | 74 => ⟨S401408x64, .f32⟩
  | 75 => ⟨S401408x1, .f32⟩
  | 76 => ⟨S401408x64, .f32⟩
  | 77 => ⟨S401408x64, .f32⟩
  | 78 => ⟨S_, .f32⟩
  | 79 => ⟨S8192x64, .f32⟩
  | 80 => ⟨S401408x1, .i32⟩
  | 81 => ⟨S8192x64, .f32⟩
  | 82 => ⟨S1x64, .f32⟩
  | 83 => ⟨S8192x64, .f32⟩
  | 84 => ⟨S8192x64, .f32⟩
  | 85 => ⟨S8192x64, .f32⟩
  | 86 => ⟨S_, .i32⟩
  | 87 => ⟨S401408, .i32⟩
  | 88 => ⟨S401408, .i1⟩
  | 89 => ⟨S_, .i32⟩
  | 90 => ⟨S401408, .i32⟩
  | 91 => ⟨S401408, .i32⟩
  | 92 => ⟨S401408, .i32⟩
  | 93 => ⟨S401408x1, .i32⟩
  | 94 => ⟨S401408x64, .f32⟩
  | 95 => ⟨S401408x1, .f32⟩
  | 96 => ⟨S401408x64, .f32⟩
  | 97 => ⟨S401408x64, .f32⟩
  | 98 => ⟨S_, .f32⟩
  | 99 => ⟨S8192x64, .f32⟩
  | 100 => ⟨S401408x1, .i32⟩
  | 101 => ⟨S8192x64, .f32⟩
  | 102 => ⟨S1x64, .f32⟩
  | 103 => ⟨S8192x64, .f32⟩
  | 104 => ⟨S8192x64, .f32⟩
  | 105 => ⟨S8192x64, .f32⟩
  | 106 => ⟨S8192x64, .f32⟩
  | 107 => ⟨S8192x64, .f32⟩
  | 108 => ⟨S64x8192, .f32⟩
  | 109 => ⟨S8192x8192, .f32⟩
  | 110 => ⟨S8192x8192, .f32⟩
  | 111 => ⟨S8192x8192, .f32⟩
  | 112 => ⟨S_, .f32⟩
  | 113 => ⟨S8192x8192, .f32⟩
  | 114 => ⟨S8192x8192, .f32⟩
  | 115 => ⟨S_, .f32⟩
  | 116 => ⟨S8192x8192, .f32⟩
  | 117 => ⟨S8192x8192, .f32⟩
  | 118 => ⟨S_, .f32⟩
  | 119 => ⟨S8192x8192, .i1⟩
  | 120 => ⟨S_, .f32⟩
  | 121 => ⟨S8192x8192, .f32⟩
  | 122 => ⟨S8192x8192, .f32⟩
  | 123 => ⟨S_, .f32⟩
  | 124 => ⟨S8192x8192, .f32⟩
  | 125 => ⟨S8192x8192, .i1⟩
  | 126 => ⟨S_, .f32⟩
  | 127 => ⟨S8192x8192, .f32⟩
  | _ => ⟨S8192x256, .f32⟩

abbrev hbmTy0_1 (i : Nat) : BufTy := match i % 128 with
  | 0 => ⟨S8192x8192, .f32⟩
  | 1 => ⟨S_, .f32⟩
  | 2 => ⟨S8192x8192, .f32⟩
  | 3 => ⟨S8192x8192, .i1⟩
  | 4 => ⟨S_, .f32⟩
  | 5 => ⟨S8192x8192, .f32⟩
  | 6 => ⟨S8192x8192, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_v88 : Ref sig .tc := ⟨.hbm, 114, rfl⟩
abbrev main_cst_15 : Ref sig .tc := ⟨.hbm, 115, rfl⟩
abbrev main_v89 : Ref sig .tc := ⟨.hbm, 116, rfl⟩
abbrev main_v90 : Ref sig .tc := ⟨.hbm, 117, rfl⟩
abbrev main_cst_16 : Ref sig .tc := ⟨.hbm, 118, rfl⟩
abbrev main_call0_v0 : Ref sig .tc := ⟨.hbm, 119, rfl⟩
abbrev main_call0_v1 : Ref sig .tc := ⟨.hbm, 120, rfl⟩
abbrev main_call0_call0_v0 : Ref sig .tc := ⟨.hbm, 121, rfl⟩
abbrev main_call0_v2 : Ref sig .tc := ⟨.hbm, 122, rfl⟩
abbrev main_call0_cst : Ref sig .tc := ⟨.hbm, 123, rfl⟩
abbrev main_call0_v3 : Ref sig .tc := ⟨.hbm, 124, rfl⟩
abbrev main_call0_v4 : Ref sig .tc := ⟨.hbm, 125, rfl⟩
abbrev main_call0_cst_0 : Ref sig .tc := ⟨.hbm, 126, rfl⟩
abbrev main_call0_call1_v0 : Ref sig .tc := ⟨.hbm, 127, rfl⟩
abbrev main_call0_v5 : Ref sig .tc := ⟨.hbm, 128, rfl⟩
abbrev main_call0_cst_1 : Ref sig .tc := ⟨.hbm, 129, rfl⟩
abbrev main_call0_v6 : Ref sig .tc := ⟨.hbm, 130, rfl⟩
abbrev main_call0_v7 : Ref sig .tc := ⟨.hbm, 131, rfl⟩
abbrev main_call0_cst_2 : Ref sig .tc := ⟨.hbm, 132, rfl⟩
abbrev main_call0_call2_v0 : Ref sig .tc := ⟨.hbm, 133, rfl⟩
abbrev main_v91 : Ref sig .tc := ⟨.hbm, 134, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  concatenates_S393216_S8192_S401408_d0 : Shape.Concatenates [S393216, S8192] S401408 0
  slices_S2x393216_S1x393216_1_0 : S2x393216.Slices ![1, 0] S1x393216
  bcast_S_S401408 : S_.BroadcastsInDim S401408 (![] : Fin 0 → Fin S401408.rank)
  bcast_S_S8192 : S_.BroadcastsInDim S8192 (![] : Fin 0 → Fin S8192.rank)
  bcast_S401408_S401408x1_0 : S401408.BroadcastsInDim S401408x1 (![0] : Fin 1 → Fin S401408x1.rank)
  bcast_S401408x1_S401408x128_0_1 : S401408x1.BroadcastsInDim S401408x128 (![0, 1] : Fin 2 → Fin S401408x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S401408x1_S401408x64_0_1 : S401408x1.BroadcastsInDim S401408x64 (![0, 1] : Fin 2 → Fin S401408x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  scatter_S8192_S401408x1_S401408_n_0_0_1_wf : ScatterDims.WF S8192 S401408x1 S401408 [] [0] [0] 1
  gather_S8192_S401408x1_S401408_n_0_n_n_0_1_1_wf : GatherDims.WF S8192 S401408x1 S401408 [] [0] [] [0] [] 1 ![1]
  dot_S8192x256_S256x128_S8192x128_1_0_0_1_n_n_wf : DotDims.WF S8192x256 S256x128 S8192x128 [1] [0] [0] [1] [] []
  gather_S8192x128_S401408x1_S401408x128_1_0_n_n_0_1_1128_wf : GatherDims.WF S8192x128 S401408x1 S401408x128 [1] [0] [] [0] [] 1 ![1, 128]
  scatter_S8192x128_S401408x1_S401408x128_1_0_0_1_wf : ScatterDims.WF S8192x128 S401408x1 S401408x128 [1] [0] [0] 1
  dot_S8192x128_S128x64_S8192x64_1_0_0_1_n_n_wf : DotDims.WF S8192x128 S128x64 S8192x64 [1] [0] [0] [1] [] []
  gather_S8192x64_S401408x1_S401408x64_1_0_n_n_0_1_164_wf : GatherDims.WF S8192x64 S401408x1 S401408x64 [1] [0] [] [0] [] 1 ![1, 64]
  scatter_S8192x64_S401408x1_S401408x64_1_0_0_1_wf : ScatterDims.WF S8192x64 S401408x1 S401408x64 [1] [0] [0] 1
  dot_S8192x64_S64x8192_S8192x8192_1_0_0_1_n_n_wf : DotDims.WF S8192x64 S64x8192 S8192x8192 [1] [0] [0] [1] [] []

variable [Facts₀]

def scatter_S8192_S401408x1_S401408_n_0_0_1 : ScatterDims S8192 S401408x1 S401408 where
  updateWindowDims := []
  insertedWindowDims := [0]
  scatterDimsToOperandDims := [0]
  indexVectorDim := 1
  wf := scatter_S8192_S401408x1_S401408_n_0_0_1_wf
def gather_S8192_S401408x1_S401408_n_0_n_n_0_1_1 : GatherDims S8192 S401408x1 S401408 where
  offsetDims := []
  collapsedSliceDims := [0]
  operandBatchingDims := []
  startIndicesBatchingDims := []
  startIndexMap := [0]
  indexVectorDim := 1
  sliceSizes := ![1]
  wf := gather_S8192_S401408x1_S401408_n_0_n_n_0_1_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S401408x1_S401408x128_1_0_n_n_0_1_1128 : GatherDims S8192x128 S401408x1 S401408x128 where
  offsetDims := [1]
  collapsedSliceDims := [0]
  operandBatchingDims := []
  startIndicesBatchingDims := []
  startIndexMap := [0]
  indexVectorDim := 1
  sliceSizes := ![1, 128]
  wf := gather_S8192x128_S401408x1_S401408x128_1_0_n_n_0_1_1128_wf
def scatter_S8192x128_S401408x1_S401408x128_1_0_0_1 : ScatterDims S8192x128 S401408x1 S401408x128 where
  updateWindowDims := [1]
  insertedWindowDims := [0]
  scatterDimsToOperandDims := [0]
  indexVectorDim := 1
  wf := scatter_S8192x128_S401408x1_S401408x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S401408x1_S401408x64_1_0_n_n_0_1_164 : GatherDims S8192x64 S401408x1 S401408x64 where
  offsetDims := [1]
  collapsedSliceDims := [0]
  operandBatchingDims := []
  startIndicesBatchingDims := []
  startIndexMap := [0]
  indexVectorDim := 1
  sliceSizes := ![1, 64]
  wf := gather_S8192x64_S401408x1_S401408x64_1_0_n_n_0_1_164_wf
def scatter_S8192x64_S401408x1_S401408x64_1_0_0_1 : ScatterDims S8192x64 S401408x1 S401408x64 where
  updateWindowDims := [1]
  insertedWindowDims := [0]
  scatterDimsToOperandDims := [0]
  indexVectorDim := 1
  wf := scatter_S8192x64_S401408x1_S401408x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Kernel.Region0.lean ====
/-
  The same module for the word-level program: the printed Kernel has the idealized program's text (the ideal pass
  rewrote no operation), and the module is stated at any float instance.
-/
import proofs.«173583_j2808908611975_1_alg».proof.Proof.Gen.Kernel.Launch
import proofs.«173583_j2808908611975_1_alg».proof.Proof.Gen.Kernel.Skeleton
import proofs.«173583_j2808908611975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or
    the block index had not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole output block, as one rectangle. -/
abbrev r0_out : Rect S1024x128 := Rect.unit (s := S1024x128) ![0, 0] S1024x128.size inb_S1024x128_S1024x128_0_0
abbrev r0_in0 : Rect S1024x256 := Rect.unit (s := S1024x256) ![0, 0] S1024x256.size inb_S1024x256_S1024x256_0_0
abbrev r0_in1 : Rect S256x128 := Rect.unit (s := S256x128) ![0, 0] S256x128.size inb_S256x128_S256x128_0_0

/-- What the body leaves in the output's staging buffer: its one whole-block store of the matrix-product payload. -/
def out0_2 (x0 : Vec F S1024x256 .f32) (x1 : Vec F S256x128 .f32) : Vec F S1024x128 .f32 :=
  View.canon [⟨r0_out, k0_pay1 (View.ld x0 r0_in0) (View.ld x1 r0_in1)⟩]

theorem cover0_2 (p0 : Vec F S1024x128 .f32) (y : S1024x128.Idx) :
    ∃ pc ∈ ([⟨r0_out, p0⟩] : List (View.Piece (Elt F) S1024x128 .f32)), y ∈ pc.1.set :=
  View.cover_of_tiled [⟨r0_out, p0⟩] S1024x128.size (by rfl) y

set_option maxHeartbeats 1000000 in
/-- The body on whole staging memrefs: the inputs at read contents, the output at anything; it ends with the
    inputs as they were and the output at `out0_2` of the inputs. -/
theorem sound_kernel0 (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Pipeline 0's proof data on core `c`: the arrays as the region finds them; after the body each input's buffer
    at its block, the output's at the matrix-product payload of the two input blocks; the scoped rest and the
    generator register as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.Kernel.Region1.lean ====
/-
  The same module for the word-level program: the printed Kernel has the idealized program's text (the ideal pass
  rewrote no operation), and the module is stated at any float instance.
-/
/-
  Region 1 of @main: the second dense layer's matrix product (the hidden features against the two
  weight matrices laid side by side), one grid axis of 8 points; windows as in region 0.
-/
import proofs.«173583_j2808908611975_1_alg».proof.Proof.Gen.Kernel.Launch
import proofs.«173583_j2808908611975_1_alg».proof.Proof.Gen.Kernel.Skeleton
import proofs.«173583_j2808908611975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or
    the block index had not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole output block, as one rectangle. -/
abbrev r1_out : Rect S1024x128 := Rect.unit (s := S1024x128) ![0, 0] S1024x128.size inb_S1024x128_S1024x128_0_0
abbrev r1_in0 : Rect S1024x128 := Rect.unit (s := S1024x128) ![0, 0] S1024x128.size inb_S1024x128_S1024x128_0_0
abbrev r1_in1 : Rect S128x128 := Rect.unit (s := S128x128) ![0, 0] S128x128.size inb_S128x128_S128x128_0_0

/-- What the body leaves in the output's staging buffer: its one whole-block store of the matrix-product payload. -/
def out1_2 (x0 : Vec F S1024x128 .f32) (x1 : Vec F S128x128 .f32) : Vec F S1024x128 .f32 :=
  View.canon [⟨r1_out, k1_pay1 (View.ld x0 r1_in0) (View.ld x1 r1_in1)⟩]

theorem cover1_2 (p0 : Vec F S1024x128 .f32) (y : S1024x128.Idx) :
    ∃ pc ∈ ([⟨r1_out, p0⟩] : List (View.Piece (Elt F) S1024x128 .f32)), y ∈ pc.1.set :=
  View.cover_of_tiled [⟨r1_out, p0⟩] S1024x128.size (by rfl) y

set_option maxHeartbeats 1000000 in
/-- The body on whole staging memrefs: the inputs at read contents, the output at anything; it ends with the
    inputs as they were and the output at `out1_2` of the inputs. -/
theorem sound_kernel1 (c : Dev nD) (E : Set ℕ) (i : grid1.Coords)
    (arg1 : Memref sig .tc .vmem S1024x128 .f32) (harg1 : arg1.IsWhole) (arg2 : Memref sig .tc .vmem S128x128 .f32) (harg2 : arg2.IsWhole)
    (arg3 : Memref sig .tc .vmem S1024x128 .f32) (harg3 : arg3.IsWhole)
    (x0 : Vec F S1024x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- Pipeline 1's proof data on core `c`: the arrays as the region finds them; after the body each input's buffer
    at its block, the output's at the matrix-product payload of the two input blocks; the scoped rest and the
    generator register as invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.Kernel.Region2.lean ====
/-
  The same module for the word-level program: the printed Kernel has the idealized program's text (the ideal pass
  rewrote no operation), and the module is stated at any float instance.
-/
/-
  Region 2 of @main: the inner-product decoder, a grid of 8 × 8 points.
  Windows 0 and 1 are two blocks of 1024 rows of ONE array, the latent matrix z: rows block i for window 0
  (fetched when i changes), rows block j for window 1; window 2 is the 1024 × 1024 block (i, j) of the
  result.  The core holds z once, so each input window holds it at half a share.  What the body leaves in
  the output's staging buffer is the decoder payload (logistic of the block product, infinities clamped)
  of the two input blocks.
-/
import proofs.«173583_j2808908611975_1_alg».proof.Proof.Gen.Kernel.Launch
import proofs.«173583_j2808908611975_1_alg».proof.Proof.Gen.Kernel.Skeleton
import proofs.«173583_j2808908611975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetched it or
    the block index had not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole output block, as one rectangle. -/
abbrev r2_out : Rect S1024x1024 := Rect.unit (s := S1024x1024) ![0, 0] S1024x1024.size inb_S1024x1024_S1024x1024_0_0
abbrev r2_in0 : Rect S1024x64 := Rect.unit (s := S1024x64) ![0, 0] S1024x64.size inb_S1024x64_S1024x64_0_0
abbrev r2_in1 : Rect S1024x64 := Rect.unit (s := S1024x64) ![0, 0] S1024x64.size inb_S1024x64_S1024x64_0_0

/-- What the body leaves in the output's staging buffer: its one whole-block store of the decoder payload. -/
def out2_2 (x0 : Vec F S1024x64 .f32) (x1 : Vec F S1024x64 .f32) : Vec F S1024x1024 .f32 :=
  View.canon [⟨r2_out, k2_pay1 (View.ld x0 r2_in0) (View.ld x1 r2_in1)⟩]

theorem cover2_2 (p0 : Vec F S1024x1024 .f32) (y : S1024x1024.Idx) :
    ∃ pc ∈ ([⟨r2_out, p0⟩] : List (View.Piece (Elt F) S1024x1024 .f32)), y ∈ pc.1.set :=
  View.cover_of_tiled [⟨r2_out, p0⟩] S1024x1024.size (by rfl) y

set_option maxHeartbeats 1000000 in
/-- The body on whole staging memrefs: the inputs at read contents, the output at anything; it ends with the
    inputs as they were and the output at `out2_2` of the inputs. -/
theorem sound_kernel2 (c : Dev nD) (E : Set ℕ) (i : grid2.Coords)
    (arg1 : Memref sig .tc .vmem S1024x64 .f32) (harg1 : arg1.IsWhole) (arg2 : Memref sig .tc .vmem S1024x64 .f32) (harg2 : arg2.IsWhole)
    (arg3 : Memref sig .tc .vmem S1024x1024 .f32) (harg3 : arg3.IsWhole)
    (x0 : Vec F S1024x64 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__decode_kernel i arg1 harg1 arg2 harg2 arg3 harg3) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- Pipeline 2's proof data on core `c`: the arrays as the region finds them; after the body each input's buffer
    at its block, the output's at the decoder payload of the two input blocks; the scoped rest and the
    generator register as invariant; nothing owed; the two input windows hold their common array at the two
    halves of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Regions

end
-- ==== Proof.Kernel.Run.lean ====
/-
  The same module for the word-level program: the printed Kernel has the idealized program's text (the ideal pass
  rewrote no operation), and the module is stated at any float instance.
-/
import proofs.«173583_j2808908611975_1_alg».proof.Proof.Kernel.Region0
import proofs.«173583_j2808908611975_1_alg».proof.Proof.Kernel.Region1
import proofs.«173583_j2808908611975_1_alg».proof.Proof.Kernel.Region2
import proofs.«173583_j2808908611975_1_alg».proof.Proof.Gen.Kernel.Regions

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: the decoder's result array at what its 64 write-backs leave; the latent matrix, which
    both input windows read, and every other buffer as entered. -/
def W6 (c : Dev nD) : Valuation τ sig (Elt F) :=
  Function.update (W5 m c) (Proc.devRef .tc main_v85) ((dat2 (V5 m) c).arrAt 2 cfg2.N)
theorem W6_out (c : Dev nD) : W6 m c (Proc.devRef .tc main_v85) = (dat2 (V5 m) c).arrAt 2 cfg2.N :=
  Function.update_self ..
theorem W6_of_ne (c : Dev nD) (b : Ref sig .tc) (hb : b ≠ main_v85) :
    W6 m c (Proc.devRef .tc b) = W5 m c (Proc.devRef .tc b) :=
  Function.update_of_ne (StableHlo.devRef_ne_of_ne hb) ..
abbrev V6 : (c : Dev nD) → (b : Ref sig .tc) → Buf (Elt F) ((c : Thread nD τ).loc b) := fun c b => W6 m c b
/-- After the two last host stretches (the clamp of infinities, a function of its own in the program). -/
abbrev W7 : Dev nD → Valuation τ sig (Elt F) := fun c => StableHlo.after hostOps3 (W6 m c)
abbrev W8 : Dev nD → Valuation τ sig (Elt F) := fun c => StableHlo.after hostOps3_1 (W7 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2's arrays: ONE array behind the two input windows -/

theorem image_arr2 : Finset.univ.image (Pipeline.arrRef spec2) = {main_v84, main_v85} := by decide

/-- Region 2's windowed arrays, each a whole buffer, window by window at its share. -/
theorem arrays2_eq (c : Dev nD) (dat : Dat τ (Elt F) Unit ℕ (UR sig nD τ) ℕ cfg2 c)
    (A : (w : Fin cfg2.W) → Buf (Elt F) ((cfg2.win w).arr.view.loc (c : Thread nD τ))) :
    (dat.arrays A : sProp 𝕄)
      = iprop((((c : Thread nD τ).loc main_v84) ↦{dat.share 0} A 0) ∗ (((c : Thread nD τ).loc main_v84) ↦{dat.share 1} A 1)
          ∗ (((c : Thread nD τ).loc main_v85) ↦{dat.share 2} A 2)) := by
  unfold Dat.arrays
  rw [bigSep_W2]
  rw [(arr_whole2 0).set_eq_univ, (arr_whole2 2).set_eq_univ]

/-- The buffers behind region 2's arrays: the latent matrix and the result array, each whole at the full share. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v84) ↦{fullShare} V main_v84) ∗ (((c : Thread nD τ).loc main_v85) ↦{fullShare} V main_v85)) := by
  unfold Pipeline.arrBufs
  rw [image_arr2, bigSep_insert (by decide), bigSep_singleton]
  rfl

/-- ENTRY: the latent matrix and the result array, each held whole, are region 2's three windows' arrays — the
    latent matrix split into the two halves of the full share, one per input window. -/
theorem arrays2_split (c : Dev nD) (V : (b : Ref sig .tc) → Buf (Elt F) ((c : Thread nD τ).loc b))
    (dat : Dat τ (Elt F) Unit ℕ (UR sig nD τ) ℕ cfg2 c) (hq0 : dat.q 0 = fullShare.left) (hq1 : dat.q 1 = fullShare.right)
    (A : (w : Fin cfg2.W) → Buf (Elt F) ((cfg2.win w).arr.view.loc (c : Thread nD τ)))
    (h0 : A 0 = V main_v84) (h1 : A 1 = V main_v84) (h2 : A 2 = V main_v85) :
    (Pipeline.arrBufs (Ix := Unit) (Name := ℕ) (U := UR sig nD τ) (Lvl := ℕ) spec2 c V : sProp 𝕄) ⊢ dat.arrays A := by
  rw [arrays2_eq c dat A, h0, h1, h2]
  have e0 : dat.share 0 = fullShare.left := by unfold Dat.share; rw [if_neg (by decide)]; exact hq0
  have e1 : dat.share 1 = fullShare.right := by unfold Dat.share; rw [if_neg (by decide)]; exact hq1
  have e2 : dat.share 2 = fullShare := by unfold Dat.share; rw [if_pos (by decide)]
  rw [e0, e1, e2]
  rw [arrBufs2_eq]
  have hs := (pointsTo_share (nD := nD) (τ := τ) (sig := sig) (Ix := Unit) (Val := Elt F) (Name := ℕ) (U := UR sig nD τ) (Lvl := ℕ)
    (ℓ := (c : Thread nD τ).loc main_v84) (I := Finset.univ) (f := V main_v84) (PosShare.mem_left_op_right fullShare)).1
  iintro ⟨H84, H85⟩
  ihave H := hs $$ H84
  icases H with ⟨Hl, Hr⟩
  isplitl [Hl]; · iexact Hl
  isplitl [Hr]; · iexact Hr
  iexact H85

/-- EXIT: the two halves of the latent matrix rejoin; the result array is held at what the region left. -/
theorem arrays2_join (c : Dev nD) (V' : (b : Ref sig .tc) → Buf (Elt F) ((c : Thread nD τ).loc b))
    (dat : Dat τ (Elt F) Unit ℕ (UR sig nD τ) ℕ cfg2 c) (hq0 : dat.q 0 = fullShare.left) (hq1 : dat.q 1 = fullShare.right)
    (A : (w : Fin cfg2.W) → Buf (Elt F) ((cfg2.win w).arr.view.loc (c : Thread nD τ)))
    (h0 : A 0 = V' main_v84) (h1 : A 1 = V' main_v84) (h2 : A 2 = V' main_v85) :
    (dat.arrays A : sProp 𝕄) ⊢ Pipeline.arrBufs (Ix := Unit) (Name := ℕ) (U := UR sig nD τ) (Lvl := ℕ) spec2 c V' := by
  rw [arrays2_eq c dat A, h0, h1, h2]
  have e0 : dat.share 0 = fullShare.left := by unfold Dat.share; rw [if_neg (by decide)]; exact hq0
  have e1 : dat.share 1 = fullShare.right := by unfold Dat.share; rw [if_neg (by decide)]; exact hq1
  have e2 : dat.share 2 = fullShare := by unfold Dat.share; rw [if_pos (by decide)]
  rw [e0, e1, e2]
  rw [arrBufs2_eq]
  iintro ⟨Hl, Hr, H85⟩
  isplitl [Hl Hr]
  · iapply (pointsTo_share (nD := nD) (τ := τ) (sig := sig) (Ix := Unit) (Val := Elt F) (Name := ℕ) (U := UR sig nD τ) (Lvl := ℕ)
      (ℓ := (c : Thread nD τ).loc main_v84) (I := Finset.univ) (f := V' main_v84) (PosShare.mem_left_op_right fullShare)).2
    isplitl [Hl]; · iexact Hl
    iexact Hr
  iexact H85

theorem q2_0 (V : (c : Dev nD) → (b : Ref sig .tc) → Buf (Elt F) ((c : Thread nD τ).loc b)) (c : Dev nD) : (dat2 V c).q 0 = fullShare.left := by dsimp only [dat2]
theorem q2_1 (V : (c : Dev nD) → (b : Ref sig .tc) → Buf (Elt F) ((c : Thread nD τ).loc b)) (c : Dev nD) : (dat2 V c).q 1 = fullShare.right := by dsimp only [dat2]

set_option maxHeartbeats 1000000 in
/-- Region 2's entry, the arrays' part: out of every unscoped buffer at `W5`. -/
theorem hsplit2 (c : Dev nD) :
    (unscopedBufs c (V5 m c) : sProp 𝕄)
      ⊢ iprop((dat2 (V5 m) c).arrays ((dat2 (V5 m) c).arrAt · 0) ∗ Pipeline.unscopedRest spec2 c (V5 m c)) := by
  rw [Pipeline.unscopedBufs_split₀ cfgs 2 winFacts₀2.arr_unscoped c (V5 m c)]
  exact sep_mono (arrays2_split c (V5 m c) (dat2 (V5 m) c) (q2_0 (V5 m) c) (q2_1 (V5 m) c) _ (A_eq2 (V5 m) c 0) (A_eq2 (V5 m) c 1) (A_eq2 (V5 m) c 2)) .rfl

set_option maxHeartbeats 1000000 in
/-- Region 2's exit, the arrays' part: back among every unscoped buffer, now at `W6`. -/
theorem hjoin2 (c : Dev nD) :
    iprop((dat2 (V5 m) c).arrays ((dat2 (V5 m) c).arrAt · cfg2.N) ∗ Pipeline.unscopedRest spec2 c (V5 m c))
      ⊢ (unscopedBufs c (V6 m c) : sProp 𝕄) := by
  rw [Pipeline.unscopedBufs_split₀ cfgs 2 winFacts₀2.arr_unscoped c (V6 m c)]
  refine sep_mono (arrays2_join c (V6 m c) (dat2 (V5 m) c) (q2_0 (V5 m) c) (q2_1 (V5 m) c) _ ?_ ?_ ?_) (Entails.of_eq ?_)
  · exact (((dat2 (V5 m) c).arrAt_in 0 rfl _).trans (A_eq2 (V5 m) c 0)).trans (W6_of_ne m c main_v84 (by decide)).symm
  · exact (((dat2 (V5 m) c).arrAt_in 1 rfl _).trans (A_eq2 (V5 m) c 1)).trans (W6_of_ne m c main_v84 (by decide)).symm
  · exact (W6_out m c).symm
  · unfold Pipeline.unscopedRest
    exact bigSep_congr fun b hb => by
      have hne : b ≠ main_v85 := fun e => (Finset.mem_sdiff.mp hb).2 (by rw [image_arr2, e]; exact Finset.mem_insert_of_mem (Finset.mem_singleton_self _))
      rw [show V6 m c b = V5 m c b from W6_of_ne m c b hne]

set_option backward.isDefEq.respectTransparency.types false in
/-- REGION 2 over the thread state: entered from every unscoped buffer at `W5`, left at `W6`.  Its two input
    windows read the latent matrix, split between them at entry and rejoined at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit : (unscopedBufs c (V5 m c) : sProp 𝕄)
        ⊢ iprop((pdats m 2 c).arrays ((pdats m 2 c).arrAt · 0) ∗ Pipeline.unscopedRest spec2 c (V5 m c)) := hsplit2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (V5 m c))
        ⊢ (unscopedBufs c (V6 m c) : sProp 𝕄) := hjoin2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .host (hseg hostOps3_1 hostOps3_1_sub hostOps3_1_fresh (W7 m)) ]

/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing
    faulting, and every final state holds each unscoped TensorCore buffer at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W8 m c) ∗ R c) ⊢ _ from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-! ## What no stretch and no region writes is read back through the fold to the launch memory -/

/-- Region 0 leaves every buffer but its result array as it found it (its two input arrays are never written). -/
theorem W2_keep (c : Dev nD) (r : Ref sig .tc) (hr : r ≠ main_v29) : W2 m c (Proc.devRef .tc r) = W1 m c (Proc.devRef .tc r) := by
  by_cases h0 : r = main_arg0
  · subst h0; exact (W2_arr m c 0).trans (((dat0 (V1 m) c).arrAt_in 0 rfl _).trans (A_eq0 (V1 m) c 0))
  by_cases h1 : r = main_arg3
  · subst h1; exact (W2_arr m c 1).trans (((dat0 (V1 m) c).arrAt_in 1 rfl _).trans (A_eq0 (V1 m) c 1))
  exact W2_of_ne m c r fun w => by
    match w with
    | ⟨0, _⟩ => exact Ne.symm h0
    | ⟨1, _⟩ => exact Ne.symm h1
    | ⟨2, _⟩ => exact Ne.symm hr

/-- Region 1 leaves every buffer but its result array as it found it. -/
theorem W4_keep (c : Dev nD) (r : Ref sig .tc) (hr : r ≠ main_v47) : W4 m c (Proc.devRef .tc r) = W3 m c (Proc.devRef .tc r) := by
  by_cases h0 : r = main_v45
  · subst h0; exact (W4_arr m c 0).trans (((dat1 (V3 m) c).arrAt_in 0 rfl _).trans (A_eq1 (V3 m) c 0))
  by_cases h1 : r = main_v46
  · subst h1; exact (W4_arr m c 1).trans (((dat1 (V3 m) c).arrAt_in 1 rfl _).trans (A_eq1 (V3 m) c 1))
  exact W4_of_ne m c r fun w => by
    match w with
    | ⟨0, _⟩ => exact Ne.symm h0
    | ⟨1, _⟩ => exact Ne.symm h1
    | ⟨2, _⟩ => exact Ne.symm hr

/-- A buffer that no host stretch writes and that is no region's result array ends as launched. -/
theorem W8_keep (c : Dev nD) (r : Ref sig .tc) (h0 : r ∉ hostOps0_W) (h1 : r ∉ hostOps1_W) (h2 : r ∉ hostOps2_W)
    (h3 : r ∉ hostOps3_W) (h31 : r ∉ hostOps3_1_W) (e29 : r ≠ main_v29) (e47 : r ≠ main_v47) (e85 : r ≠ main_v85) :
    W8 m c (Proc.devRef .tc r) = m ((c : Thread nD τ).loc r) :=
  calc W8 m c (Proc.devRef .tc r)
    _ = W7 m c (Proc.devRef .tc r) := StableHlo.after_of_writes_sub hostOps3_1 _ hostOps3_1_writes h31
    _ = W6 m c (Proc.devRef .tc r) := StableHlo.after_of_writes_sub hostOps3 _ hostOps3_writes h3
    _ = W5 m c (Proc.devRef .tc r) := W6_of_ne m c r e85
    _ = W4 m c (Proc.devRef .tc r) := StableHlo.after_of_writes_sub hostOps2 _ hostOps2_writes h2
    _ = W3 m c (Proc.devRef .tc r) := W4_keep m c r e47
    _ = W2 m c (Proc.devRef .tc r) := StableHlo.after_of_writes_sub hostOps1 _ hostOps1_writes h1
    _ = W1 m c (Proc.devRef .tc r) := W2_keep m c r e29
    _ = W0 m c (Proc.devRef .tc r) := StableHlo.after_of_writes_sub hostOps0 _ hostOps0_writes h0
    _ = m ((c : Thread nD τ).loc r) := rfl

/-- THE RUN in the claim's shape: the result buffer ends at the fold's last contents, every argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v86) = W8 m c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v86 (by decide)),
      (h c _ (mem_uc main_arg0 (by decide))).trans (W8_keep m c main_arg0 (by decide) (by decide) (by decide) (by decide) (by decide) (by decide) (by decide) (by decide)),
      (h c _ (mem_uc main_arg1 (by decide))).trans (W8_keep m c main_arg1 (by decide) (by decide) (by decide) (by decide) (by decide) (by decide) (by decide) (by decide)),
      (h c _ (mem_uc main_arg2 (by decide))).trans (W8_keep m c main_arg2 (by decide) (by decide) (by decide) (by decide) (by decide) (by decide) (by decide) (by decide)),
      (h c _ (mem_uc main_arg3 (by decide))).trans (W8_keep m c main_arg3 (by decide) (by decide) (by decide) (by decide) (by decide) (by decide) (by decide) (by decide)),
      (h c _ (mem_uc main_arg4 (by decide))).trans (W8_keep m c main_arg4 (by decide) (by decide) (by decide) (by decide) (by decide) (by decide) (by decide) (by decide)),
      (h c _ (mem_uc main_arg5 (by decide))).trans (W8_keep m c main_arg5 (by decide) (by decide) (by decide) (by decide) (by decide) (by decide) (by decide) (by decide)),
      (h c _ (mem_uc main_arg6 (by decide))).trans (W8_keep m c main_arg6 (by decide) (by decide) (by decide) (by decide) (by decide) (by decide) (by decide) (by decide)),
      (h c _ (mem_uc main_arg7 (by decide))).trans (W8_keep m c main_arg7 (by decide) (by decide) (by decide) (by decide) (by decide) (by decide) (by decide) (by decide)),
      (h c _ (mem_uc main_arg8 (by decide))).trans (W8_keep m c main_arg8 (by decide) (by decide) (by decide) (by decide) (by decide) (by decide) (by decide) (by decide))⟩) (run_all m ρ)

/-- THE FRAME: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_main m ρ)

end Cert.Kernel.Regions

end
-- ==== Proof.KernelIdeal.Region0.lean ====
/-
  Region 0 of @main: the first dense layer's matrix product, one grid axis of 8 points.
  Window 0 is a block of 1024 rows of the feature matrix, window 1 the whole weight matrix (fetched once),
  window 2 the block of 1024 rows of the product the point writes back.  Stated at a PARAMETER `V`: the
  TensorCore's buffer contents when the region is entered.  What the body leaves in the output's staging
  buffer is the matrix-product payload of the two input blocks; the input buffers are left as found.
-/
import proofs.«173583_j2808908611975_1_alg».proof.Proof.Gen.KernelIdeal.Launch
import proofs.«173583_j2808908611975_1_alg».proof.Proof.Gen.KernelIdeal.Skeleton
import proofs.«173583_j2808908611975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or
    the block index had not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole output block, as one rectangle. -/
abbrev r0_out : Rect S1024x128 := Rect.unit (s := S1024x128) ![0, 0] S1024x128.size inb_S1024x128_S1024x128_0_0
abbrev r0_in0 : Rect S1024x256 := Rect.unit (s := S1024x256) ![0, 0] S1024x256.size inb_S1024x256_S1024x256_0_0
abbrev r0_in1 : Rect S256x128 := Rect.unit (s := S256x128) ![0, 0] S256x128.size inb_S256x128_S256x128_0_0

/-- What the body leaves in the output's staging buffer: its one whole-block store of the matrix-product payload. -/
def out0_2 (x0 : Vec F S1024x256 .f32) (x1 : Vec F S256x128 .f32) : Vec F S1024x128 .f32 :=
  View.canon [⟨r0_out, k0_pay1 (View.ld x0 r0_in0) (View.ld x1 r0_in1)⟩]

theorem cover0_2 (p0 : Vec F S1024x128 .f32) (y : S1024x128.Idx) :
    ∃ pc ∈ ([⟨r0_out, p0⟩] : List (View.Piece (Elt F) S1024x128 .f32)), y ∈ pc.1.set :=
  View.cover_of_tiled [⟨r0_out, p0⟩] S1024x128.size (by rfl) y

set_option maxHeartbeats 1000000 in
/-- The body on whole staging memrefs: the inputs at read contents, the output at anything; it ends with the
    inputs as they were and the output at `out0_2` of the inputs. -/
theorem sound_kernel0 (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Pipeline 0's proof data on core `c`: the arrays as the region finds them; after the body each input's buffer
    at its block, the output's at the matrix-product payload of the two input blocks; the scoped rest and the
    generator register as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.KernelIdeal.Region1.lean ====
/-
  Region 1 of @main: the second dense layer's matrix product (the hidden features against the two
  weight matrices laid side by side), one grid axis of 8 points; windows as in region 0.
-/
import proofs.«173583_j2808908611975_1_alg».proof.Proof.Gen.KernelIdeal.Launch
import proofs.«173583_j2808908611975_1_alg».proof.Proof.Gen.KernelIdeal.Skeleton
import proofs.«173583_j2808908611975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or
    the block index had not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole output block, as one rectangle. -/
abbrev r1_out : Rect S1024x128 := Rect.unit (s := S1024x128) ![0, 0] S1024x128.size inb_S1024x128_S1024x128_0_0
abbrev r1_in0 : Rect S1024x128 := Rect.unit (s := S1024x128) ![0, 0] S1024x128.size inb_S1024x128_S1024x128_0_0
abbrev r1_in1 : Rect S128x128 := Rect.unit (s := S128x128) ![0, 0] S128x128.size inb_S128x128_S128x128_0_0

/-- What the body leaves in the output's staging buffer: its one whole-block store of the matrix-product payload. -/
def out1_2 (x0 : Vec F S1024x128 .f32) (x1 : Vec F S128x128 .f32) : Vec F S1024x128 .f32 :=
  View.canon [⟨r1_out, k1_pay1 (View.ld x0 r1_in0) (View.ld x1 r1_in1)⟩]

theorem cover1_2 (p0 : Vec F S1024x128 .f32) (y : S1024x128.Idx) :
    ∃ pc ∈ ([⟨r1_out, p0⟩] : List (View.Piece (Elt F) S1024x128 .f32)), y ∈ pc.1.set :=
  View.cover_of_tiled [⟨r1_out, p0⟩] S1024x128.size (by rfl) y

set_option maxHeartbeats 1000000 in
/-- The body on whole staging memrefs: the inputs at read contents, the output at anything; it ends with the
    inputs as they were and the output at `out1_2` of the inputs. -/
theorem sound_kernel1 (c : Dev nD) (E : Set ℕ) (i : grid1.Coords)
    (arg1 : Memref sig .tc .vmem S1024x128 .f32) (harg1 : arg1.IsWhole) (arg2 : Memref sig .tc .vmem S128x128 .f32) (harg2 : arg2.IsWhole)
    (arg3 : Memref sig .tc .vmem S1024x128 .f32) (harg3 : arg3.IsWhole)
    (x0 : Vec F S1024x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- Pipeline 1's proof data on core `c`: the arrays as the region finds them; after the body each input's buffer
    at its block, the output's at the matrix-product payload of the two input blocks; the scoped rest and the
    generator register as invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.KernelIdeal.Region2.lean ====
/-
  Region 2 of @main: the inner-product decoder, a grid of 8 × 8 points.
  Windows 0 and 1 are two blocks of 1024 rows of ONE array, the latent matrix z: rows block i for window 0
  (fetched when i changes), rows block j for window 1; window 2 is the 1024 × 1024 block (i, j) of the
  result.  The core holds z once, so each input window holds it at half a share.  What the body leaves in
  the output's staging buffer is the decoder payload (logistic of the block product, infinities clamped)
  of the two input blocks.
-/
import proofs.«173583_j2808908611975_1_alg».proof.Proof.Gen.KernelIdeal.Launch
import proofs.«173583_j2808908611975_1_alg».proof.Proof.Gen.KernelIdeal.Skeleton
import proofs.«173583_j2808908611975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetched it or
    the block index had not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole output block, as one rectangle. -/
abbrev r2_out : Rect S1024x1024 := Rect.unit (s := S1024x1024) ![0, 0] S1024x1024.size inb_S1024x1024_S1024x1024_0_0
abbrev r2_in0 : Rect S1024x64 := Rect.unit (s := S1024x64) ![0, 0] S1024x64.size inb_S1024x64_S1024x64_0_0
abbrev r2_in1 : Rect S1024x64 := Rect.unit (s := S1024x64) ![0, 0] S1024x64.size inb_S1024x64_S1024x64_0_0

/-- What the body leaves in the output's staging buffer: its one whole-block store of the decoder payload. -/
def out2_2 (x0 : Vec F S1024x64 .f32) (x1 : Vec F S1024x64 .f32) : Vec F S1024x1024 .f32 :=
  View.canon [⟨r2_out, k2_pay1 (View.ld x0 r2_in0) (View.ld x1 r2_in1)⟩]

theorem cover2_2 (p0 : Vec F S1024x1024 .f32) (y : S1024x1024.Idx) :
    ∃ pc ∈ ([⟨r2_out, p0⟩] : List (View.Piece (Elt F) S1024x1024 .f32)), y ∈ pc.1.set :=
  View.cover_of_tiled [⟨r2_out, p0⟩] S1024x1024.size (by rfl) y

set_option maxHeartbeats 1000000 in
/-- The body on whole staging memrefs: the inputs at read contents, the output at anything; it ends with the
    inputs as they were and the output at `out2_2` of the inputs. -/
theorem sound_kernel2 (c : Dev nD) (E : Set ℕ) (i : grid2.Coords)
    (arg1 : Memref sig .tc .vmem S1024x64 .f32) (harg1 : arg1.IsWhole) (arg2 : Memref sig .tc .vmem S1024x64 .f32) (harg2 : arg2.IsWhole)
    (arg3 : Memref sig .tc .vmem S1024x1024 .f32) (harg3 : arg3.IsWhole)
    (x0 : Vec F S1024x64 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__decode_kernel i arg1 harg1 arg2 harg2 arg3 harg3) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- Pipeline 2's proof data on core `c`: the arrays as the region finds them; after the body each input's buffer
    at its block, the output's at the decoder payload of the two input blocks; the scoped rest and the
    generator register as invariant; nothing owed; the two input windows hold their common array at the two
    halves of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regions

end
-- ==== Proof.KernelIdeal.Run.lean ====
/-
  The whole run of @main on a TensorCore: three kernel regions among five stretches of host operations.
  The buffer contents at every boundary are a fold from the launch memory: a host stretch applies its
  operations; a region leaves in its output array what its grid points write back and every other buffer as it
  found it.  Every weakly fair execution terminates, and at the end EVERY unscoped buffer holds the last
  boundary's contents — the arguments are read back through the fold to their launch contents (no stretch and
  no region writes one), the result through the fold to the regions' arrays.
-/
import proofs.«173583_j2808908611975_1_alg».proof.Proof.KernelIdeal.Region0
import proofs.«173583_j2808908611975_1_alg».proof.Proof.KernelIdeal.Region1
import proofs.«173583_j2808908611975_1_alg».proof.Proof.KernelIdeal.Region2
import proofs.«173583_j2808908611975_1_alg».proof.Proof.Gen.KernelIdeal.Regions

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: the decoder's result array at what its 64 write-backs leave; the latent matrix, which
    both input windows read, and every other buffer as entered. -/
def W6 (c : Dev nD) : Valuation τ sig (Elt F) :=
  Function.update (W5 m c) (Proc.devRef .tc main_v85) ((dat2 (V5 m) c).arrAt 2 cfg2.N)
theorem W6_out (c : Dev nD) : W6 m c (Proc.devRef .tc main_v85) = (dat2 (V5 m) c).arrAt 2 cfg2.N :=
  Function.update_self ..
theorem W6_of_ne (c : Dev nD) (b : Ref sig .tc) (hb : b ≠ main_v85) :
    W6 m c (Proc.devRef .tc b) = W5 m c (Proc.devRef .tc b) :=
  Function.update_of_ne (StableHlo.devRef_ne_of_ne hb) ..
abbrev V6 : (c : Dev nD) → (b : Ref sig .tc) → Buf (Elt F) ((c : Thread nD τ).loc b) := fun c b => W6 m c b
/-- After the two last host stretches (the clamp of infinities, a function of its own in the program). -/
abbrev W7 : Dev nD → Valuation τ sig (Elt F) := fun c => StableHlo.after hostOps3 (W6 m c)
abbrev W8 : Dev nD → Valuation τ sig (Elt F) := fun c => StableHlo.after hostOps3_1 (W7 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2's arrays: ONE array behind the two input windows -/

theorem image_arr2 : Finset.univ.image (Pipeline.arrRef spec2) = {main_v84, main_v85} := by decide

/-- Region 2's windowed arrays, each a whole buffer, window by window at its share. -/
theorem arrays2_eq (c : Dev nD) (dat : Dat τ (Elt F) Unit ℕ (UR sig nD τ) ℕ cfg2 c)
    (A : (w : Fin cfg2.W) → Buf (Elt F) ((cfg2.win w).arr.view.loc (c : Thread nD τ))) :
    (dat.arrays A : sProp 𝕄)
      = iprop((((c : Thread nD τ).loc main_v84) ↦{dat.share 0} A 0) ∗ (((c : Thread nD τ).loc main_v84) ↦{dat.share 1} A 1)
          ∗ (((c : Thread nD τ).loc main_v85) ↦{dat.share 2} A 2)) := by
  unfold Dat.arrays
  rw [bigSep_W2]
  rw [(arr_whole2 0).set_eq_univ, (arr_whole2 2).set_eq_univ]

/-- The buffers behind region 2's arrays: the latent matrix and the result array, each whole at the full share. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v84) ↦{fullShare} V main_v84) ∗ (((c : Thread nD τ).loc main_v85) ↦{fullShare} V main_v85)) := by
  unfold Pipeline.arrBufs
  rw [image_arr2, bigSep_insert (by decide), bigSep_singleton]
  rfl

/-- ENTRY: the latent matrix and the result array, each held whole, are region 2's three windows' arrays — the
    latent matrix split into the two halves of the full share, one per input window. -/
theorem arrays2_split (c : Dev nD) (V : (b : Ref sig .tc) → Buf (Elt F) ((c : Thread nD τ).loc b))
    (dat : Dat τ (Elt F) Unit ℕ (UR sig nD τ) ℕ cfg2 c) (hq0 : dat.q 0 = fullShare.left) (hq1 : dat.q 1 = fullShare.right)
    (A : (w : Fin cfg2.W) → Buf (Elt F) ((cfg2.win w).arr.view.loc (c : Thread nD τ)))
    (h0 : A 0 = V main_v84) (h1 : A 1 = V main_v84) (h2 : A 2 = V main_v85) :
    (Pipeline.arrBufs (Ix := Unit) (Name := ℕ) (U := UR sig nD τ) (Lvl := ℕ) spec2 c V : sProp 𝕄) ⊢ dat.arrays A := by
  rw [arrays2_eq c dat A, h0, h1, h2]
  have e0 : dat.share 0 = fullShare.left := by unfold Dat.share; rw [if_neg (by decide)]; exact hq0
  have e1 : dat.share 1 = fullShare.right := by unfold Dat.share; rw [if_neg (by decide)]; exact hq1
  have e2 : dat.share 2 = fullShare := by unfold Dat.share; rw [if_pos (by decide)]
  rw [e0, e1, e2]
  rw [arrBufs2_eq]
  have hs := (pointsTo_share (nD := nD) (τ := τ) (sig := sig) (Ix := Unit) (Val := Elt F) (Name := ℕ) (U := UR sig nD τ) (Lvl := ℕ)
    (ℓ := (c : Thread nD τ).loc main_v84) (I := Finset.univ) (f := V main_v84) (PosShare.mem_left_op_right fullShare)).1
  iintro ⟨H84, H85⟩
  ihave H := hs $$ H84
  icases H with ⟨Hl, Hr⟩
  isplitl [Hl]; · iexact Hl
  isplitl [Hr]; · iexact Hr
  iexact H85

/-- EXIT: the two halves of the latent matrix rejoin; the result array is held at what the region left. -/
theorem arrays2_join (c : Dev nD) (V' : (b : Ref sig .tc) → Buf (Elt F) ((c : Thread nD τ).loc b))
    (dat : Dat τ (Elt F) Unit ℕ (UR sig nD τ) ℕ cfg2 c) (hq0 : dat.q 0 = fullShare.left) (hq1 : dat.q 1 = fullShare.right)
    (A : (w : Fin cfg2.W) → Buf (Elt F) ((cfg2.win w).arr.view.loc (c : Thread nD τ)))
    (h0 : A 0 = V' main_v84) (h1 : A 1 = V' main_v84) (h2 : A 2 = V' main_v85) :
    (dat.arrays A : sProp 𝕄) ⊢ Pipeline.arrBufs (Ix := Unit) (Name := ℕ) (U := UR sig nD τ) (Lvl := ℕ) spec2 c V' := by
  rw [arrays2_eq c dat A, h0, h1, h2]
  have e0 : dat.share 0 = fullShare.left := by unfold Dat.share; rw [if_neg (by decide)]; exact hq0
  have e1 : dat.share 1 = fullShare.right := by unfold Dat.share; rw [if_neg (by decide)]; exact hq1
  have e2 : dat.share 2 = fullShare := by unfold Dat.share; rw [if_pos (by decide)]
  rw [e0, e1, e2]
  rw [arrBufs2_eq]
  iintro ⟨Hl, Hr, H85⟩
  isplitl [Hl Hr]
  · iapply (pointsTo_share (nD := nD) (τ := τ) (sig := sig) (Ix := Unit) (Val := Elt F) (Name := ℕ) (U := UR sig nD τ) (Lvl := ℕ)
      (ℓ := (c : Thread nD τ).loc main_v84) (I := Finset.univ) (f := V' main_v84) (PosShare.mem_left_op_right fullShare)).2
    isplitl [Hl]; · iexact Hl
    iexact Hr
  iexact H85

theorem q2_0 (V : (c : Dev nD) → (b : Ref sig .tc) → Buf (Elt F) ((c : Thread nD τ).loc b)) (c : Dev nD) : (dat2 V c).q 0 = fullShare.left := by dsimp only [dat2]
theorem q2_1 (V : (c : Dev nD) → (b : Ref sig .tc) → Buf (Elt F) ((c : Thread nD τ).loc b)) (c : Dev nD) : (dat2 V c).q 1 = fullShare.right := by dsimp only [dat2]

set_option maxHeartbeats 1000000 in
/-- Region 2's entry, the arrays' part: out of every unscoped buffer at `W5`. -/
theorem hsplit2 (c : Dev nD) :
    (unscopedBufs c (V5 m c) : sProp 𝕄)
      ⊢ iprop((dat2 (V5 m) c).arrays ((dat2 (V5 m) c).arrAt · 0) ∗ Pipeline.unscopedRest spec2 c (V5 m c)) := by
  rw [Pipeline.unscopedBufs_split₀ cfgs 2 winFacts₀2.arr_unscoped c (V5 m c)]
  exact sep_mono (arrays2_split c (V5 m c) (dat2 (V5 m) c) (q2_0 (V5 m) c) (q2_1 (V5 m) c) _ (A_eq2 (V5 m) c 0) (A_eq2 (V5 m) c 1) (A_eq2 (V5 m) c 2)) .rfl

set_option maxHeartbeats 1000000 in
/-- Region 2's exit, the arrays' part: back among every unscoped buffer, now at `W6`. -/
theorem hjoin2 (c : Dev nD) :
    iprop((dat2 (V5 m) c).arrays ((dat2 (V5 m) c).arrAt · cfg2.N) ∗ Pipeline.unscopedRest spec2 c (V5 m c))
      ⊢ (unscopedBufs c (V6 m c) : sProp 𝕄) := by
  rw [Pipeline.unscopedBufs_split₀ cfgs 2 winFacts₀2.arr_unscoped c (V6 m c)]
  refine sep_mono (arrays2_join c (V6 m c) (dat2 (V5 m) c) (q2_0 (V5 m) c) (q2_1 (V5 m) c) _ ?_ ?_ ?_) (Entails.of_eq ?_)
  · exact (((dat2 (V5 m) c).arrAt_in 0 rfl _).trans (A_eq2 (V5 m) c 0)).trans (W6_of_ne m c main_v84 (by decide)).symm
  · exact (((dat2 (V5 m) c).arrAt_in 1 rfl _).trans (A_eq2 (V5 m) c 1)).trans (W6_of_ne m c main_v84 (by decide)).symm
  · exact (W6_out m c).symm
  · unfold Pipeline.unscopedRest
    exact bigSep_congr fun b hb => by
      have hne : b ≠ main_v85 := fun e => (Finset.mem_sdiff.mp hb).2 (by rw [image_arr2, e]; exact Finset.mem_insert_of_mem (Finset.mem_singleton_self _))
      rw [show V6 m c b = V5 m c b from W6_of_ne m c b hne]

set_option backward.isDefEq.respectTransparency.types false in
/-- REGION 2 over the thread state: entered from every unscoped buffer at `W5`, left at `W6`.  Its two input
    windows read the latent matrix, split between them at entry and rejoined at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit : (unscopedBufs c (V5 m c) : sProp 𝕄)
        ⊢ iprop((pdats m 2 c).arrays ((pdats m 2 c).arrAt · 0) ∗ Pipeline.unscopedRest spec2 c (V5 m c)) := hsplit2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (V5 m c))
        ⊢ (unscopedBufs c (V6 m c) : sProp 𝕄) := hjoin2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .host (hseg hostOps3_1 hostOps3_1_sub hostOps3_1_fresh (W7 m)) ]

/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing
    faulting, and every final state holds each unscoped TensorCore buffer at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W8 m c) ∗ R c) ⊢ _ from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-! ## What no stretch and no region writes is read back through the fold to the launch memory -/

/-- Region 0 leaves every buffer but its result array as it found it (its two input arrays are never written). -/
theorem W2_keep (c : Dev nD) (r : Ref sig .tc) (hr : r ≠ main_v29) : W2 m c (Proc.devRef .tc r) = W1 m c (Proc.devRef .tc r) := by
  by_cases h0 : r = main_arg0
  · subst h0; exact (W2_arr m c 0).trans (((dat0 (V1 m) c).arrAt_in 0 rfl _).trans (A_eq0 (V1 m) c 0))
  by_cases h1 : r = main_arg3
  · subst h1; exact (W2_arr m c 1).trans (((dat0 (V1 m) c).arrAt_in 1 rfl _).trans (A_eq0 (V1 m) c 1))
  exact W2_of_ne m c r fun w => by
    match w with
    | ⟨0, _⟩ => exact Ne.symm h0
    | ⟨1, _⟩ => exact Ne.symm h1
    | ⟨2, _⟩ => exact Ne.symm hr

/-- Region 1 leaves every buffer but its result array as it found it. -/
theorem W4_keep (c : Dev nD) (r : Ref sig .tc) (hr : r ≠ main_v47) : W4 m c (Proc.devRef .tc r) = W3 m c (Proc.devRef .tc r) := by
  by_cases h0 : r = main_v45
  · subst h0; exact (W4_arr m c 0).trans (((dat1 (V3 m) c).arrAt_in 0 rfl _).trans (A_eq1 (V3 m) c 0))
  by_cases h1 : r = main_v46
  · subst h1; exact (W4_arr m c 1).trans (((dat1 (V3 m) c).arrAt_in 1 rfl _).trans (A_eq1 (V3 m) c 1))
  exact W4_of_ne m c r fun w => by
    match w with
    | ⟨0, _⟩ => exact Ne.symm h0
    | ⟨1, _⟩ => exact Ne.symm h1
    | ⟨2, _⟩ => exact Ne.symm hr

/-- A buffer that no host stretch writes and that is no region's result array ends as launched. -/
theorem W8_keep (c : Dev nD) (r : Ref sig .tc) (h0 : r ∉ hostOps0_W) (h1 : r ∉ hostOps1_W) (h2 : r ∉ hostOps2_W)
    (h3 : r ∉ hostOps3_W) (h31 : r ∉ hostOps3_1_W) (e29 : r ≠ main_v29) (e47 : r ≠ main_v47) (e85 : r ≠ main_v85) :
    W8 m c (Proc.devRef .tc r) = m ((c : Thread nD τ).loc r) :=
  calc W8 m c (Proc.devRef .tc r)
    _ = W7 m c (Proc.devRef .tc r) := StableHlo.after_of_writes_sub hostOps3_1 _ hostOps3_1_writes h31
    _ = W6 m c (Proc.devRef .tc r) := StableHlo.after_of_writes_sub hostOps3 _ hostOps3_writes h3
    _ = W5 m c (Proc.devRef .tc r) := W6_of_ne m c r e85
    _ = W4 m c (Proc.devRef .tc r) := StableHlo.after_of_writes_sub hostOps2 _ hostOps2_writes h2
    _ = W3 m c (Proc.devRef .tc r) := W4_keep m c r e47
    _ = W2 m c (Proc.devRef .tc r) := StableHlo.after_of_writes_sub hostOps1 _ hostOps1_writes h1
    _ = W1 m c (Proc.devRef .tc r) := W2_keep m c r e29
    _ = W0 m c (Proc.devRef .tc r) := StableHlo.after_of_writes_sub hostOps0 _ hostOps0_writes h0
    _ = m ((c : Thread nD τ).loc r) := rfl

/-- THE RUN in the claim's shape: the result buffer ends at the fold's last contents, every argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v86) = W8 m c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v86 (by decide)),
      (h c _ (mem_uc main_arg0 (by decide))).trans (W8_keep m c main_arg0 (by decide) (by decide) (by decide) (by decide) (by decide) (by decide) (by decide) (by decide)),
      (h c _ (mem_uc main_arg1 (by decide))).trans (W8_keep m c main_arg1 (by decide) (by decide) (by decide) (by decide) (by decide) (by decide) (by decide) (by decide)),
      (h c _ (mem_uc main_arg2 (by decide))).trans (W8_keep m c main_arg2 (by decide) (by decide) (by decide) (by decide) (by decide) (by decide) (by decide) (by decide)),
      (h c _ (mem_uc main_arg3 (by decide))).trans (W8_keep m c main_arg3 (by decide) (by decide) (by decide) (by decide) (by decide) (by decide) (by decide) (by decide)),
      (h c _ (mem_uc main_arg4 (by decide))).trans (W8_keep m c main_arg4 (by decide) (by decide) (by decide) (by decide) (by decide) (by decide) (by decide) (by decide)),
      (h c _ (mem_uc main_arg5 (by decide))).trans (W8_keep m c main_arg5 (by decide) (by decide) (by decide) (by decide) (by decide) (by decide) (by decide) (by decide)),
      (h c _ (mem_uc main_arg6 (by decide))).trans (W8_keep m c main_arg6 (by decide) (by decide) (by decide) (by decide) (by decide) (by decide) (by decide) (by decide)),
      (h c _ (mem_uc main_arg7 (by decide))).trans (W8_keep m c main_arg7 (by decide) (by decide) (by decide) (by decide) (by decide) (by decide) (by decide) (by decide)),
      (h c _ (mem_uc main_arg8 (by decide))).trans (W8_keep m c main_arg8 (by decide) (by decide) (by decide) (by decide) (by decide) (by decide) (by decide) (by decide))⟩) (run_all m ρ)

/-- THE FRAME: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_main m ρ)

end Cert.KernelIdeal.Regions

end
-- ==== Proof.RefRun.lean ====
/-
  The reference program's run, read as a fold.  The reference is a straight line of whole-array operations: index
  arithmetic on the edge list (self-loops appended, negative indices wrapped), the symmetric degree normalisation
  (a scatter-add of ones, a floor at one, the reciprocal square root gathered at both ends of every edge), three
  graph-convolution layers (a matrix product, a gather along the edges, the edge weight, a scatter-add back to the
  rows, a bias), the sampled latent rows (mean plus noise times the exponential of the log-deviation), their Gram
  matrix through the logistic function, and last the replacement of not-a-number by zero and of the two infinities
  by the largest finite values, which the program states as a function of its own calling a select three times.

  Listed in order, with that function's and the select's bodies written out at the buffers of their one call, the
  program IS the sequence of these operations; each touches only device buffers; so every weakly fair execution
  terminates, and each buffer ends at the operations' results composed, in order, over the launch contents.
  The list is cut at the three matrix products that feed later layers, so that a reader of the fold can stop
  at each of them.
-/
import proofs.«173583_j2808908611975_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- The edge list with self-loops (sources, then targets), the degrees by scatter-add of ones, their floor at one and
    reciprocal square root, both index columns wrapped, and the edge weight: the product of the two gathered factors
    (36 operations, the constants included). -/
abbrev opsR0 : List (HloOp τ sig (Elt F)) :=
  [ StableHlo.nullary main_v0 (iotaInDim S8192 32 0),
    StableHlo.unary main_arg1 main_v1 ((extractStridedSlice S1x393216 ![0, 0] · slices_S2x393216_S1x393216_0_0) : (⟨S2x393216, .i32⟩ : BufTy).Contents (Elt F) → (⟨S1x393216, .i32⟩ : BufTy).Contents (Elt F)),
    StableHlo.reshape main_v1 main_v2 rfl shapeCasts_S1x393216_S393216,
    StableHlo.binary main_v2 main_v0 main_v3 ((fun a b => concatenate S401408 0 [⟨S393216, a⟩, ⟨S8192, b⟩] concatenates_S393216_S8192_S401408_d0) : (⟨S393216, .i32⟩ : BufTy).Contents (Elt F) → (⟨S8192, .i32⟩ : BufTy).Contents (Elt F) → (⟨S401408, .i32⟩ : BufTy).Contents (Elt F)),
    StableHlo.unary main_arg1 main_v4 ((extractStridedSlice S1x393216 ![1, 0] · slices_S2x393216_S1x393216_1_0) : (⟨S2x393216, .i32⟩ : BufTy).Contents (Elt F) → (⟨S1x393216, .i32⟩ : BufTy).Contents (Elt F)),
    StableHlo.reshape main_v4 main_v5 rfl shapeCasts_S1x393216_S393216,
    StableHlo.binary main_v5 main_v0 main_v6 ((fun a b => concatenate S401408 0 [⟨S393216, a⟩, ⟨S8192, b⟩] concatenates_S393216_S8192_S401408_d0) : (⟨S393216, .i32⟩ : BufTy).Contents (Elt F) → (⟨S8192, .i32⟩ : BufTy).Contents (Elt F) → (⟨S401408, .i32⟩ : BufTy).Contents (Elt F)),
    StableHlo.nullary main_cst (constant S_ .f32 0x3F800000#32),
    StableHlo.unary main_cst main_v7 (broadcastInDim S401408 ![] bcast_S_S401408 : (⟨S_, .f32⟩ : BufTy).Contents (Elt F) → (⟨S401408, .f32⟩ : BufTy).Contents (Elt F)),
    StableHlo.nullary main_cst_0 (constant S_ .f32 0x00000000#32),
    StableHlo.unary main_cst_0 main_v8 (broadcastInDim S8192 ![] bcast_S_S8192 : (⟨S_, .f32⟩ : BufTy).Contents (Elt F) → (⟨S8192, .f32⟩ : BufTy).Contents (Elt F)),
    StableHlo.unary main_v6 main_v9 (broadcastInDim S401408x1 ![0] bcast_S401408_S401408x1_0 : (⟨S401408, .i32⟩ : BufTy).Contents (Elt F) → (⟨S401408x1, .i32⟩ : BufTy).Contents (Elt F)),
    StableHlo.ternary main_v8 main_v9 main_v7 main_v10 ((fun x i u => Host.scatterAdd scatter_S8192_S401408x1_S401408_n_0_0_1 x i u) : (⟨S8192, .f32⟩ : BufTy).Contents (Elt F) → (⟨S401408x1, .i32⟩ : BufTy).Contents (Elt F) → (⟨S401408, .f32⟩ : BufTy).Contents (Elt F) → (⟨S8192, .f32⟩ : BufTy).Contents (Elt F)),
    StableHlo.nullary main_cst_1 (constant S_ .f32 0x3F800000#32),
    StableHlo.unary main_cst_1 main_v11 (broadcastInDim S8192 ![] bcast_S_S8192 : (⟨S_, .f32⟩ : BufTy).Contents (Elt F) → (⟨S8192, .f32⟩ : BufTy).Contents (Elt F)),
    StableHlo.binary main_v10 main_v11 main_v12 (maximumf : (⟨S8192, .f32⟩ : BufTy).Contents (Elt F) → (⟨S8192, .f32⟩ : BufTy).Contents (Elt F) → (⟨S8192, .f32⟩ : BufTy).Contents (Elt F)),
    StableHlo.unary main_v12 main_v13 (Host.rsqrt : (⟨S8192, .f32⟩ : BufTy).Contents (Elt F) → (⟨S8192, .f32⟩ : BufTy).Contents (Elt F)),
    StableHlo.nullary main_c (constantI S_ 32 0#32),
    StableHlo.unary main_c main_v14 (broadcastInDim S401408 ![] bcast_S_S401408 : (⟨S_, .i32⟩ : BufTy).Contents (Elt F) → (⟨S401408, .i32⟩ : BufTy).Contents (Elt F)),
    StableHlo.binary main_v3 main_v14 main_v15 (cmpi .slt : (⟨S401408, .i32⟩ : BufTy).Contents (Elt F) → (⟨S401408, .i32⟩ : BufTy).Contents (Elt F) → (⟨S401408, .i1⟩ : BufTy).Contents (Elt F)),
    StableHlo.nullary main_c_2 (constantI S_ 32 8192#32),
    StableHlo.unary main_c_2 main_v16 (broadcastInDim S401408 ![] bcast_S_S401408 : (⟨S_, .i32⟩ : BufTy).Contents (Elt F) → (⟨S401408, .i32⟩ : BufTy).Contents (Elt F)),
    StableHlo.binary main_v3 main_v16 main_v17 (addi : (⟨S401408, .i32⟩ : BufTy).Contents (Elt F) → (⟨S401408, .i32⟩ : BufTy).Contents (Elt F) → (⟨S401408, .i32⟩ : BufTy).Contents (Elt F)),
    StableHlo.ternary main_v15 main_v17 main_v3 main_v18 (select : (⟨S401408, .i1⟩ : BufTy).Contents (Elt F) → (⟨S401408, .i32⟩ : BufTy).Contents (Elt F) → (⟨S401408, .i32⟩ : BufTy).Contents (Elt F) → (⟨S401408, .i32⟩ : BufTy).Contents (Elt F)),
    StableHlo.unary main_v18 main_v19 (broadcastInDim S401408x1 ![0] bcast_S401408_S401408x1_0 : (⟨S401408, .i32⟩ : BufTy).Contents (Elt F) → (⟨S401408x1, .i32⟩ : BufTy).Contents (Elt F)),
    StableHlo.binary main_v13 main_v19 main_v20 ((fun x i => Host.gather gather_S8192_S401408x1_S401408_n_0_n_n_0_1_1 x i) : (⟨S8192, .f32⟩ : BufTy).Contents (Elt F) → (⟨S401408x1, .i32⟩ : BufTy).Contents (Elt F) → (⟨S401408, .f32⟩ : BufTy).Contents (Elt F)),
    StableHlo.nullary main_c_3 (constantI S_ 32 0#32),
    StableHlo.unary main_c_3 main_v21 (broadcastInDim S401408 ![] bcast_S_S401408 : (⟨S_, .i32⟩ : BufTy).Contents (Elt F) → (⟨S401408, .i32⟩ : BufTy).Contents (Elt F)),
    StableHlo.binary main_v6 main_v21 main_v22 (cmpi .slt : (⟨S401408, .i32⟩ : BufTy).Contents (Elt F) → (⟨S401408, .i32⟩ : BufTy).Contents (Elt F) → (⟨S401408, .i1⟩ : BufTy).Contents (Elt F)),
    StableHlo.nullary main_c_4 (constantI S_ 32 8192#32),
    StableHlo.unary main_c_4 main_v23 (broadcastInDim S401408 ![] bcast_S_S401408 : (⟨S_, .i32⟩ : BufTy).Contents (Elt F) → (⟨S401408, .i32⟩ : BufTy).Contents (Elt F)),
    StableHlo.binary main_v6 main_v23 main_v24 (addi : (⟨S401408, .i32⟩ : BufTy).Contents (Elt F) → (⟨S401408, .i32⟩ : BufTy).Contents (Elt F) → (⟨S401408, .i32⟩ : BufTy).Contents (Elt F)),
    StableHlo.ternary main_v22 main_v24 main_v6 main_v25 (select : (⟨S401408, .i1⟩ : BufTy).Contents (Elt F) → (⟨S401408, .i32⟩ : BufTy).Contents (Elt F) → (⟨S401408, .i32⟩ : BufTy).Contents (Elt F) → (⟨S401408, .i32⟩ : BufTy).Contents (Elt F)),
    StableHlo.unary main_v25 main_v26 (broadcastInDim S401408x1 ![0] bcast_S401408_S401408x1_0 : (⟨S401408, .i32⟩ : BufTy).Contents (Elt F) → (⟨S401408x1, .i32⟩ : BufTy).Contents (Elt F)),
    StableHlo.binary main_v13 main_v26 main_v27 ((fun x i => Host.gather gather_S8192_S401408x1_S401408_n_0_n_n_0_1_1 x i) : (⟨S8192, .f32⟩ : BufTy).Contents (Elt F) → (⟨S401408x1, .i32⟩ : BufTy).Contents (Elt F) → (⟨S401408, .f32⟩ : BufTy).Contents (Elt F)),
    StableHlo.binary main_v20 main_v27 main_v28 (mulf : (⟨S401408, .f32⟩ : BufTy).Contents (Elt F) → (⟨S401408, .f32⟩ : BufTy).Contents (Elt F) → (⟨S401408, .f32⟩ : BufTy).Contents (Elt F)) ]

/-- The first layer's matrix product: features (8192 × 256) times weights (256 × 128). -/
abbrev opR29 : HloOp τ sig (Elt F) :=
  StableHlo.binary main_arg0 main_arg3 main_v29 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F))

/-- The first layer's aggregation: source indices wrapped, the product's rows gathered along the edges, each scaled by
    its edge weight, scatter-added to the target rows of a zero array, the bias added (19 operations). -/
abbrev opsR1 : List (HloOp τ sig (Elt F)) :=
  [ StableHlo.nullary main_c_5 (constantI S_ 32 0#32),
    StableHlo.unary main_c_5 main_v30 (broadcastInDim S401408 ![] bcast_S_S401408 : (⟨S_, .i32⟩ : BufTy).Contents (Elt F) → (⟨S401408, .i32⟩ : BufTy).Contents (Elt F)),
    StableHlo.binary main_v3 main_v30 main_v31 (cmpi .slt : (⟨S401408, .i32⟩ : BufTy).Contents (Elt F) → (⟨S401408, .i32⟩ : BufTy).Contents (Elt F) → (⟨S401408, .i1⟩ : BufTy).Contents (Elt F)),
    StableHlo.nullary main_c_6 (constantI S_ 32 8192#32),
    StableHlo.unary main_c_6 main_v32 (broadcastInDim S401408 ![] bcast_S_S401408 : (⟨S_, .i32⟩ : BufTy).Contents (Elt F) → (⟨S401408, .i32⟩ : BufTy).Contents (Elt F)),
    StableHlo.binary main_v3 main_v32 main_v33 (addi : (⟨S401408, .i32⟩ : BufTy).Contents (Elt F) → (⟨S401408, .i32⟩ : BufTy).Contents (Elt F) → (⟨S401408, .i32⟩ : BufTy).Contents (Elt F)),
    StableHlo.ternary main_v31 main_v33 main_v3 main_v34 (select : (⟨S401408, .i1⟩ : BufTy).Contents (Elt F) → (⟨S401408, .i32⟩ : BufTy).Contents (Elt F) → (⟨S401408, .i32⟩ : BufTy).Contents (Elt F) → (⟨S401408, .i32⟩ : BufTy).Contents (Elt F)),
    StableHlo.unary main_v34 main_v35 (broadcastInDim S401408x1 ![0] bcast_S401408_S401408x1_0 : (⟨S401408, .i32⟩ : BufTy).Contents (Elt F) → (⟨S401408x1, .i32⟩ : BufTy).Contents (Elt F)),
    StableHlo.binary main_v29 main_v35 main_v36 ((fun x i => Host.gather gather_S8192x128_S401408x1_S401408x128_1_0_n_n_0_1_1128 x i) : (⟨S8192x128, .f32⟩ : BufTy).Contents (Elt F) → (⟨S401408x1, .i32⟩ : BufTy).Contents (Elt F) → (⟨S401408x128, .f32⟩ : BufTy).Contents (Elt F)),
    StableHlo.unary main_v28 main_v37 (broadcastInDim S401408x1 ![0] bcast_S401408_S401408x1_0 : (⟨S401408, .f32⟩ : BufTy).Contents (Elt F) → (⟨S401408x1, .f32⟩ : BufTy).Contents (Elt F)),
    StableHlo.unary main_v37 main_v38 (broadcastInDim S401408x128 ![0, 1] bcast_S401408x1_S401408x128_0_1 : (⟨S401408x1, .f32⟩ : BufTy).Contents (Elt F) → (⟨S401408x128, .f32⟩ : BufTy).Contents (Elt F)),
    StableHlo.binary main_v36 main_v38 main_v39 (mulf : (⟨S401408x128, .f32⟩ : BufTy).Contents (Elt F) → (⟨S401408x128, .f32⟩ : BufTy).Contents (Elt F) → (⟨S401408x128, .f32⟩ : BufTy).Contents (Elt F)),
    StableHlo.nullary main_cst_7 (constant S_ .f32 0x00000000#32),
    StableHlo.unary main_cst_7 main_v40 (broadcastInDim S8192x128 ![] bcast_S_S8192x128 : (⟨S_, .f32⟩ : BufTy).Contents (Elt F) → (⟨S8192x128, .f32⟩ : BufTy).Contents (Elt F)),
    StableHlo.unary main_v6 main_v41 (broadcastInDim S401408x1 ![0] bcast_S401408_S401408x1_0 : (⟨S401408, .i32⟩ : BufTy).Contents (Elt F) → (⟨S401408x1, .i32⟩ : BufTy).Contents (Elt F)),
    StableHlo.ternary main_v40 main_v41 main_v39 main_v42 ((fun x i u => Host.scatterAdd scatter_S8192x128_S401408x1_S401408x128_1_0_0_1 x i u) : (⟨S8192x128, .f32⟩ : BufTy).Contents (Elt F) → (⟨S401408x1, .i32⟩ : BufTy).Contents (Elt F) → (⟨S401408x128, .f32⟩ : BufTy).Contents (Elt F) → (⟨S8192x128, .f32⟩ : BufTy).Contents (Elt F)),
    StableHlo.unary main_arg4 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S8192x128 ![0, 1] bcast_S1x128_S8192x128_0_1 : (⟨S1x128, .f32⟩ : BufTy).Contents (Elt F) → (⟨S8192x128, .f32⟩ : BufTy).Contents (Elt F)),
    StableHlo.binary main_v42 main_v44 main_v45 (addf : (⟨S8192x128, .f32⟩ : BufTy).Contents (Elt F) → (⟨S8192x128, .f32⟩ : BufTy).Contents (Elt F) → (⟨S8192x128, .f32⟩ : BufTy).Contents (Elt F)) ]

/-- The mean layer's matrix product: hidden features (8192 × 128) times weights (128 × 64). -/
abbrev opR46 : HloOp τ sig (Elt F) :=
  StableHlo.binary main_v45 main_arg5 main_v46 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F))

/-- The mean layer's aggregation: gather along the edges, edge weight, scatter-add, bias (19 operations). -/
abbrev opsR2a : List (HloOp τ sig (Elt F)) :=
  [ StableHlo.nullary main_c_8 (constantI S_ 32 0#32),
    StableHlo.unary main_c_8 main_v47 (broadcastInDim S401408 ![] bcast_S_S401408 : (⟨S_, .i32⟩ : BufTy).Contents (Elt F) → (⟨S401408, .i32⟩ : BufTy).Contents (Elt F)),
    StableHlo.binary main_v3 main_v47 main_v48 (cmpi .slt : (⟨S401408, .i32⟩ : BufTy).Contents (Elt F) → (⟨S401408, .i32⟩ : BufTy).Contents (Elt F) → (⟨S401408, .i1⟩ : BufTy).Contents (Elt F)),
    StableHlo.nullary main_c_9 (constantI S_ 32 8192#32),
    StableHlo.unary main_c_9 main_v49 (broadcastInDim S401408 ![] bcast_S_S401408 : (⟨S_, .i32⟩ : BufTy).Contents (Elt F) → (⟨S401408, .i32⟩ : BufTy).Contents (Elt F)),
    StableHlo.binary main_v3 main_v49 main_v50 (addi : (⟨S401408, .i32⟩ : BufTy).Contents (Elt F) → (⟨S401408, .i32⟩ : BufTy).Contents (Elt F) → (⟨S401408, .i32⟩ : BufTy).Contents (Elt F)),
    StableHlo.ternary main_v48 main_v50 main_v3 main_v51 (select : (⟨S401408, .i1⟩ : BufTy).Contents (Elt F) → (⟨S401408, .i32⟩ : BufTy).Contents (Elt F) → (⟨S401408, .i32⟩ : BufTy).Contents (Elt F) → (⟨S401408, .i32⟩ : BufTy).Contents (Elt F)),
    StableHlo.unary main_v51 main_v52 (broadcastInDim S401408x1 ![0] bcast_S401408_S401408x1_0 : (⟨S401408, .i32⟩ : BufTy).Contents (Elt F) → (⟨S401408x1, .i32⟩ : BufTy).Contents (Elt F)),
    StableHlo.binary main_v46 main_v52 main_v53 ((fun x i => Host.gather gather_S8192x64_S401408x1_S401408x64_1_0_n_n_0_1_164 x i) : (⟨S8192x64, .f32⟩ : BufTy).Contents (Elt F) → (⟨S401408x1, .i32⟩ : BufTy).Contents (Elt F) → (⟨S401408x64, .f32⟩ : BufTy).Contents (Elt F)),
    StableHlo.unary main_v28 main_v54 (broadcastInDim S401408x1 ![0] bcast_S401408_S401408x1_0 : (⟨S401408, .f32⟩ : BufTy).Contents (Elt F) → (⟨S401408x1, .f32⟩ : BufTy).Contents (Elt F)),
    StableHlo.unary main_v54 main_v55 (broadcastInDim S401408x64 ![0, 1] bcast_S401408x1_S401408x64_0_1 : (⟨S401408x1, .f32⟩ : BufTy).Contents (Elt F) → (⟨S401408x64, .f32⟩ : BufTy).Contents (Elt F)),
    StableHlo.binary main_v53 main_v55 main_v56 (mulf : (⟨S401408x64, .f32⟩ : BufTy).Contents (Elt F) → (⟨S401408x64, .f32⟩ : BufTy).Contents (Elt F) → (⟨S401408x64, .f32⟩ : BufTy).Contents (Elt F)),
    StableHlo.nullary main_cst_10 (constant S_ .f32 0x00000000#32),
    StableHlo.unary main_cst_10 main_v57 (broadcastInDim S8192x64 ![] bcast_S_S8192x64 : (⟨S_, .f32⟩ : BufTy).Contents (Elt F) → (⟨S8192x64, .f32⟩ : BufTy).Contents (Elt F)),
    StableHlo.unary main_v6 main_v58 (broadcastInDim S401408x1 ![0] bcast_S401408_S401408x1_0 : (⟨S401408, .i32⟩ : BufTy).Contents (Elt F) → (⟨S401408x1, .i32⟩ : BufTy).Contents (Elt F)),
    StableHlo.ternary main_v57 main_v58 main_v56 main_v59 ((fun x i u => Host.scatterAdd scatter_S8192x64_S401408x1_S401408x64_1_0_0_1 x i u) : (⟨S8192x64, .f32⟩ : BufTy).Contents (Elt F) → (⟨S401408x1, .i32⟩ : BufTy).Contents (Elt F) → (⟨S401408x64, .f32⟩ : BufTy).Contents (Elt F) → (⟨S8192x64, .f32⟩ : BufTy).Contents (Elt F)),
    StableHlo.unary main_arg6 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S8192x64 ![0, 1] bcast_S1x64_S8192x64_0_1 : (⟨S1x64, .f32⟩ : BufTy).Contents (Elt F) → (⟨S8192x64, .f32⟩ : BufTy).Contents (Elt F)),
    StableHlo.binary main_v59 main_v61 main_v62 (addf : (⟨S8192x64, .f32⟩ : BufTy).Contents (Elt F) → (⟨S8192x64, .f32⟩ : BufTy).Contents (Elt F) → (⟨S8192x64, .f32⟩ : BufTy).Contents (Elt F)) ]

/-- The log-deviation layer's matrix product: the same hidden features times its own weights (128 × 64). -/
abbrev opR63 : HloOp τ sig (Elt F) :=
  StableHlo.binary main_v45 main_arg7 main_v63 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F))

/-- The log-deviation layer's aggregation, then the latent rows: the mean plus the noise times the exponential of the
    log-deviation (22 operations). -/
abbrev opsR2b : List (HloOp τ sig (Elt F)) :=
  [ StableHlo.nullary main_c_11 (constantI S_ 32 0#32),
    StableHlo.unary main_c_11 main_v64 (broadcastInDim S401408 ![] bcast_S_S401408 : (⟨S_, .i32⟩ : BufTy).Contents (Elt F) → (⟨S401408, .i32⟩ : BufTy).Contents (Elt F)),
    StableHlo.binary main_v3 main_v64 main_v65 (cmpi .slt : (⟨S401408, .i32⟩ : BufTy).Contents (Elt F) → (⟨S401408, .i32⟩ : BufTy).Contents (Elt F) → (⟨S401408, .i1⟩ : BufTy).Contents (Elt F)),
    StableHlo.nullary main_c_12 (constantI S_ 32 8192#32),
    StableHlo.unary main_c_12 main_v66 (broadcastInDim S401408 ![] bcast_S_S401408 : (⟨S_, .i32⟩ : BufTy).Contents (Elt F) → (⟨S401408, .i32⟩ : BufTy).Contents (Elt F)),
    StableHlo.binary main_v3 main_v66 main_v67 (addi : (⟨S401408, .i32⟩ : BufTy).Contents (Elt F) → (⟨S401408, .i32⟩ : BufTy).Contents (Elt F) → (⟨S401408, .i32⟩ : BufTy).Contents (Elt F)),
    StableHlo.ternary main_v65 main_v67 main_v3 main_v68 (select : (⟨S401408, .i1⟩ : BufTy).Contents (Elt F) → (⟨S401408, .i32⟩ : BufTy).Contents (Elt F) → (⟨S401408, .i32⟩ : BufTy).Contents (Elt F) → (⟨S401408, .i32⟩ : BufTy).Contents (Elt F)),
    StableHlo.unary main_v68 main_v69 (broadcastInDim S401408x1 ![0] bcast_S401408_S401408x1_0 : (⟨S401408, .i32⟩ : BufTy).Contents (Elt F) → (⟨S401408x1, .i32⟩ : BufTy).Contents (Elt F)),
    StableHlo.binary main_v63 main_v69 main_v70 ((fun x i => Host.gather gather_S8192x64_S401408x1_S401408x64_1_0_n_n_0_1_164 x i) : (⟨S8192x64, .f32⟩ : BufTy).Contents (Elt F) → (⟨S401408x1, .i32⟩ : BufTy).Contents (Elt F) → (⟨S401408x64, .f32⟩ : BufTy).Contents (Elt F)),
    StableHlo.unary main_v28 main_v71 (broadcastInDim S401408x1 ![0] bcast_S401408_S401408x1_0 : (⟨S401408, .f32⟩ : BufTy).Contents (Elt F) → (⟨S401408x1, .f32⟩ : BufTy).Contents (Elt F)),
    StableHlo.unary main_v71 main_v72 (broadcastInDim S401408x64 ![0, 1] bcast_S401408x1_S401408x64_0_1 : (⟨S401408x1, .f32⟩ : BufTy).Contents (Elt F) → (⟨S401408x64, .f32⟩ : BufTy).Contents (Elt F)),
    StableHlo.binary main_v70 main_v72 main_v73 (mulf : (⟨S401408x64, .f32⟩ : BufTy).Contents (Elt F) → (⟨S401408x64, .f32⟩ : BufTy).Contents (Elt F) → (⟨S401408x64, .f32⟩ : BufTy).Contents (Elt F)),
    StableHlo.nullary main_cst_13 (constant S_ .f32 0x00000000#32),
    StableHlo.unary main_cst_13 main_v74 (broadcastInDim S8192x64 ![] bcast_S_S8192x64 : (⟨S_, .f32⟩ : BufTy).Contents (Elt F) → (⟨S8192x64, .f32⟩ : BufTy).Contents (Elt F)),
    StableHlo.unary main_v6 main_v75 (broadcastInDim S401408x1 ![0] bcast_S401408_S401408x1_0 : (⟨S401408, .i32⟩ : BufTy).Contents (Elt F) → (⟨S401408x1, .i32⟩ : BufTy).Contents (Elt F)),
    StableHlo.ternary main_v74 main_v75 main_v73 main_v76 ((fun x i u => Host.scatterAdd scatter_S8192x64_S401408x1_S401408x64_1_0_0_1 x i u) : (⟨S8192x64, .f32⟩ : BufTy).Contents (Elt F) → (⟨S401408x1, .i32⟩ : BufTy).Contents (Elt F) → (⟨S401408x64, .f32⟩ : BufTy).Contents (Elt F) → (⟨S8192x64, .f32⟩ : BufTy).Contents (Elt F)),
    StableHlo.unary main_arg8 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S8192x64 ![0, 1] bcast_S1x64_S8192x64_0_1 : (⟨S1x64, .f32⟩ : BufTy).Contents (Elt F) → (⟨S8192x64, .f32⟩ : BufTy).Contents (Elt F)),
    StableHlo.binary main_v76 main_v78 main_v79 (addf : (⟨S8192x64, .f32⟩ : BufTy).Contents (Elt F) → (⟨S8192x64, .f32⟩ : BufTy).Contents (Elt F) → (⟨S8192x64, .f32⟩ : BufTy).Contents (Elt F)),
    StableHlo.unary main_v79 main_v80 (Host.exp : (⟨S8192x64, .f32⟩ : BufTy).Contents (Elt F) → (⟨S8192x64, .f32⟩ : BufTy).Contents (Elt F)),
    StableHlo.binary main_arg2 main_v80 main_v81 (mulf : (⟨S8192x64, .f32⟩ : BufTy).Contents (Elt F) → (⟨S8192x64, .f32⟩ : BufTy).Contents (Elt F) → (⟨S8192x64, .f32⟩ : BufTy).Contents (Elt F)),
    StableHlo.binary main_v62 main_v81 main_v82 (addf : (⟨S8192x64, .f32⟩ : BufTy).Contents (Elt F) → (⟨S8192x64, .f32⟩ : BufTy).Contents (Elt F) → (⟨S8192x64, .f32⟩ : BufTy).Contents (Elt F)) ]

/-- The decoder: the latent rows transposed, their Gram matrix, one over one plus the exponential of its negation;
    then the clean-up written out at its one call's buffers — the test x ≠ x and zero selected there, the test against
    plus infinity and the largest finite value selected there, the test against minus infinity and the most negative
    finite value selected there, each select with its scalar broadcast first (27 operations, the last writing the result). -/
abbrev opsR3 : List (HloOp τ sig (Elt F)) :=
  [ StableHlo.unary main_v82 main_v83 ((transpose S64x8192 [1, 0] · transposes_S8192x64_S64x8192_1_0) : (⟨S8192x64, .f32⟩ : BufTy).Contents (Elt F) → (⟨S64x8192, .f32⟩ : BufTy).Contents (Elt F)),
    StableHlo.binary main_v82 main_v83 main_v84 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.unary main_v84 main_v85 (Host.negf : (⟨S8192x8192, .f32⟩ : BufTy).Contents (Elt F) → (⟨S8192x8192, .f32⟩ : BufTy).Contents (Elt F)),
    StableHlo.unary main_v85 main_v86 (Host.exp : (⟨S8192x8192, .f32⟩ : BufTy).Contents (Elt F) → (⟨S8192x8192, .f32⟩ : BufTy).Contents (Elt F)),
    StableHlo.nullary main_cst_14 (constant S_ .f32 0x3F800000#32),
    StableHlo.unary main_cst_14 main_v87 (broadcastInDim S8192x8192 ![] bcast_S_S8192x8192 : (⟨S_, .f32⟩ : BufTy).Contents (Elt F) → (⟨S8192x8192, .f32⟩ : BufTy).Contents (Elt F)),
    StableHlo.binary main_v87 main_v86 main_v88 (addf : (⟨S8192x8192, .f32⟩ : BufTy).Contents (Elt F) → (⟨S8192x8192, .f32⟩ : BufTy).Contents (Elt F) → (⟨S8192x8192, .f32⟩ : BufTy).Contents (Elt F)),
    StableHlo.nullary main_cst_15 (constant S_ .f32 0x3F800000#32),
    StableHlo.unary main_cst_15 main_v89 (broadcastInDim S8192x8192 ![] bcast_S_S8192x8192 : (⟨S_, .f32⟩ : BufTy).Contents (Elt F) → (⟨S8192x8192, .f32⟩ : BufTy).Contents (Elt F)),
    StableHlo.binary main_v89 main_v88 main_v90 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_16 (constant S_ .f32 0x00000000#32),
    TRef.binary (.of main_v90 : TRef sig ⟨S8192x8192, .f32⟩) (.of main_v90 : TRef sig ⟨S8192x8192, .f32⟩) main_call0.v0 (cmpf .une),
    TRef.unary (.of main_cst_16 : TRef sig ⟨S_, .f32⟩) main_call0.v1 id,
    TRef.unary main_call0.v1 main_call0.call0.v0 (broadcastInDim S8192x8192 ![] bcast_S_S8192x8192),
    TRef.ternary main_call0.v0 main_call0.call0.v0 (.of main_v90 : TRef sig ⟨S8192x8192, .f32⟩) main_call0.call0.v1 select,
    TRef.nullary main_call0.cst (constant S_ .f32 0x7F800000#32),
    TRef.unary main_call0.cst main_call0.v3 (broadcastInDim S8192x8192 ![] bcast_S_S8192x8192),
    TRef.binary main_call0.call0.v1 main_call0.v3 main_call0.v4 (cmpf .oeq),
    TRef.nullary main_call0.cst_0 (constant S_ .f32 0x7F7FFFFF#32),
    TRef.unary main_call0.cst_0 main_call0.call1.v0 (broadcastInDim S8192x8192 ![] bcast_S_S8192x8192),
    TRef.ternary main_call0.v4 main_call0.call1.v0 main_call0.call0.v1 main_call0.call1.v1 select,
    TRef.nullary main_call0.cst_1 (constant S_ .f32 0xFF800000#32),
    TRef.unary main_call0.cst_1 main_call0.v6 (broadcastInDim S8192x8192 ![] bcast_S_S8192x8192),
    TRef.binary main_call0.call1.v1 main_call0.v6 main_call0.v7 (cmpf .oeq),
    TRef.nullary main_call0.cst_2 (constant S_ .f32 0xFF7FFFFF#32),
    TRef.unary main_call0.cst_2 main_call0.call2.v0 (broadcastInDim S8192x8192 ![] bcast_S_S8192x8192),
    TRef.ternary main_call0.v7 main_call0.call2.v0 main_call0.call1.v1 main_call0.call2.v1 select ]

/-- The whole program: 126 operations. -/
abbrev ops : List (HloOp τ sig (Elt F)) :=
  opsR0 ++ opR29 :: opsR1 ++ opR46 :: opsR2a ++ opR63 :: opsR2b ++ opsR3

/-! ## The program is that sequence -/

/-- The program's two windows, run one after the other, with the clean-up function and the select it calls opened at
    their call, are the one straight line of `ops`: both sides are the same chain of operation steps once every
    definition is unfolded and the sequencing re-associated, which is a computation. -/
theorem main_eq (c : Dev nD) : main (F := F) c = seq ops := by
  chain_rfl

/-! ## Every operation touches device buffers only -/

theorem opsR0_sub : (opsR0 : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., nullary_bufs_sub .., unary_bufs_sub .., binary_bufs_sub ..,
    nullary_bufs_sub .., unary_bufs_sub .., binary_bufs_sub .., ternary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub ..⟩

theorem opsR1_sub : (opsR1 : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., unary_bufs_sub ..,
    unary_bufs_sub .., binary_bufs_sub .., nullary_bufs_sub .., unary_bufs_sub .., unary_bufs_sub ..,
    ternary_bufs_sub .., unary_bufs_sub .., unary_bufs_sub .., binary_bufs_sub ..⟩

theorem opsR2a_sub : (opsR2a : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., unary_bufs_sub ..,
    unary_bufs_sub .., binary_bufs_sub .., nullary_bufs_sub .., unary_bufs_sub .., unary_bufs_sub ..,
    ternary_bufs_sub .., unary_bufs_sub .., unary_bufs_sub .., binary_bufs_sub ..⟩

theorem opsR2b_sub : (opsR2b : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., unary_bufs_sub ..,
    unary_bufs_sub .., binary_bufs_sub .., nullary_bufs_sub .., unary_bufs_sub .., unary_bufs_sub ..,
    ternary_bufs_sub .., unary_bufs_sub .., unary_bufs_sub .., binary_bufs_sub .., unary_bufs_sub ..,
    binary_bufs_sub .., binary_bufs_sub ..⟩

theorem opsR3_sub : (opsR3 : List (HloOp τ sig (Elt F))).Forall fun op => op.bufs ⊆ tcRefs τ sig :=
  ⟨unary_bufs_sub .., binary_bufs_sub .., unary_bufs_sub .., unary_bufs_sub .., nullary_bufs_sub ..,
    unary_bufs_sub .., binary_bufs_sub .., nullary_bufs_sub .., unary_bufs_sub .., binary_bufs_sub ..,
    nullary_bufs_sub .., binary_bufs_sub .., unary_bufs_sub .., unary_bufs_sub .., ternary_bufs_sub ..,
    nullary_bufs_sub .., unary_bufs_sub .., binary_bufs_sub .., nullary_bufs_sub .., unary_bufs_sub ..,
    ternary_bufs_sub .., nullary_bufs_sub .., unary_bufs_sub .., binary_bufs_sub .., nullary_bufs_sub ..,
    unary_bufs_sub .., ternary_bufs_sub ..⟩

/-- The whole list: stretch by stretch, the three matrix products between them. -/
theorem ops_sub : (ops : List (HloOp τ sig (Elt F))).Forall fun op => op.bufs ⊆ tcRefs τ sig :=
  List.forall_append.2 ⟨List.forall_append.2 ⟨List.forall_append.2 ⟨List.forall_append.2
    ⟨opsR0_sub, (List.forall_cons _ _ _).2 ⟨binary_bufs_sub .., opsR1_sub⟩⟩,
      (List.forall_cons _ _ _).2 ⟨binary_bufs_sub .., opsR2a_sub⟩⟩,
      (List.forall_cons _ _ _).2 ⟨binary_bufs_sub .., opsR2b_sub⟩⟩, opsR3_sub⟩

/-! ## The run -/

/-- No buffer of the program is scoped: every one is a tensor value's, live to the end. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- On the device, for any float values, from any memory with zero counters: every weakly fair execution of the
    program terminates, and every final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefFrame.lean ====
/-
  The reference program's run in the claim's shape: its result buffer ends at the fold of its operations over
  the launch contents, and each of its nine argument buffers — which no operation writes — as launched.
-/
import proofs.«173583_j2808908611975_1_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of two lines run one after the other. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxHeartbeats 4000000 in
theorem keep_arg0 (V : Valuation τ sig (Elt F)) : after (ops (F := F)) V (Proc.devRef .tc main_arg0) = V (Proc.devRef .tc main_arg0) := by
  simp only [ops, after_append']
  after_results_simp
set_option maxHeartbeats 4000000 in
theorem keep_arg1 (V : Valuation τ sig (Elt F)) : after (ops (F := F)) V (Proc.devRef .tc main_arg1) = V (Proc.devRef .tc main_arg1) := by
  simp only [ops, after_append']
  after_results_simp
set_option maxHeartbeats 4000000 in
theorem keep_arg2 (V : Valuation τ sig (Elt F)) : after (ops (F := F)) V (Proc.devRef .tc main_arg2) = V (Proc.devRef .tc main_arg2) := by
  simp only [ops, after_append']
  after_results_simp
set_option maxHeartbeats 4000000 in
theorem keep_arg3 (V : Valuation τ sig (Elt F)) : after (ops (F := F)) V (Proc.devRef .tc main_arg3) = V (Proc.devRef .tc main_arg3) := by
  simp only [ops, after_append']
  after_results_simp
set_option maxHeartbeats 4000000 in
theorem keep_arg4 (V : Valuation τ sig (Elt F)) : after (ops (F := F)) V (Proc.devRef .tc main_arg4) = V (Proc.devRef .tc main_arg4) := by
  simp only [ops, after_append']
  after_results_simp
set_option maxHeartbeats 4000000 in
theorem keep_arg5 (V : Valuation τ sig (Elt F)) : after (ops (F := F)) V (Proc.devRef .tc main_arg5) = V (Proc.devRef .tc main_arg5) := by
  simp only [ops, after_append']
  after_results_simp
set_option maxHeartbeats 4000000 in
theorem keep_arg6 (V : Valuation τ sig (Elt F)) : after (ops (F := F)) V (Proc.devRef .tc main_arg6) = V (Proc.devRef .tc main_arg6) := by
  simp only [ops, after_append']
  after_results_simp
set_option maxHeartbeats 4000000 in
theorem keep_arg7 (V : Valuation τ sig (Elt F)) : after (ops (F := F)) V (Proc.devRef .tc main_arg7) = V (Proc.devRef .tc main_arg7) := by
  simp only [ops, after_append']
  after_results_simp
set_option maxHeartbeats 4000000 in
theorem keep_arg8 (V : Valuation τ sig (Elt F)) : after (ops (F := F)) V (Proc.devRef .tc main_arg8) = V (Proc.devRef .tc main_arg8) := by
  simp only [ops, after_append']
  after_results_simp

/-- THE RUN in the claim's shape. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = after (ops (F := F)) (launchContents m c) (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨h c main_v91,
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c))⟩) (run_fold m ρ)

end Cert.ReferenceIdeal.RefRun

end
-- ==== Proof.KernelIdeal.Pay.lean ====
/-
  The three kernel bodies' arithmetic read at one entry, over the extended reals: each matrix-product payload
  is the plain sum over the contracted axis (a change of float format is the identity and the accumulator is
  zero); the decoder's is the logistic function of that sum (its value lies in [0, 1], so the two clamps of
  infinities that follow it change nothing).
-/
import proofs.«173583_j2808908611975_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Pay

open Idealize.ShloMosaic Idealize.ShloMosaic.ValueIdx
open Cert.KernelIdeal Cert.KernelIdeal.Gen

/-! ## The three products' operand indices

Each product contracts the left operand's axis 1 with the right operand's axis 0: at result entry `j` and contraction
position `k` the left operand is read at `(j 0, k)` and the right one at `(k, j 1)`. Stated coordinate by
coordinate, then as equations between whole indices with the contraction position given by its one coordinate. -/

/-- The 256-deep product: the operand indices' coordinates. -/
private theorem lhs_k0_0 (j : S1024x128.Idx) (k : dot_S1024x256_S256x128_S1024x128_1_0_0_1_n_n.contr.Idx) :
    (dot_S1024x256_S256x128_S1024x128_1_0_0_1_n_n.lhsIdx j k 0 : ℕ) = j 0 := by
  simp [DotDims.lhsIdx, dot_S1024x256_S256x128_S1024x128_1_0_0_1_n_n]; rfl
private theorem lhs_k0_1 (j : S1024x128.Idx) (k : dot_S1024x256_S256x128_S1024x128_1_0_0_1_n_n.contr.Idx) :
    (dot_S1024x256_S256x128_S1024x128_1_0_0_1_n_n.lhsIdx j k 1 : ℕ) = k ⟨0, by decide⟩ := by
  simp [DotDims.lhsIdx, dot_S1024x256_S256x128_S1024x128_1_0_0_1_n_n]; rfl
private theorem rhs_k0_0 (j : S1024x128.Idx) (k : dot_S1024x256_S256x128_S1024x128_1_0_0_1_n_n.contr.Idx) :
    (dot_S1024x256_S256x128_S1024x128_1_0_0_1_n_n.rhsIdx j k 0 : ℕ) = k ⟨0, by decide⟩ := by
  simp [DotDims.rhsIdx, dot_S1024x256_S256x128_S1024x128_1_0_0_1_n_n]; rfl
private theorem rhs_k0_1 (j : S1024x128.Idx) (k : dot_S1024x256_S256x128_S1024x128_1_0_0_1_n_n.contr.Idx) :
    (dot_S1024x256_S256x128_S1024x128_1_0_0_1_n_n.rhsIdx j k 1 : ℕ) = j 1 := by
  simp [DotDims.rhsIdx, dot_S1024x256_S256x128_S1024x128_1_0_0_1_n_n]; rfl

/-- At result entry `(p, q)` and contraction position `k` the left operand is read at `(p, k)` … -/
private theorem lhsIdx_k0 (p : Fin 1024) (q : Fin 128) (k : Fin 256) :
    dot_S1024x256_S256x128_S1024x128_1_0_0_1_n_n.lhsIdx (ix2 p q) ((contrEquiv1 dot_S1024x256_S256x128_S1024x128_1_0_0_1_n_n 256 rfl rfl).symm k) = ix2 p k := by
  funext a
  match a with
  | ⟨0, _⟩ => exact Fin.ext (lhs_k0_0 _ _)
  | ⟨1, _⟩ => exact Fin.ext ((lhs_k0_1 _ _).trans (contrEquiv1_symm_val _ _ _ _ _))
/-- … and the right operand at `(k, q)`. -/
private theorem rhsIdx_k0 (p : Fin 1024) (q : Fin 128) (k : Fin 256) :
    dot_S1024x256_S256x128_S1024x128_1_0_0_1_n_n.rhsIdx (ix2 p q) ((contrEquiv1 dot_S1024x256_S256x128_S1024x128_1_0_0_1_n_n 256 rfl rfl).symm k) = ix2 k q := by
  funext a
  match a with
  | ⟨0, _⟩ => exact Fin.ext ((rhs_k0_0 _ _).trans (contrEquiv1_symm_val _ _ _ _ _))
  | ⟨1, _⟩ => exact Fin.ext (rhs_k0_1 _ _)

/-- The 128-deep product: the operand indices' coordinates. -/
private theorem lhs_k1_0 (j : S1024x128.Idx) (k : dot_S1024x128_S128x128_S1024x128_1_0_0_1_n_n.contr.Idx) :
    (dot_S1024x128_S128x128_S1024x128_1_0_0_1_n_n.lhsIdx j k 0 : ℕ) = j 0 := by
  simp [DotDims.lhsIdx, dot_S1024x128_S128x128_S1024x128_1_0_0_1_n_n]; rfl
private theorem lhs_k1_1 (j : S1024x128.Idx) (k : dot_S1024x128_S128x128_S1024x128_1_0_0_1_n_n.contr.Idx) :
    (dot_S1024x128_S128x128_S1024x128_1_0_0_1_n_n.lhsIdx j k 1 : ℕ) = k ⟨0, by decide⟩ := by
  simp [DotDims.lhsIdx, dot_S1024x128_S128x128_S1024x128_1_0_0_1_n_n]; rfl
private theorem rhs_k1_0 (j : S1024x128.Idx) (k : dot_S1024x128_S128x128_S1024x128_1_0_0_1_n_n.contr.Idx) :
    (dot_S1024x128_S128x128_S1024x128_1_0_0_1_n_n.rhsIdx j k 0 : ℕ) = k ⟨0, by decide⟩ := by
  simp [DotDims.rhsIdx, dot_S1024x128_S128x128_S1024x128_1_0_0_1_n_n]; rfl
private theorem rhs_k1_1 (j : S1024x128.Idx) (k : dot_S1024x128_S128x128_S1024x128_1_0_0_1_n_n.contr.Idx) :
    (dot_S1024x128_S128x128_S1024x128_1_0_0_1_n_n.rhsIdx j k 1 : ℕ) = j 1 := by
  simp [DotDims.rhsIdx, dot_S1024x128_S128x128_S1024x128_1_0_0_1_n_n]; rfl

/-- At result entry `(p, q)` and contraction position `k` the left operand is read at `(p, k)` … -/
private theorem lhsIdx_k1 (p : Fin 1024) (q : Fin 128) (k : Fin 128) :
    dot_S1024x128_S128x128_S1024x128_1_0_0_1_n_n.lhsIdx (ix2 p q) ((contrEquiv1 dot_S1024x128_S128x128_S1024x128_1_0_0_1_n_n 128 rfl rfl).symm k) = ix2 p k := by
  funext a
  match a with
  | ⟨0, _⟩ => exact Fin.ext (lhs_k1_0 _ _)
  | ⟨1, _⟩ => exact Fin.ext ((lhs_k1_1 _ _).trans (contrEquiv1_symm_val _ _ _ _ _))
/-- … and the right operand at `(k, q)`. -/
private theorem rhsIdx_k1 (p : Fin 1024) (q : Fin 128) (k : Fin 128) :
    dot_S1024x128_S128x128_S1024x128_1_0_0_1_n_n.rhsIdx (ix2 p q) ((contrEquiv1 dot_S1024x128_S128x128_S1024x128_1_0_0_1_n_n 128 rfl rfl).symm k) = ix2 k q := by
  funext a
  match a with
  | ⟨0, _⟩ => exact Fin.ext ((rhs_k1_0 _ _).trans (contrEquiv1_symm_val _ _ _ _ _))
  | ⟨1, _⟩ => exact Fin.ext (rhs_k1_1 _ _)

/-- The 64-deep product: the operand indices' coordinates. -/
private theorem lhs_k2_0 (j : S1024x1024.Idx) (k : dot_S1024x64_S64x1024_S1024x1024_1_0_0_1_n_n.contr.Idx) :
    (dot_S1024x64_S64x1024_S1024x1024_1_0_0_1_n_n.lhsIdx j k 0 : ℕ) = j 0 := by
  simp [DotDims.lhsIdx, dot_S1024x64_S64x1024_S1024x1024_1_0_0_1_n_n]; rfl
private theorem lhs_k2_1 (j : S1024x1024.Idx) (k : dot_S1024x64_S64x1024_S1024x1024_1_0_0_1_n_n.contr.Idx) :
    (dot_S1024x64_S64x1024_S1024x1024_1_0_0_1_n_n.lhsIdx j k 1 : ℕ) = k ⟨0, by decide⟩ := by
  simp [DotDims.lhsIdx, dot_S1024x64_S64x1024_S1024x1024_1_0_0_1_n_n]; rfl
private theorem rhs_k2_0 (j : S1024x1024.Idx) (k : dot_S1024x64_S64x1024_S1024x1024_1_0_0_1_n_n.contr.Idx) :
    (dot_S1024x64_S64x1024_S1024x1024_1_0_0_1_n_n.rhsIdx j k 0 : ℕ) = k ⟨0, by decide⟩ := by
  simp [DotDims.rhsIdx, dot_S1024x64_S64x1024_S1024x1024_1_0_0_1_n_n]; rfl
private theorem rhs_k2_1 (j : S1024x1024.Idx) (k : dot_S1024x64_S64x1024_S1024x1024_1_0_0_1_n_n.contr.Idx) :
    (dot_S1024x64_S64x1024_S1024x1024_1_0_0_1_n_n.rhsIdx j k 1 : ℕ) = j 1 := by
  simp [DotDims.rhsIdx, dot_S1024x64_S64x1024_S1024x1024_1_0_0_1_n_n]; rfl

/-- At result entry `(p, q)` and contraction position `k` the left operand is read at `(p, k)` … -/
private theorem lhsIdx_k2 (p q : Fin 1024) (k : Fin 64) :
    dot_S1024x64_S64x1024_S1024x1024_1_0_0_1_n_n.lhsIdx (ix2 p q) ((contrEquiv1 dot_S1024x64_S64x1024_S1024x1024_1_0_0_1_n_n 64 rfl rfl).symm k) = ix2 p k := by
  funext a
  match a with
  | ⟨0, _⟩ => exact Fin.ext (lhs_k2_0 _ _)
  | ⟨1, _⟩ => exact Fin.ext ((lhs_k2_1 _ _).trans (contrEquiv1_symm_val _ _ _ _ _))
/-- … and the right operand at `(k, q)`. -/
private theorem rhsIdx_k2 (p q : Fin 1024) (k : Fin 64) :
    dot_S1024x64_S64x1024_S1024x1024_1_0_0_1_n_n.rhsIdx (ix2 p q) ((contrEquiv1 dot_S1024x64_S64x1024_S1024x1024_1_0_0_1_n_n 64 rfl rfl).symm k) = ix2 k q := by
  funext a
  match a with
  | ⟨0, _⟩ => exact Fin.ext ((rhs_k2_0 _ _).trans (contrEquiv1_symm_val _ _ _ _ _))
  | ⟨1, _⟩ => exact Fin.ext (rhs_k2_1 _ _)

/-! ## The two plain products -/

/-- Entry `(p, q)` of the first product is `∑ k, x0[p, k] * x1[k, q]`: the narrowing of the operands is the identity
    on extended reals, the accumulator is zero, and the contraction's index set is its one coordinate's range. -/
theorem k0_pay1_apply (x0 : Vec Ideal S1024x256 .f32) (x1 : Vec Ideal S256x128 .f32) (p : Fin 1024) (q : Fin 128) :
    k0_pay1 (F := Ideal) x0 x1 (ix2 p q) = ∑ k : Fin 256, x0 (ix2 p k) * x1 (ix2 k q) := by
  unfold k0_pay1
  simp only [matmul]
  rw [Ideal.matmul_constant_zero_apply,
    ← Equiv.sum_comp (contrEquiv1 dot_S1024x256_S256x128_S1024x128_1_0_0_1_n_n 256 rfl rfl).symm]
  refine Finset.sum_congr rfl fun k _ => ?_
  rw [truncf_apply, truncf_apply, lhsIdx_k0, rhsIdx_k0]

/-- The same for the second product; the two reshapes to the same shape are the identity. -/
theorem k1_pay1_apply (x0 : Vec Ideal S1024x128 .f32) (x1 : Vec Ideal S128x128 .f32) (p : Fin 1024) (q : Fin 128) :
    k1_pay1 (F := Ideal) x0 x1 (ix2 p q) = ∑ k : Fin 128, x0 (ix2 p k) * x1 (ix2 k q) := by
  unfold k1_pay1
  simp only [matmul]
  rw [Ideal.matmul_constant_zero_apply, shapeCast_self, shapeCast_self,
    ← Equiv.sum_comp (contrEquiv1 dot_S1024x128_S128x128_S1024x128_1_0_0_1_n_n 128 rfl rfl).symm]
  refine Finset.sum_congr rfl fun k _ => ?_
  rw [truncf_apply, truncf_apply, lhsIdx_k1, rhsIdx_k1]

/-! ## The decoder: the logistic function of a product, then the clamps -/

/-- The logistic function takes no infinite value: it is `0` at `⊥`, `1` at `⊤` and a real number in between. -/
private theorem logistic_ne_top (x : EReal) : Ideal.logistic x ≠ ⊤ := by
  induction x using EReal.rec with
  | bot => simp
  | coe r => rw [Ideal.logistic_coe]; exact EReal.coe_ne_top _
  | top => rw [Ideal.logistic_top]; exact_mod_cast EReal.coe_ne_top (1 : ℝ)

private theorem logistic_ne_bot (x : EReal) : Ideal.logistic x ≠ ⊥ := by
  induction x using EReal.rec with
  | bot => simp
  | coe r => rw [Ideal.logistic_coe]; exact EReal.coe_ne_bot _
  | top => rw [Ideal.logistic_top]; exact_mod_cast EReal.coe_ne_bot (1 : ℝ)

/-- The logistic function lane by lane. -/
private theorem logistic_apply {s : Shape} {φ : FTy} (w : FVec Ideal s φ) (j : s.Idx) :
    logistic w j = Ideal.logistic (w j) := rfl

/-- The three selects that follow the logistic function, on one extended real: a value that differs from itself
    becomes zero, `+∞` the largest finite number and `-∞` the least one. -/
private def clamp (v : EReal) : EReal :=
  let a := Scalar.select (Ideal.cmp .one v v) (Ideal.ofBits .f32 0x00000000#32) v
  let b := Scalar.select (Ideal.cmp .oeq a (Ideal.ofBits .f32 0x7F800000#32)) (Ideal.ofBits .f32 0x7F7FFFFF#32) a
  Scalar.select (Ideal.cmp .oeq b (Ideal.ofBits .f32 0xFF800000#32)) (Ideal.ofBits .f32 0xFF7FFFFF#32) b

/-- Away from the two infinities the three selects change nothing: every extended real equals itself, and the two
    words compared against denote `⊤` and `⊥`. -/
private theorem clamp_of_finite (v : EReal) (ht : v ≠ ⊤) (hb : v ≠ ⊥) : clamp v = v := by
  have e1 : Ideal.cmp .one v v = 0#1 := by simp [Ideal.cmp]
  have etop : Ideal.ofBits .f32 0x7F800000#32 = ⊤ := by simp [Ideal.ofBits, Ideal.ieee]
  have ebot : Ideal.ofBits .f32 0xFF800000#32 = ⊥ := by simp [Ideal.ofBits, Ideal.ieee]
  have e2 : Ideal.cmp .oeq v ⊤ = 0#1 := by simp [Ideal.cmp, ht]
  have e3 : Ideal.cmp .oeq v ⊥ = 0#1 := by simp [Ideal.cmp, hb]
  simp only [clamp]
  rw [e1, select_zero, etop, e2, select_zero, ebot, e3, select_zero]

/-- Entry `(p, q)` of the decoder's payload is the logistic function of `∑ k, x0[p, k] * x3[q, k]`: the right operand
    of the product is the transpose of `x3`, read at `(k, q)` as `x3[q, k]`, and the clamps act on a logistic
    value, which is finite. -/
theorem k2_pay1_apply (x0 x3 : Vec Ideal S1024x64 .f32) (p q : Fin 1024) :
    k2_pay1 (F := Ideal) x0 x3 (ix2 p q) = Ideal.logistic (∑ k : Fin 64, x0 (ix2 p k) * x3 (ix2 q k)) := by
  unfold k2_pay1
  simp only [matmul, select_apply, cmpf_apply, broadcast_apply, logistic_apply, Ideal.cmpf_def, Ideal.ofBits_def]
  change clamp (Ideal.logistic _) = _
  rw [clamp_of_finite _ (logistic_ne_top _) (logistic_ne_bot _)]
  congr 1
  rw [Ideal.matmul_constant_zero_apply, shapeCast_self, shapeCast_self,
    ← Equiv.sum_comp (contrEquiv1 dot_S1024x64_S64x1024_S1024x1024_1_0_0_1_n_n 64 rfl rfl).symm]
  refine Finset.sum_congr rfl fun k _ => ?_
  rw [truncf_apply, lhsIdx_k2, rhsIdx_k2]
  congr 1
  refine transpose_apply _ _ _ _ (ix2 q k) fun b => ?_
  match b with
  | ⟨0, _⟩ => rfl
  | ⟨1, _⟩ => rfl

end Cert.KernelIdeal.Pay

end
-- ==== Proof.Spec.lean ====
/-
  The mathematics both programs compute, as whole-array functions over the extended reals.
  A dense layer is a rows-by-columns product, entry (i, j) the sum over k of x[i, k] · w[k, j]; the decoder's
  score matrix is the Gram matrix of the latent rows, entry (i, j) the sum over k of z[i, k] · z[j, k], passed
  through the logistic function.
-/
import proofs.«173583_j2808908611975_1_alg».proof.KernelIdeal
import Idealize.ShloMosaic.PureOps.Ideal
import Idealize.ShloMosaic.Lib.ValueIdx

noncomputable section

namespace Cert.Spec

open Idealize.ShloMosaic Idealize.ShloMosaic.ValueIdx
open Cert.KernelIdeal (S8192x256 S256x128 S8192x128 S128x128 S128x64 S8192x64 S8192x8192)

/-- The first dense layer: features (8192 × 256) times weights (256 × 128). -/
def mm0 (x : FVec Ideal S8192x256 .f32) (w : FVec Ideal S256x128 .f32) : FVec Ideal S8192x128 .f32 :=
  fun i => ∑ k : Fin 256, x (ix2 (n0 := 8192) (n1 := 256) (i 0) k) * w (ix2 (n0 := 256) (n1 := 128) k (i 1))

/-- The second dense layer against the two weight matrices side by side: hidden (8192 × 128) times (128 × 128). -/
def mm1 (x : FVec Ideal S8192x128 .f32) (w : FVec Ideal S128x128 .f32) : FVec Ideal S8192x128 .f32 :=
  fun i => ∑ k : Fin 128, x (ix2 (n0 := 8192) (n1 := 128) (i 0) k) * w (ix2 (n0 := 128) (n1 := 128) k (i 1))

/-- The same hidden features against ONE of the two weight matrices (128 × 64). -/
def mm1h (x : FVec Ideal S8192x128 .f32) (w : FVec Ideal S128x64 .f32) : FVec Ideal S8192x64 .f32 :=
  fun i => ∑ k : Fin 128, x (ix2 (n0 := 8192) (n1 := 128) (i 0) k) * w (ix2 (n0 := 128) (n1 := 64) k (i 1))

/-- The decoder: the logistic function of the Gram matrix of the latent rows. -/
def dec (z : FVec Ideal S8192x64 .f32) : FVec Ideal S8192x8192 .f32 :=
  fun i => Ideal.logistic (∑ k : Fin 64, z (ix2 (n0 := 8192) (n1 := 64) (i 0) k) * z (ix2 (n0 := 8192) (n1 := 64) (i 1) k))

end Cert.Spec

end
-- ==== Proof.KernelIdeal.Value.lean ====
/-
  From blocks to arrays, over the extended reals: each region's grid points write back blocks that tile its
  output array, and block t of the output is the body's payload of the input blocks at t, which are the
  rows (and, for the decoder, the two row blocks) of the input arrays the block's position names.  So each
  output array ends as ONE function of the region's input arrays: the two dense layers' products and the
  decoder's logistic Gram matrix.
-/
import proofs.«173583_j2808908611975_1_alg».proof.Proof.KernelIdeal.Region0
import proofs.«173583_j2808908611975_1_alg».proof.Proof.KernelIdeal.Region1
import proofs.«173583_j2808908611975_1_alg».proof.Proof.KernelIdeal.Region2
import proofs.«173583_j2808908611975_1_alg».proof.Proof.KernelIdeal.Pay
import proofs.«173583_j2808908611975_1_alg».proof.Proof.Spec
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of a whole-block rectangle are zero on both axes. -/
theorem zero_offsets : (![0, 0] : Fin 2 → Nat) = fun _ => 0 := funext fun a => by fin_cases a <;> rfl

/-! ## Region 0: the first dense layer's product -/

/-- One entry of the block the body leaves: row p of the left block against column q of the right block, summed
    over the 256 contracted positions. -/
theorem dense0_entry (x0 : Vec Ideal S1024x256 .f32) (x1 : Vec Ideal S256x128 .f32) (p : Fin 1024) (q : Fin 128) :
    out0_2 (F := Ideal) x0 x1 (ix2 p q) = ∑ k : Fin 256, x0 (ix2 p k) * x1 (ix2 k q) := by
  unfold out0_2
  rw [View.canon_unit_zero zero_offsets]
  simp only [View.ld_unit_zero (S := S1024x256) zero_offsets, View.ld_unit_zero (S := S256x128) zero_offsets]
  exact Cert.KernelIdeal.Pay.k0_pay1_apply x0 x1 p q

/-- The whole-array product at one entry. -/
theorem dense0_spec_entry (x : FVec Ideal S8192x256 .f32) (w : FVec Ideal S256x128 .f32) (i : S8192x128.Idx) :
    Cert.Spec.mm0 x w i
      = ∑ k : Fin 256, x (ix2 (n0 := 8192) (n1 := 256) (i 0) k) * w (ix2 (n0 := 256) (n1 := 128) k (i 1)) := rfl

/-- The region's block positions over its 8 points: the left and the output blocks are rows block t, the right block
    is the whole matrix. -/
theorem dense0_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 8 row blocks of the output is some point's. -/
theorem dense0_blocks_onto : ∀ (b : Fin 8), ∃ t : Fin cfg0.N, win0_2.index t = ![b.val, 0] :=
  (by decide +kernel : ∀ (b : Fin 8), ∃ t : Fin grid0.N, win0_2.index t = ![b.val, 0])

/-- What point t writes back is block t of the product of the two whole arrays: entry (p, q) of the block is row
    1024 t + p of the left array against column q of the right one. -/
theorem dense0_flushed (c : Dev nD) (t : Fin cfg0.N) :
    (dat0 (F := Ideal) V c).flushed 2 t
      = ((cfg0.win 2).blk t).view.read (Elt Ideal) (Cert.Spec.mm0 (V c main_arg0) (V c main_arg3)) := by
  show (cfg0.win 2).cut (grid0.coords t) ((dat0 V c).after 2 t) = _
  rw [after0_2]
  obtain ⟨e0, e1, e2, e3, e4, e5⟩ := dense0_blocks t
  funext y
  obtain ⟨p, q, rfl⟩ : ∃ (p : Fin 1024) (q : Fin 128), y = ix2 p q := ⟨y 0, y 1, eq_ix2 y⟩
  show out0_2 (iblk0 V c 0 t) (iblk0 V c 1 t) (ix2 p q)
    = Cert.Spec.mm0 (V c main_arg0) (V c main_arg3) (((cfg0.win 2).blk t).view.emb (ix2 p q))
  rw [dense0_entry, dense0_spec_entry]
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  exact congrArg₂ (· * ·) (congrArg (V c main_arg0) h0) (congrArg (V c main_arg3) h1)

/-- An entry of the output array lies in point t's block iff each coordinate is in the block's range on its axis. -/
theorem dense0_mem_block (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v29).slice (win0_2.rect t)).set ↔ _
  rw [View.set_slice_whole, Rect.mem_set_unit]
  exact Iff.rfl

/-- The 8 blocks of 1024 rows tile the output array: row r lies in block r / 1024. -/
theorem dense0_cover (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := dense0_blocks_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [dense0_mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- Region 0's output array after its 8 write-backs: the product of the two arrays its input windows read. -/
theorem arr29_eq (c : Dev nD) :
    (dat0 (F := Ideal) V c).arrAt 2 cfg0.N = Cert.Spec.mm0 (V c main_arg0) (V c main_arg3) :=
  (dat0 (F := Ideal) V c).arrAt_eq_of_cover 2 (Cert.Spec.mm0 (V c main_arg0) (V c main_arg3))
    (fun t _ => dense0_flushed V c t) dense0_cover

/-! ## Region 1: the second dense layer's product -/

/-- One entry of the block the body leaves: row p of the left block against column q of the right block, summed
    over the 128 contracted positions. -/
theorem dense1_entry (x0 : Vec Ideal S1024x128 .f32) (x1 : Vec Ideal S128x128 .f32) (p : Fin 1024) (q : Fin 128) :
    out1_2 (F := Ideal) x0 x1 (ix2 p q) = ∑ k : Fin 128, x0 (ix2 p k) * x1 (ix2 k q) := by
  unfold out1_2
  rw [View.canon_unit_zero zero_offsets]
  simp only [View.ld_unit_zero (S := S1024x128) zero_offsets, View.ld_unit_zero (S := S128x128) zero_offsets]
  exact Cert.KernelIdeal.Pay.k1_pay1_apply x0 x1 p q

/-- The whole-array product at one entry. -/
theorem dense1_spec_entry (x : FVec Ideal S8192x128 .f32) (w : FVec Ideal S128x128 .f32) (i : S8192x128.Idx) :
    Cert.Spec.mm1 x w i
      = ∑ k : Fin 128, x (ix2 (n0 := 8192) (n1 := 128) (i 0) k) * w (ix2 (n0 := 128) (n1 := 128) k (i 1)) := rfl

/-- The region's block positions over its 8 points: the left and the output blocks are rows block t, the right block
    is the whole matrix. -/
theorem dense1_blocks : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every one of the 8 row blocks of the output is some point's. -/
theorem dense1_blocks_onto : ∀ (b : Fin 8), ∃ t : Fin cfg1.N, win1_2.index t = ![b.val, 0] :=
  (by decide +kernel : ∀ (b : Fin 8), ∃ t : Fin grid1.N, win1_2.index t = ![b.val, 0])

/-- What point t writes back is block t of the product of the two whole arrays: entry (p, q) of the block is row
    1024 t + p of the left array against column q of the right one. -/
theorem dense1_flushed (c : Dev nD) (t : Fin cfg1.N) :
    (dat1 (F := Ideal) V c).flushed 2 t
      = ((cfg1.win 2).blk t).view.read (Elt Ideal) (Cert.Spec.mm1 (V c main_v45) (V c main_v46)) := by
  show (cfg1.win 2).cut (grid1.coords t) ((dat1 V c).after 2 t) = _
  rw [after1_2]
  obtain ⟨e0, e1, e2, e3, e4, e5⟩ := dense1_blocks t
  funext y
  obtain ⟨p, q, rfl⟩ : ∃ (p : Fin 1024) (q : Fin 128), y = ix2 p q := ⟨y 0, y 1, eq_ix2 y⟩
  show out1_2 (iblk1 V c 0 t) (iblk1 V c 1 t) (ix2 p q)
    = Cert.Spec.mm1 (V c main_v45) (V c main_v46) (((cfg1.win 2).blk t).view.emb (ix2 p q))
  rw [dense1_entry, dense1_spec_entry]
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 128 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  exact congrArg₂ (· * ·) (congrArg (V c main_v45) h0) (congrArg (V c main_v46) h1)

/-- An entry of the output array lies in point t's block iff each coordinate is in the block's range on its axis. -/
theorem dense1_mem_block (t : Fin cfg1.N) (i : S8192x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole main_v47).slice (win1_2.rect t)).set ↔ _
  rw [View.set_slice_whole, Rect.mem_set_unit]
  exact Iff.rfl

/-- The 8 blocks of 1024 rows tile the output array: row r lies in block r / 1024. -/
theorem dense1_cover (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  obtain ⟨t, ht⟩ := dense1_blocks_onto ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [dense1_mem_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

/-- Region 1's output array after its 8 write-backs. -/
theorem arr47_eq (c : Dev nD) :
    (dat1 (F := Ideal) V c).arrAt 2 cfg1.N = Cert.Spec.mm1 (V c main_v45) (V c main_v46) :=
  (dat1 (F := Ideal) V c).arrAt_eq_of_cover 2 (Cert.Spec.mm1 (V c main_v45) (V c main_v46))
    (fun t _ => dense1_flushed V c t) dense1_cover

/-! ## Region 2: the decoder's logistic Gram matrix -/

/-- One entry of the block the body leaves: the logistic function of row p of the first block against row q of the
    second, summed over the 64 latent positions. -/
theorem decoder_entry (x0 x1 : Vec Ideal S1024x64 .f32) (p q : Fin 1024) :
    out2_2 (F := Ideal) x0 x1 (ix2 p q) = Ideal.logistic (∑ k : Fin 64, x0 (ix2 p k) * x1 (ix2 q k)) := by
  unfold out2_2
  rw [View.canon_unit_zero zero_offsets]
  simp only [View.ld_unit_zero (S := S1024x64) zero_offsets]
  exact Cert.KernelIdeal.Pay.k2_pay1_apply x0 x1 p q

/-- The whole-array decoder at one entry. -/
theorem decoder_spec_entry (z : FVec Ideal S8192x64 .f32) (i : S8192x8192.Idx) :
    Cert.Spec.dec z i
      = Ideal.logistic (∑ k : Fin 64, z (ix2 (n0 := 8192) (n1 := 64) (i 0) k) * z (ix2 (n0 := 8192) (n1 := 64) (i 1) k)) := rfl

/-- The region's block positions over its 64 points: the first input block is the rows block the output block's
    row position names, the second the rows block its column position names. -/
theorem decoder_blocks : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0 :=
  (by decide +kernel : ∀ t : Fin grid2.N, _)

/-- Every one of the 8 × 8 blocks of the output is some point's. -/
theorem decoder_blocks_onto : ∀ (a b : Fin 8), ∃ t : Fin cfg2.N, win2_2.index t = ![a.val, b.val] :=
  (by decide +kernel : ∀ (a b : Fin 8), ∃ t : Fin grid2.N, win2_2.index t = ![a.val, b.val])

/-- What point t = (i, j) writes back is block (i, j) of the decoder of the whole latent array: entry (p, q) of the
    block is the logistic of latent row 1024 i + p against latent row 1024 j + q. -/
theorem decoder_flushed (c : Dev nD) (t : Fin cfg2.N) :
    (dat2 (F := Ideal) V c).flushed 2 t
      = ((cfg2.win 2).blk t).view.read (Elt Ideal) (Cert.Spec.dec (V c main_v84)) := by
  show (cfg2.win 2).cut (grid2.coords t) ((dat2 V c).after 2 t) = _
  rw [after2_2]
  obtain ⟨e0, e1, e2, e3⟩ := decoder_blocks t
  funext y
  obtain ⟨p, q, rfl⟩ : ∃ (p : Fin 1024) (q : Fin 1024), y = ix2 p q := ⟨y 0, y 1, eq_ix2 y⟩
  show out2_2 (iblk2 V c 0 t) (iblk2 V c 1 t) (ix2 p q)
    = Cert.Spec.dec (V c main_v84) (((cfg2.win 2).blk t).view.emb (ix2 p q))
  rw [decoder_entry, decoder_spec_entry]
  refine congrArg Ideal.logistic (Finset.sum_congr rfl fun k _ => ?_)
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 1024 + 1 * p.val = win2_2.index t (0 : Fin 2) * 1024 + 1 * p.val; omega
    | ⟨1, _⟩ => show win2_0.index t (1 : Fin 2) * 64 + 1 * k.val = k.val; omega
  have h1 : ((cfg2.win 1).blk t).view.emb (ix2 q k) = ix2 ((((cfg2.win 2).blk t).view.emb (ix2 p q)) 1) k := by
    funext a; apply Fin.ext
    match a with
    | ⟨0, _⟩ => show win2_1.index t (0 : Fin 2) * 1024 + 1 * q.val = win2_2.index t (1 : Fin 2) * 1024 + 1 * q.val; omega
    | ⟨1, _⟩ => show win2_1.index t (1 : Fin 2) * 64 + 1 * k.val = k.val; omega
  exact congrArg₂ (· * ·) (congrArg (V c main_v84) h0) (congrArg (V c main_v84) h1)

/-- An entry of the output array lies in point t's block iff each coordinate is in the block's range on its axis. -/
theorem decoder_mem_block (t : Fin cfg2.N) (i : S8192x8192.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v85).slice (win2_2.rect t)).set ↔ _
  rw [View.set_slice_whole, Rect.mem_set_unit]
  exact Iff.rfl

/-- The 8 × 8 blocks of 1024 × 1024 entries tile the output array: entry (r, s) lies in block (r / 1024, s / 1024). -/
theorem decoder_cover (i : S8192x8192.Idx) :
    ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := decoder_blocks_onto ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [decoder_mem_block]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- Region 2's output array after its 64 write-backs. -/
theorem arr85_eq (c : Dev nD) :
    (dat2 (F := Ideal) V c).arrAt 2 cfg2.N = Cert.Spec.dec (V c main_v84) :=
  (dat2 (F := Ideal) V c).arrAt_eq_of_cover 2 (Cert.Spec.dec (V c main_v84))
    (fun t _ => decoder_flushed V c t) decoder_cover

end Cert.KernelIdeal.Regions

end
-- ==== Proof.RefDots.lean ====
/-
  The reference's three matrix products read at one entry, over the extended reals: each host dot_general is the
  plain sum over the contracted axis.

  Each of the three dimension-number records contracts the left operand's axis 1 with the right operand's axis 0,
  keeps the left axis 0 and the right axis 1, and has no batch axes: it is the plain product of an M×K by a K×N
  matrix (the records differ from the library's plain-product record only in the proof of well-formedness, which
  is irrelevant). The library reads the plain product at entry (i, j) as the sum over k of l[i, k] * r[k, j].
-/
import proofs.«173583_j2808908611975_1_alg».proof.Proof.Gen.ReferenceIdeal
import Idealize.ShloMosaic.PureOps.Ideal.Laws
import Idealize.ShloMosaic.Lib.ValueIdx
import Idealize.ShloMosaic.Lib.Pipeline.Value
import Idealize.ShloMosaic.Lib.StackMember

noncomputable section

namespace Cert.ReferenceIdeal.Dots

open Idealize.ShloMosaic Idealize.ShloMosaic.ValueIdx
open Cert.ReferenceIdeal

/-- [8192, 256] by [256, 128]: entry (i, j) is the sum over the 256 contracted positions. -/
theorem dot29_apply (l : FVec Ideal S8192x256 .f32) (r : FVec Ideal S256x128 .f32) (i : Fin 8192) (j : Fin 128) :
    Host.dotGeneral (F := Ideal) dot_S8192x256_S256x128_S8192x128_1_0_0_1_n_n none l r (ix2 i j) = ∑ k : Fin 256, l (ix2 i k) * r (ix2 k j) :=
  StackMember.dotGeneral_plain_apply none l r i j

/-- [8192, 128] by [128, 64]: entry (i, j) is the sum over the 128 contracted positions. -/
theorem dot46_apply (l : FVec Ideal S8192x128 .f32) (r : FVec Ideal S128x64 .f32) (i : Fin 8192) (j : Fin 64) :
    Host.dotGeneral (F := Ideal) dot_S8192x128_S128x64_S8192x64_1_0_0_1_n_n none l r (ix2 i j) = ∑ k : Fin 128, l (ix2 i k) * r (ix2 k j) :=
  StackMember.dotGeneral_plain_apply none l r i j

/-- [8192, 64] by [64, 8192]: entry (i, j) is the sum over the 64 contracted positions. -/
theorem dot84_apply (l : FVec Ideal S8192x64 .f32) (r : FVec Ideal S64x8192 .f32) (i : Fin 8192) (j : Fin 8192) :
    Host.dotGeneral (F := Ideal) dot_S8192x64_S64x8192_S8192x8192_1_0_0_1_n_n none l r (ix2 i j) = ∑ k : Fin 64, l (ix2 i k) * r (ix2 k j) :=
  StackMember.dotGeneral_plain_apply none l r i j

end Cert.ReferenceIdeal.Dots

end
-- ==== Proof.Layers.lean ====
/-
  The three places where the two programs arrange a dense layer differently, over the extended reals.
  The first layer: the kernel's product (a plain sum over the contracted axis) is the reference's dot_general.
  The second layer: the kernel multiplies the hidden features by the two weight matrices laid side by side
  (128 × 128) and slices the product's left and right halves; column j < 64 of the side-by-side matrix is column
  j of the first matrix, column 64 + j is column j of the second, so each half is the reference's product
  with that matrix alone.
-/
import proofs.«173583_j2808908611975_1_alg».proof.Proof.Spec
import proofs.«173583_j2808908611975_1_alg».proof.Proof.RefDots
import proofs.«173583_j2808908611975_1_alg».proof.Proof.Gen.KernelIdeal
import Idealize.ShloMosaic.Lib.Pipeline.Value
import Idealize.ShloMosaic.Lib.ValueLayout

noncomputable section

namespace Cert.Layers

open Idealize.ShloMosaic Idealize.ShloMosaic.ValueIdx
open Cert.KernelIdeal Cert.KernelIdeal.Facts₀ Cert.KernelIdeal.Facts

theorem layer0 (a0 : FVec Ideal S8192x256 .f32) (a3 : FVec Ideal S256x128 .f32) :
    Cert.Spec.mm0 a0 a3
      = Host.dotGeneral (F := Ideal) Cert.ReferenceIdeal.dot_S8192x256_S256x128_S8192x128_1_0_0_1_n_n none a0 a3 := by
  funext i
  obtain ⟨p, q, rfl⟩ : ∃ (p : Fin 8192) (q : Fin 128), i = ix2 p q := ⟨i 0, i 1, eq_ix2 i⟩
  -- both sides at entry (p, q) are the sum over k of a0[p, k] · a3[k, q]
  rw [Cert.ReferenceIdeal.Dots.dot29_apply]
  rfl

theorem layer1_lo (h : FVec Ideal S8192x128 .f32) (a5 a7 : FVec Ideal S128x64 .f32) :
    extractStridedSlice S8192x64 ![0, 0]
        (Cert.Spec.mm1 h (concatenate S128x128 1 [⟨S128x64, a5⟩, ⟨S128x64, a7⟩] concatenates_S128x64_S128x64_S128x128_d1))
        slices_S8192x128_S8192x64_0_0
      = Host.dotGeneral (F := Ideal) Cert.ReferenceIdeal.dot_S8192x128_S128x64_S8192x64_1_0_0_1_n_n none h a5 := by
  funext i
  obtain ⟨p, q, rfl⟩ : ∃ (p : Fin 8192) (q : Fin 64), i = ix2 p q := ⟨i 0, i 1, eq_ix2 i⟩
  rw [Cert.ReferenceIdeal.Dots.dot46_apply]
  -- entry (p, q) of the left half is entry (p, q) of the product, q < 64 read as a column of the 128
  have hq : q.val < 128 := by omega
  rw [slice2_axis1_apply 0 _ slices_S8192x128_S8192x64_0_0 p q ⟨q.val, hq⟩ (Nat.zero_add _).symm]
  show ∑ k : Fin 128, _ = _
  refine Finset.sum_congr rfl fun k _ => ?_
  congr 1
  -- column q < 64 of the side-by-side matrix is column q of the first matrix
  exact concatenate_pair_apply_left (1 : Fin 2) a5 a7 concatenates_S128x64_S128x64_S128x128_d1
    (ix2 k ⟨q.val, hq⟩) rfl (ix2 k q) (fun b => by
      match b with
      | ⟨0, _⟩ => rfl
      | ⟨1, _⟩ => rfl)

theorem layer1_hi (h : FVec Ideal S8192x128 .f32) (a5 a7 : FVec Ideal S128x64 .f32) :
    extractStridedSlice S8192x64 ![0, 64]
        (Cert.Spec.mm1 h (concatenate S128x128 1 [⟨S128x64, a5⟩, ⟨S128x64, a7⟩] concatenates_S128x64_S128x64_S128x128_d1))
        slices_S8192x128_S8192x64_0_64
      = Host.dotGeneral (F := Ideal) Cert.ReferenceIdeal.dot_S8192x128_S128x64_S8192x64_1_0_0_1_n_n none h a7 := by
  funext i
  obtain ⟨p, q, rfl⟩ : ∃ (p : Fin 8192) (q : Fin 64), i = ix2 p q := ⟨i 0, i 1, eq_ix2 i⟩
  rw [Cert.ReferenceIdeal.Dots.dot46_apply]
  -- entry (p, q) of the right half is entry (p, 64 + q) of the product
  have hq : 64 + q.val < 128 := by omega
  rw [slice2_axis1_apply 64 _ slices_S8192x128_S8192x64_0_64 p q ⟨64 + q.val, hq⟩ rfl]
  show ∑ k : Fin 128, _ = _
  refine Finset.sum_congr rfl fun k _ => ?_
  congr 1
  -- column 64 + q of the side-by-side matrix is column q of the second matrix
  exact concatenate_pair_apply_right (1 : Fin 2) a5 a7 concatenates_S128x64_S128x64_S128x128_d1
    (ix2 k ⟨64 + q.val, hq⟩) rfl rfl (ix2 k q) (fun b hb => by
      match b, hb with
      | ⟨0, _⟩, _ => rfl
      | ⟨1, _⟩, hb => exact absurd rfl hb) (by
      show q.val + 64 = 64 + q.val
      omega)

end Cert.Layers

end
-- ==== Proof.Stages.lean ====
/-
  The host operations the two programs share, stretch by stretch.  Between the kernel calls (the reference's
  dot_generals) both programs apply the SAME host operations — the edge lists with their self loops and the
  symmetric normalisation from the edge index; the gather, scaling, scatter-add and bias of a graph
  convolution; the reparameterisation — to buffers that hold the same contents.  So the buffers these stretches
  write hold the same contents in both programs: read as the operations' composed terms, the two sides are one
  term.
-/
import proofs.«173583_j2808908611975_1_alg».proof.Proof.RefRun
import proofs.«173583_j2808908611975_1_alg».proof.Proof.Gen.KernelIdeal.Launch
import Idealize.ShloMosaic.Lib.StableHlo.Run

noncomputable section

namespace Cert.Stages

open Idealize.ShloMosaic Idealize.ShloMosaic.StableHlo

variable {F : FTy → Type} [FloatOps F]

/-- A valuation of the kernel program's buffers, and one of the reference's. -/
abbrev KV (F : FTy → Type) := Valuation Cert.KernelIdeal.τ Cert.KernelIdeal.sig (Elt F)
abbrev RV (F : FTy → Type) := Valuation Cert.ReferenceIdeal.τ Cert.ReferenceIdeal.sig (Elt F)

local notation "K⟦" r "⟧" => (Proc.devRef Proc.tc r : DevRef Cert.KernelIdeal.τ Cert.KernelIdeal.sig)
local notation "R⟦" r "⟧" => (Proc.devRef Proc.tc r : DevRef Cert.ReferenceIdeal.τ Cert.ReferenceIdeal.sig)

/-- Inside a concatenation's operand list, where the one-pass reading of the fold does not reach: each operation's
    result at its own buffer is its function's value, at any other buffer what was there before it. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 1000000 in
/-- The first stretch: source list, destination list and edge normalisation, from the edge index alone. -/
theorem stage0 (V : KV F) (V' : RV F)
    (h1 : V' R⟦Cert.ReferenceIdeal.main_arg1⟧ = V K⟦Cert.KernelIdeal.main_arg1⟧) :
    after (Cert.ReferenceIdeal.RefRun.opsR0 (F := F)) V' R⟦Cert.ReferenceIdeal.main_v3⟧ = after (Cert.KernelIdeal.Gen.hostOps0 (F := F)) V K⟦Cert.KernelIdeal.main_v3⟧
    ∧ after (Cert.ReferenceIdeal.RefRun.opsR0 (F := F)) V' R⟦Cert.ReferenceIdeal.main_v6⟧ = after (Cert.KernelIdeal.Gen.hostOps0 (F := F)) V K⟦Cert.KernelIdeal.main_v6⟧
    ∧ after (Cert.ReferenceIdeal.RefRun.opsR0 (F := F)) V' R⟦Cert.ReferenceIdeal.main_v28⟧ = after (Cert.KernelIdeal.Gen.hostOps0 (F := F)) V K⟦Cert.KernelIdeal.main_v28⟧ := by
  -- each side read as the operations' composed term over its valuation at the edge index (the two edge lists are
  -- concatenations of computed operands); the edge index is the same array; the two terms are then one term, the
  -- dimension records and shape facts of the two programs being equal by computation
  refine ⟨?_, ?_, ?_⟩
  · after_results_simp
    results_rw
    rw [h1]
    rfl
  · after_results_simp
    results_rw
    rw [h1]
    rfl
  · after_results_simp
    results_rw
    rw [h1]
    rfl

set_option maxHeartbeats 1000000 in
/-- The second stretch: the first graph convolution's aggregation of the first layer's product. -/
theorem stage1 (V : KV F) (V' : RV F)
    (h29 : V' R⟦Cert.ReferenceIdeal.main_v29⟧ = V K⟦Cert.KernelIdeal.main_v29⟧)
    (h3 : V' R⟦Cert.ReferenceIdeal.main_v3⟧ = V K⟦Cert.KernelIdeal.main_v3⟧)
    (h6 : V' R⟦Cert.ReferenceIdeal.main_v6⟧ = V K⟦Cert.KernelIdeal.main_v6⟧)
    (h28 : V' R⟦Cert.ReferenceIdeal.main_v28⟧ = V K⟦Cert.KernelIdeal.main_v28⟧)
    (h4 : V' R⟦Cert.ReferenceIdeal.main_arg4⟧ = V K⟦Cert.KernelIdeal.main_arg4⟧) :
    after (Cert.ReferenceIdeal.RefRun.opsR1 (F := F)) V' R⟦Cert.ReferenceIdeal.main_v45⟧ = after (Cert.KernelIdeal.Gen.hostOps1 (F := F)) V K⟦Cert.KernelIdeal.main_v45⟧ := by
  -- both sides as composed terms over the five arrays read; those agree; one term
  after_results_simp
  rw [h29, h3, h6, h28, h4]
  rfl

/-- The kernel's second stretch also lays the two weight matrices side by side. -/
theorem stage1_cat (V : KV F) :
    after (Cert.KernelIdeal.Gen.hostOps1 (F := F)) V K⟦Cert.KernelIdeal.main_v46⟧
      = concatenate Cert.KernelIdeal.S128x128 1 [⟨Cert.KernelIdeal.S128x64, V K⟦Cert.KernelIdeal.main_arg5⟧⟩, ⟨Cert.KernelIdeal.S128x64, V K⟦Cert.KernelIdeal.main_arg7⟧⟩]
          Cert.KernelIdeal.Facts₀.concatenates_S128x64_S128x64_S128x128_d1 := by
  after_results

set_option maxHeartbeats 1000000 in
/-- The third stretch: the two graph convolutions of the second layer's two products, and the
    reparameterisation.  The kernel slices both products out of one array; the reference computes the second
    product between the two convolutions. -/
theorem stage2 (V : KV F) (V' : RV F)
    (hlo : V' R⟦Cert.ReferenceIdeal.main_v46⟧
      = extractStridedSlice Cert.KernelIdeal.S8192x64 ![0, 0] (V K⟦Cert.KernelIdeal.main_v47⟧) Cert.KernelIdeal.Facts₀.slices_S8192x128_S8192x64_0_0)
    (hhi : Host.dotGeneral Cert.ReferenceIdeal.dot_S8192x128_S128x64_S8192x64_1_0_0_1_n_n none (V' R⟦Cert.ReferenceIdeal.main_v45⟧) (V' R⟦Cert.ReferenceIdeal.main_arg7⟧)
      = extractStridedSlice Cert.KernelIdeal.S8192x64 ![0, 64] (V K⟦Cert.KernelIdeal.main_v47⟧) Cert.KernelIdeal.Facts₀.slices_S8192x128_S8192x64_0_64)
    (h3 : V' R⟦Cert.ReferenceIdeal.main_v3⟧ = V K⟦Cert.KernelIdeal.main_v3⟧)
    (h6 : V' R⟦Cert.ReferenceIdeal.main_v6⟧ = V K⟦Cert.KernelIdeal.main_v6⟧)
    (h28 : V' R⟦Cert.ReferenceIdeal.main_v28⟧ = V K⟦Cert.KernelIdeal.main_v28⟧)
    (ha6 : V' R⟦Cert.ReferenceIdeal.main_arg6⟧ = V K⟦Cert.KernelIdeal.main_arg6⟧)
    (ha8 : V' R⟦Cert.ReferenceIdeal.main_arg8⟧ = V K⟦Cert.KernelIdeal.main_arg8⟧)
    (ha2 : V' R⟦Cert.ReferenceIdeal.main_arg2⟧ = V K⟦Cert.KernelIdeal.main_arg2⟧) :
    after (Cert.ReferenceIdeal.RefRun.opsR2a (F := F) ++ Cert.ReferenceIdeal.RefRun.opR63 (F := F) :: Cert.ReferenceIdeal.RefRun.opsR2b (F := F)) V' R⟦Cert.ReferenceIdeal.main_v82⟧
      = after (Cert.KernelIdeal.Gen.hostOps2 (F := F)) V K⟦Cert.KernelIdeal.main_v84⟧ := by
  -- the reference's list written as one list; both sides as composed terms: the reference's reads its first product
  -- and holds its second product as the contraction of the hidden features with the second weight matrix, which are
  -- the two column slices of the kernel's one product array; the other arrays read agree; one term
  simp only [List.cons_append, List.nil_append]
  after_results_simp
  rw [hlo, hhi, h3, h6, h28, ha6, ha8, ha2]
  rfl

end Cert.Stages

end
-- ==== Proof.Tails.lean ====
/-
  The END of each program read as the decoder.

  Both programs finish by clamping the decoder's output to finite values (a NaN replaced by zero, +∞ by the largest
  finite binary32 value, −∞ by the smallest). The decoder's output is a logistic value, which is 0, 1 or a real number
  and never ±∞, and over the extended reals no value differs from itself, so the clamp is the identity there.

  Kernel side: the clamp applied to an array that already holds the decoder of a latent matrix z leaves it.
  Reference side: the last 27 operations — the transpose of the latent matrix, its product with that transpose (the
  Gram matrix, entry (i, j) the sum over k of z[i, k] · z[j, k]), then 1 / (1 + exp(−·)), which is the logistic
  function by definition, then the clamp — compute the decoder of the latent matrix.
-/
import proofs.«173583_j2808908611975_1_alg».proof.Proof.Gen.KernelIdeal.Launch
import proofs.«173583_j2808908611975_1_alg».proof.Proof.Gen.ReferenceIdeal
import proofs.«173583_j2808908611975_1_alg».proof.Proof.RefDots
import proofs.«173583_j2808908611975_1_alg».proof.Proof.Spec
import Idealize.ShloMosaic.Lib.StableHlo.Run
import Idealize.ShloMosaic.Lib.IdealHost

noncomputable section

namespace Cert.Tails

open Idealize.ShloMosaic Idealize.ShloMosaic.StableHlo
open Idealize.ShloMosaic.ValueIdx Idealize.ShloMosaic.TcCoe

/-! ## Scalar facts -/

/-- The binary32 word of +∞ is the top extended real. -/
theorem ofBits_posInf : Ideal.ofBits .f32 0x7F800000#32 = ⊤ := by simp [Ideal.ofBits, Ideal.ieee]
/-- The binary32 word of −∞ is the bottom extended real. -/
theorem ofBits_negInf : Ideal.ofBits .f32 0xFF800000#32 = ⊥ := by simp [Ideal.ofBits, Ideal.ieee]

/-- The logistic function takes the values 0 (at −∞), 1 (at +∞) and a real: never +∞ … -/
theorem logistic_ne_top (x : EReal) : Ideal.logistic x ≠ ⊤ := by
  induction x using EReal.rec with
  | bot => rw [Ideal.logistic_bot]; exact EReal.coe_ne_top 0
  | coe r => rw [Ideal.logistic_coe]; exact EReal.coe_ne_top _
  | top => rw [Ideal.logistic_top]; exact EReal.coe_ne_top 1
/-- … and never −∞. -/
theorem logistic_ne_bot (x : EReal) : Ideal.logistic x ≠ ⊥ := by
  induction x using EReal.rec with
  | bot => rw [Ideal.logistic_bot]; exact EReal.coe_ne_bot 0
  | coe r => rw [Ideal.logistic_coe]; exact EReal.coe_ne_bot _
  | top => rw [Ideal.logistic_top]; exact EReal.coe_ne_bot 1

/-- "x ≠ x" is false of every extended real. -/
theorem cmp_une_self (y : EReal) : Ideal.cmp .une y y = 0#1 := by simp [Ideal.cmp]
/-- "y = c" is false when they differ. -/
theorem cmp_oeq_of_ne {y c : EReal} (h : y ≠ c) : Ideal.cmp .oeq y c = 0#1 := by simp [Ideal.cmp, h]

/-! ## The clamp to finite values over an array with no infinite entry -/

abbrev SScalar : Shape := ⟨0, ![]⟩
abbrev SGram : Shape := ⟨2, ![8192, 8192]⟩

/-- Selection against a scalar: the scalar `k` where the condition's bit is set, `y` elsewhere. -/
def whereS (bc : SScalar.BroadcastsInDim SGram ![]) (c : IVec SGram 1) (k : FVec Ideal SScalar .f32) (y : FVec Ideal SGram .f32) : FVec Ideal SGram .f32 :=
  select c (broadcastInDim SGram ![] bc k) y

/-- Where the condition is false everywhere, the selection is its last operand. -/
theorem whereS_of_zero (bc : SScalar.BroadcastsInDim SGram ![]) (c : IVec SGram 1) (k : FVec Ideal SScalar .f32) (y : FVec Ideal SGram .f32)
    (hc : ∀ i, c i = 0#1) : whereS bc c k y = y := by
  funext i
  unfold whereS
  rw [select_apply, hc i, select_zero]

/-- The clamp to finite values: a NaN replaced by `k0`, +∞ by the largest finite binary32 value, −∞ by the smallest. -/
def nanToNum (bc : SScalar.BroadcastsInDim SGram ![]) (k0 : FVec Ideal SScalar .f32) (x : FVec Ideal SGram .f32) : FVec Ideal SGram .f32 :=
  whereS bc
    (cmpf .oeq
      (whereS bc (cmpf .oeq (whereS bc (cmpf .une x x) k0 x) (broadcastInDim SGram ![] bc (constant SScalar .f32 0x7F800000#32)))
        (constant SScalar .f32 0x7F7FFFFF#32) (whereS bc (cmpf .une x x) k0 x))
      (broadcastInDim SGram ![] bc (constant SScalar .f32 0xFF800000#32)))
    (constant SScalar .f32 0xFF7FFFFF#32)
    (whereS bc (cmpf .oeq (whereS bc (cmpf .une x x) k0 x) (broadcastInDim SGram ![] bc (constant SScalar .f32 0x7F800000#32)))
      (constant SScalar .f32 0x7F7FFFFF#32) (whereS bc (cmpf .une x x) k0 x))

/-- On an array with no entry +∞ or −∞ the clamp changes nothing (over the extended reals there is no NaN to replace). -/
theorem nanToNum_of_finite (bc : SScalar.BroadcastsInDim SGram ![]) (k0 : FVec Ideal SScalar .f32) (x : FVec Ideal SGram .f32)
    (ht : ∀ i, x i ≠ ⊤) (hb : ∀ i, x i ≠ ⊥) : nanToNum bc k0 x = x := by
  unfold nanToNum
  have e1 : whereS bc (cmpf .une x x) k0 x = x :=
    whereS_of_zero bc _ _ _ fun i => by rw [cmpf_apply]; exact cmp_une_self (x i)
  rw [e1]
  have e2 : whereS bc (cmpf .oeq x (broadcastInDim SGram ![] bc (constant SScalar .f32 0x7F800000#32))) (constant SScalar .f32 0x7F7FFFFF#32) x = x :=
    whereS_of_zero bc _ _ _ fun i => by
      rw [cmpf_apply, broadcastInDim_scalar_apply, constant_apply, ofBits_posInf]; exact cmp_oeq_of_ne (ht i)
  rw [e2]
  exact whereS_of_zero bc _ _ _ fun i => by
    rw [cmpf_apply, broadcastInDim_scalar_apply, constant_apply, ofBits_negInf]; exact cmp_oeq_of_ne (hb i)

/-- The kernel program's last host stretch: nan_to_num of the decoder's output is the decoder's output. -/
theorem ker_tail (V : Valuation Cert.KernelIdeal.τ Cert.KernelIdeal.sig (Elt Ideal)) (z : FVec Ideal Cert.KernelIdeal.S8192x64 .f32)
    (h : V (Cert.KernelIdeal.main_v85 : DevRef Cert.KernelIdeal.τ Cert.KernelIdeal.sig) = Cert.Spec.dec z) :
    after (Cert.KernelIdeal.Gen.hostOps3_1 (F := Ideal)) (after (Cert.KernelIdeal.Gen.hostOps3 (F := Ideal)) V) (Cert.KernelIdeal.main_v86 : DevRef Cert.KernelIdeal.τ Cert.KernelIdeal.sig) = Cert.Spec.dec z := by
  after_results_simp
  show nanToNum Cert.KernelIdeal.Gen.bcast_S_S8192x8192 (constant SScalar .f32 0x00000000#32)
    (V (Cert.KernelIdeal.main_v85 : DevRef Cert.KernelIdeal.τ Cert.KernelIdeal.sig)) = _
  rw [h]
  exact nanToNum_of_finite _ _ _ (fun i => logistic_ne_top _) (fun i => logistic_ne_bot _)

/-! ## The reference's end -/

section Ref
open Cert.ReferenceIdeal Cert.ReferenceIdeal.Facts₀

/-- The reference program's last 27 operations: the transpose of the latent matrix, the Gram product, the logistic
    function spelled as negate, exponential, add one, divide one by it, and the clamp to finite values with its
    selections inlined. -/
abbrev opsTailR {F : FTy → Type} [FloatOps F] : List (HloOp Cert.ReferenceIdeal.τ Cert.ReferenceIdeal.sig (Elt F)) :=
  [ StableHlo.unary main_v82 main_v83 ((transpose S64x8192 [1, 0] · transposes_S8192x64_S64x8192_1_0) : (⟨S8192x64, .f32⟩ : BufTy).Contents (Elt F) → (⟨S64x8192, .f32⟩ : BufTy).Contents (Elt F)),
    StableHlo.binary main_v82 main_v83 main_v84 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.unary main_v84 main_v85 (Host.negf : (⟨S8192x8192, .f32⟩ : BufTy).Contents (Elt F) → (⟨S8192x8192, .f32⟩ : BufTy).Contents (Elt F)),
    StableHlo.unary main_v85 main_v86 (Host.exp : (⟨S8192x8192, .f32⟩ : BufTy).Contents (Elt F) → (⟨S8192x8192, .f32⟩ : BufTy).Contents (Elt F)),
    StableHlo.nullary main_cst_14 (constant S_ .f32 0x3F800000#32),
    StableHlo.unary main_cst_14 main_v87 (broadcastInDim S8192x8192 ![] bcast_S_S8192x8192 : (⟨S_, .f32⟩ : BufTy).Contents (Elt F) → (⟨S8192x8192, .f32⟩ : BufTy).Contents (Elt F)),
    StableHlo.binary main_v87 main_v86 main_v88 (addf : (⟨S8192x8192, .f32⟩ : BufTy).Contents (Elt F) → (⟨S8192x8192, .f32⟩ : BufTy).Contents (Elt F) → (⟨S8192x8192, .f32⟩ : BufTy).Contents (Elt F)),
    StableHlo.nullary main_cst_15 (constant S_ .f32 0x3F800000#32),
    StableHlo.unary main_cst_15 main_v89 (broadcastInDim S8192x8192 ![] bcast_S_S8192x8192 : (⟨S_, .f32⟩ : BufTy).Contents (Elt F) → (⟨S8192x8192, .f32⟩ : BufTy).Contents (Elt F)),
    StableHlo.binary main_v89 main_v88 main_v90 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_16 (constant S_ .f32 0x00000000#32),
    StableHlo.TRef.binary (.of main_v90 : StableHlo.TRef sig ⟨S8192x8192, .f32⟩) (.of main_v90 : StableHlo.TRef sig ⟨S8192x8192, .f32⟩) main_call0.v0 (cmpf .une),
    StableHlo.TRef.unary (.of main_cst_16 : StableHlo.TRef sig ⟨S_, .f32⟩) main_call0.v1 id,
    StableHlo.TRef.unary main_call0.v1 main_call0.call0.v0 (broadcastInDim S8192x8192 ![] bcast_S_S8192x8192),
    StableHlo.TRef.ternary main_call0.v0 main_call0.call0.v0 (.of main_v90 : StableHlo.TRef sig ⟨S8192x8192, .f32⟩) main_call0.call0.v1 select,
    StableHlo.TRef.nullary main_call0.cst (constant S_ .f32 0x7F800000#32),
    StableHlo.TRef.unary main_call0.cst main_call0.v3 (broadcastInDim S8192x8192 ![] bcast_S_S8192x8192),
    StableHlo.TRef.binary main_call0.call0.v1 main_call0.v3 main_call0.v4 (cmpf .oeq),
    StableHlo.TRef.nullary main_call0.cst_0 (constant S_ .f32 0x7F7FFFFF#32),
    StableHlo.TRef.unary main_call0.cst_0 main_call0.call1.v0 (broadcastInDim S8192x8192 ![] bcast_S_S8192x8192),
    StableHlo.TRef.ternary main_call0.v4 main_call0.call1.v0 main_call0.call0.v1 main_call0.call1.v1 select,
    StableHlo.TRef.nullary main_call0.cst_1 (constant S_ .f32 0xFF800000#32),
    StableHlo.TRef.unary main_call0.cst_1 main_call0.v6 (broadcastInDim S8192x8192 ![] bcast_S_S8192x8192),
    StableHlo.TRef.binary main_call0.call1.v1 main_call0.v6 main_call0.v7 (cmpf .oeq),
    StableHlo.TRef.nullary main_call0.cst_2 (constant S_ .f32 0xFF7FFFFF#32),
    StableHlo.TRef.unary main_call0.cst_2 main_call0.call2.v0 (broadcastInDim S8192x8192 ![] bcast_S_S8192x8192),
    StableHlo.TRef.ternary main_call0.v7 main_call0.call2.v0 main_call0.call1.v1 main_call0.call2.v1 select ]

end Ref

/-- The reference's spelling of the decoder — one over one plus the exponential of minus the product of the latent
    matrix with its own transpose — is the logistic function of the Gram matrix, entry by entry. -/
theorem ref_logistic_gram (bc : Cert.ReferenceIdeal.S_.BroadcastsInDim Cert.ReferenceIdeal.S8192x8192 ![])
    (tr : Cert.ReferenceIdeal.S8192x64.Transposes [1, 0] Cert.ReferenceIdeal.S64x8192)
    (zz : FVec Ideal Cert.ReferenceIdeal.S8192x64 .f32) :
    Host.divf (broadcastInDim Cert.ReferenceIdeal.S8192x8192 ![] bc (constant Cert.ReferenceIdeal.S_ .f32 0x3F800000#32))
      (addf (broadcastInDim Cert.ReferenceIdeal.S8192x8192 ![] bc (constant Cert.ReferenceIdeal.S_ .f32 0x3F800000#32))
        (Host.exp (Host.negf (Host.dotGeneral (F := Ideal) Cert.ReferenceIdeal.dot_S8192x64_S64x8192_S8192x8192_1_0_0_1_n_n none zz
          (transpose Cert.ReferenceIdeal.S64x8192 [1, 0] zz tr))))) = Cert.Spec.dec zz := by
  funext i
  obtain ⟨p, q, rfl⟩ : ∃ (p q : Fin 8192), i = ix2 p q := ⟨i 0, i 1, eq_ix2 i⟩
  rw [hostDivf_apply, addf_apply, broadcastInDim_scalar_apply, constant_apply, Ideal.ofBits_one_f32]
  show Ideal.div 1 (1 + Ideal.exp (-(Host.dotGeneral (F := Ideal) Cert.ReferenceIdeal.dot_S8192x64_S64x8192_S8192x8192_1_0_0_1_n_n none zz
          (transpose Cert.ReferenceIdeal.S64x8192 [1, 0] zz tr) (ix2 p q)))) = _
  rw [Cert.ReferenceIdeal.Dots.dot84_apply]
  -- the transpose read at (k, q) is the matrix at (q, k)
  have ht : ∀ k : Fin 64, transpose Cert.ReferenceIdeal.S64x8192 [1, 0] zz tr (ix2 k q) = zz (ix2 q k) := fun k =>
    transpose_apply [1, 0] zz tr (ix2 k q) (ix2 q k) (fun b => match b with | ⟨0, _⟩ => rfl | ⟨1, _⟩ => rfl)
  simp only [ht]
  rfl

/-- The reference program's end computes the decoder of the latent matrix it holds. -/
theorem ref_tail (V : Valuation Cert.ReferenceIdeal.τ Cert.ReferenceIdeal.sig (Elt Ideal)) :
    after (opsTailR (F := Ideal)) V (Cert.ReferenceIdeal.main_v91 : DevRef Cert.ReferenceIdeal.τ Cert.ReferenceIdeal.sig) = Cert.Spec.dec (V (Cert.ReferenceIdeal.main_v82 : DevRef Cert.ReferenceIdeal.τ Cert.ReferenceIdeal.sig)) := by
  after_results_simp
  show nanToNum Cert.ReferenceIdeal.Facts₀.bcast_S_S8192x8192 (constant SScalar .f32 0x00000000#32)
    (Host.divf (broadcastInDim Cert.ReferenceIdeal.S8192x8192 ![] Cert.ReferenceIdeal.Facts₀.bcast_S_S8192x8192 (constant Cert.ReferenceIdeal.S_ .f32 0x3F800000#32))
      (addf (broadcastInDim Cert.ReferenceIdeal.S8192x8192 ![] Cert.ReferenceIdeal.Facts₀.bcast_S_S8192x8192 (constant Cert.ReferenceIdeal.S_ .f32 0x3F800000#32))
        (Host.exp (Host.negf (Host.dotGeneral (F := Ideal) Cert.ReferenceIdeal.dot_S8192x64_S64x8192_S8192x8192_1_0_0_1_n_n none
          (V (Cert.ReferenceIdeal.main_v82 : DevRef Cert.ReferenceIdeal.τ Cert.ReferenceIdeal.sig))
          (transpose Cert.ReferenceIdeal.S64x8192 [1, 0] (V (Cert.ReferenceIdeal.main_v82 : DevRef Cert.ReferenceIdeal.τ Cert.ReferenceIdeal.sig))
            Cert.ReferenceIdeal.Facts₀.transposes_S8192x64_S64x8192_1_0)))))) = _
  rw [ref_logistic_gram]
  exact nanToNum_of_finite _ _ _ (fun i => logistic_ne_top _) (fun i => logistic_ne_bot _)

end Cert.Tails

end
-- ==== Proof.Bridge.lean ====
/-
  The kernel program's result and the reference's are one array.
  Both programs walk the same road: edge lists and normalisation from the edge index; a dense layer; a graph
  convolution; a second dense layer against two weight matrices; two graph convolutions; the
  reparameterisation z; the logistic function of z·zᵀ with its infinities clamped.  The kernel program runs the
  dense layers and the decoder as blocked kernels (regions) whose output arrays are the plain products and the
  logistic Gram matrix; the reference as whole-array dot_generals.  Walking the two folds side by side, the
  buffers both programs hold at each stage agree, so the two results do.
-/
import proofs.«173583_j2808908611975_1_alg».proof.Proof.KernelIdeal.Run
import proofs.«173583_j2808908611975_1_alg».proof.Proof.KernelIdeal.Value
import proofs.«173583_j2808908611975_1_alg».proof.Proof.Layers
import proofs.«173583_j2808908611975_1_alg».proof.Proof.Stages
import proofs.«173583_j2808908611975_1_alg».proof.Proof.Tails
import proofs.«173583_j2808908611975_1_alg».proof.Proof.RefRun

set_option maxRecDepth 16384

noncomputable section

namespace Cert.Bridge

open Idealize.ShloMosaic Idealize.ShloMosaic.TcCoe Idealize.ShloMosaic.StableHlo Idealize.SL.Sem
open Cert.KernelIdeal Cert.KernelIdeal.Gen Cert.KernelIdeal.Regions
open Cert.ReferenceIdeal.RefRun (opsR0 opR29 opsR1 opR46 opsR2a opR63 opsR2b opsR3 ops)

/-- The fold of two lines run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

local notation "R⟦" r "⟧" => (Proc.devRef Proc.tc r : DevRef Cert.ReferenceIdeal.τ Cert.ReferenceIdeal.sig)
local notation "K⟦" r "⟧" => (Proc.devRef Proc.tc r : DevRef τ sig)

variable (m : (ℓ : Loc nD τ sig) → Buf (Elt Ideal) ℓ)
variable (m' : (ℓ : Loc Cert.ReferenceIdeal.nD Cert.ReferenceIdeal.τ Cert.ReferenceIdeal.sig) → Buf (Elt Ideal) ℓ)
variable (c : Dev nD)

/-- The reference's buffers at launch. -/
abbrev R0 : Valuation Cert.ReferenceIdeal.τ Cert.ReferenceIdeal.sig (Elt Ideal) := launchContents m' c

/-! ## What the kernel program's host stretches and regions leave alone -/

theorem W1_keep (r : Ref sig .tc) (h : r ∉ hostOps0_W) : W1 m c K⟦r⟧ = m ((c : Thread nD τ).loc r) :=
  StableHlo.after_of_writes_sub hostOps0 _ hostOps0_writes h
theorem W3_keep (r : Ref sig .tc) (h : r ∉ hostOps1_W) : W3 m c K⟦r⟧ = W2 m c K⟦r⟧ :=
  StableHlo.after_of_writes_sub hostOps1 _ hostOps1_writes h
/-- An argument through the first region, the second stretch, the second region. -/
theorem W2_arg (r : Ref sig .tc) (h : r ∉ hostOps0_W) (hne : r ≠ main_v29) : W2 m c K⟦r⟧ = m ((c : Thread nD τ).loc r) :=
  (W2_keep m c r hne).trans (W1_keep m c r h)
theorem W3_arg (r : Ref sig .tc) (h : r ∉ hostOps0_W) (h' : r ∉ hostOps1_W) (hne : r ≠ main_v29) : W3 m c K⟦r⟧ = m ((c : Thread nD τ).loc r) :=
  (W3_keep m c r h').trans (W2_arg m c r h hne)
theorem W4_arg (r : Ref sig .tc) (h : r ∉ hostOps0_W) (h' : r ∉ hostOps1_W) (hne : r ≠ main_v29) (hne' : r ≠ main_v47) :
    W4 m c K⟦r⟧ = m ((c : Thread nD τ).loc r) :=
  (W4_keep m c r hne').trans (W3_arg m c r h h' hne)
/-- What the first stretch wrote (the edge lists, the normalisation) through to the third stretch's entry. -/
theorem W4_edge (r : Ref sig .tc) (h' : r ∉ hostOps1_W) (hne : r ≠ main_v29) (hne' : r ≠ main_v47) : W4 m c K⟦r⟧ = W1 m c K⟦r⟧ :=
  (W4_keep m c r hne').trans ((W3_keep m c r h').trans (W2_keep m c r hne))

/-! ## The regions' arrays, as the whole-array functions -/

/-- The first dense layer's array. -/
theorem k29 : W2 m c K⟦main_v29⟧ = Cert.Spec.mm0 (m ((c : Thread nD τ).loc main_arg0)) (m ((c : Thread nD τ).loc main_arg3)) := by
  refine (W2_arr m c 2).trans ?_
  rw [arr29_eq (Regions.V1 m) c]
  exact congrArg₂ _ (W1_keep m c main_arg0 (by decide)) (W1_keep m c main_arg3 (by decide))

/-- The two weight matrices side by side. -/
theorem k46 : W3 m c K⟦main_v46⟧
    = concatenate S128x128 1 [⟨S128x64, m ((c : Thread nD τ).loc main_arg5)⟩, ⟨S128x64, m ((c : Thread nD τ).loc main_arg7)⟩]
        Facts₀.concatenates_S128x64_S128x64_S128x128_d1 := by
  refine (Cert.Stages.stage1_cat (F := Ideal) (W2 m c)).trans ?_
  rw [W2_arg m c main_arg5 (by decide) (by decide), W2_arg m c main_arg7 (by decide) (by decide)]

/-- The second dense layer's array. -/
theorem k47 : W4 m c K⟦main_v47⟧
    = Cert.Spec.mm1 (W3 m c K⟦main_v45⟧)
        (concatenate S128x128 1 [⟨S128x64, m ((c : Thread nD τ).loc main_arg5)⟩, ⟨S128x64, m ((c : Thread nD τ).loc main_arg7)⟩]
          Facts₀.concatenates_S128x64_S128x64_S128x128_d1) := by
  refine (W4_arr m c 2).trans ?_
  rw [arr47_eq (Regions.V3 m) c]
  exact congrArg₂ _ rfl (k46 m c)

/-- The decoder's array, and the program's result after the clamp on the host. -/
theorem k85 : W6 m c K⟦main_v85⟧ = Cert.Spec.dec (W5 m c K⟦main_v84⟧) := (W6_out m c).trans (arr85_eq (Regions.V5 m) c)
theorem k86 : W8 m c K⟦main_v86⟧ = Cert.Spec.dec (W5 m c K⟦main_v84⟧) := Cert.Tails.ker_tail (W6 m c) _ (k85 m c)

/-! ## The stages -/

section
variable (h0 : m' ((c.tc : Thread Cert.ReferenceIdeal.nD Cert.ReferenceIdeal.τ).loc Cert.ReferenceIdeal.main_arg0) = m ((c.tc : Thread nD τ).loc main_arg0))
  (h1 : m' ((c.tc : Thread Cert.ReferenceIdeal.nD Cert.ReferenceIdeal.τ).loc Cert.ReferenceIdeal.main_arg1) = m ((c.tc : Thread nD τ).loc main_arg1))
  (h2 : m' ((c.tc : Thread Cert.ReferenceIdeal.nD Cert.ReferenceIdeal.τ).loc Cert.ReferenceIdeal.main_arg2) = m ((c.tc : Thread nD τ).loc main_arg2))
  (h3 : m' ((c.tc : Thread Cert.ReferenceIdeal.nD Cert.ReferenceIdeal.τ).loc Cert.ReferenceIdeal.main_arg3) = m ((c.tc : Thread nD τ).loc main_arg3))
  (h4 : m' ((c.tc : Thread Cert.ReferenceIdeal.nD Cert.ReferenceIdeal.τ).loc Cert.ReferenceIdeal.main_arg4) = m ((c.tc : Thread nD τ).loc main_arg4))
  (h5 : m' ((c.tc : Thread Cert.ReferenceIdeal.nD Cert.ReferenceIdeal.τ).loc Cert.ReferenceIdeal.main_arg5) = m ((c.tc : Thread nD τ).loc main_arg5))
  (h6 : m' ((c.tc : Thread Cert.ReferenceIdeal.nD Cert.ReferenceIdeal.τ).loc Cert.ReferenceIdeal.main_arg6) = m ((c.tc : Thread nD τ).loc main_arg6))
  (h7 : m' ((c.tc : Thread Cert.ReferenceIdeal.nD Cert.ReferenceIdeal.τ).loc Cert.ReferenceIdeal.main_arg7) = m ((c.tc : Thread nD τ).loc main_arg7))
  (h8 : m' ((c.tc : Thread Cert.ReferenceIdeal.nD Cert.ReferenceIdeal.τ).loc Cert.ReferenceIdeal.main_arg8) = m ((c.tc : Thread nD τ).loc main_arg8))

include h0 h1 h2 h3 h4 h5 h6 h7 h8

set_option maxHeartbeats 8000000 in
/-- The latent matrix z: what the reference's fold holds in its buffer after the reparameterisation is what
    the kernel program's holds at the decoder's entry. -/
theorem z_eq :
    after (opsR2a (F := Ideal) ++ opR63 (F := Ideal) :: opsR2b (F := Ideal))
        (after [opR46 (F := Ideal)] (after (opsR1 (F := Ideal)) (after [opR29 (F := Ideal)] (after (opsR0 (F := Ideal)) (R0 m' c))))) R⟦Cert.ReferenceIdeal.main_v82⟧
      = W5 m c K⟦main_v84⟧ := by
  -- the first stretch: the edge lists and the normalisation
  obtain ⟨s3, s6, s28⟩ := Cert.Stages.stage0 (F := Ideal) (W0 m c) (R0 m' c) h1
  have ka_main_arg0 : after (opsR0 (F := Ideal)) (R0 m' c) R⟦Cert.ReferenceIdeal.main_arg0⟧ = m ((c : Thread nD τ).loc main_arg0) :=
    Eq.trans (by after_results) h0
  have ka_main_arg2 : after (opsR0 (F := Ideal)) (R0 m' c) R⟦Cert.ReferenceIdeal.main_arg2⟧ = m ((c : Thread nD τ).loc main_arg2) :=
    Eq.trans (by after_results) h2
  have ka_main_arg3 : after (opsR0 (F := Ideal)) (R0 m' c) R⟦Cert.ReferenceIdeal.main_arg3⟧ = m ((c : Thread nD τ).loc main_arg3) :=
    Eq.trans (by after_results) h3
  have ka_main_arg4 : after (opsR0 (F := Ideal)) (R0 m' c) R⟦Cert.ReferenceIdeal.main_arg4⟧ = m ((c : Thread nD τ).loc main_arg4) :=
    Eq.trans (by after_results) h4
  have ka_main_arg5 : after (opsR0 (F := Ideal)) (R0 m' c) R⟦Cert.ReferenceIdeal.main_arg5⟧ = m ((c : Thread nD τ).loc main_arg5) :=
    Eq.trans (by after_results) h5
  have ka_main_arg6 : after (opsR0 (F := Ideal)) (R0 m' c) R⟦Cert.ReferenceIdeal.main_arg6⟧ = m ((c : Thread nD τ).loc main_arg6) :=
    Eq.trans (by after_results) h6
  have ka_main_arg7 : after (opsR0 (F := Ideal)) (R0 m' c) R⟦Cert.ReferenceIdeal.main_arg7⟧ = m ((c : Thread nD τ).loc main_arg7) :=
    Eq.trans (by after_results) h7
  have ka_main_arg8 : after (opsR0 (F := Ideal)) (R0 m' c) R⟦Cert.ReferenceIdeal.main_arg8⟧ = m ((c : Thread nD τ).loc main_arg8) :=
    Eq.trans (by after_results) h8
  generalize after (opsR0 (F := Ideal)) (R0 m' c) = Ra at *
  -- the first dense layer
  have kb29 : after [opR29 (F := Ideal)] Ra R⟦Cert.ReferenceIdeal.main_v29⟧ = W2 m c K⟦main_v29⟧ := by
    refine Eq.trans (by after_results) ?_
    rw [ka_main_arg0, ka_main_arg3, k29 m c, Cert.Layers.layer0]
  have kb_main_v3 : after [opR29 (F := Ideal)] Ra R⟦Cert.ReferenceIdeal.main_v3⟧ = Ra R⟦Cert.ReferenceIdeal.main_v3⟧ := by after_results
  have kb_main_v6 : after [opR29 (F := Ideal)] Ra R⟦Cert.ReferenceIdeal.main_v6⟧ = Ra R⟦Cert.ReferenceIdeal.main_v6⟧ := by after_results
  have kb_main_v28 : after [opR29 (F := Ideal)] Ra R⟦Cert.ReferenceIdeal.main_v28⟧ = Ra R⟦Cert.ReferenceIdeal.main_v28⟧ := by after_results
  have kb_main_arg2 : after [opR29 (F := Ideal)] Ra R⟦Cert.ReferenceIdeal.main_arg2⟧ = Ra R⟦Cert.ReferenceIdeal.main_arg2⟧ := by after_results
  have kb_main_arg4 : after [opR29 (F := Ideal)] Ra R⟦Cert.ReferenceIdeal.main_arg4⟧ = Ra R⟦Cert.ReferenceIdeal.main_arg4⟧ := by after_results
  have kb_main_arg5 : after [opR29 (F := Ideal)] Ra R⟦Cert.ReferenceIdeal.main_arg5⟧ = Ra R⟦Cert.ReferenceIdeal.main_arg5⟧ := by after_results
  have kb_main_arg6 : after [opR29 (F := Ideal)] Ra R⟦Cert.ReferenceIdeal.main_arg6⟧ = Ra R⟦Cert.ReferenceIdeal.main_arg6⟧ := by after_results
  have kb_main_arg7 : after [opR29 (F := Ideal)] Ra R⟦Cert.ReferenceIdeal.main_arg7⟧ = Ra R⟦Cert.ReferenceIdeal.main_arg7⟧ := by after_results
  have kb_main_arg8 : after [opR29 (F := Ideal)] Ra R⟦Cert.ReferenceIdeal.main_arg8⟧ = Ra R⟦Cert.ReferenceIdeal.main_arg8⟧ := by after_results
  generalize after [opR29 (F := Ideal)] Ra = Rb at *
  -- the second stretch: the first graph convolution
  have s45 : after (opsR1 (F := Ideal)) Rb R⟦Cert.ReferenceIdeal.main_v45⟧ = W3 m c K⟦main_v45⟧ :=
    Cert.Stages.stage1 (F := Ideal) (W2 m c) Rb kb29
      (kb_main_v3.trans (s3.trans (W2_keep m c main_v3 (by decide)).symm))
      (kb_main_v6.trans (s6.trans (W2_keep m c main_v6 (by decide)).symm))
      (kb_main_v28.trans (s28.trans (W2_keep m c main_v28 (by decide)).symm))
      (kb_main_arg4.trans (ka_main_arg4.trans (W2_arg m c main_arg4 (by decide) (by decide)).symm))
  have kc_main_v3 : after (opsR1 (F := Ideal)) Rb R⟦Cert.ReferenceIdeal.main_v3⟧ = Rb R⟦Cert.ReferenceIdeal.main_v3⟧ := by after_results
  have kc_main_v6 : after (opsR1 (F := Ideal)) Rb R⟦Cert.ReferenceIdeal.main_v6⟧ = Rb R⟦Cert.ReferenceIdeal.main_v6⟧ := by after_results
  have kc_main_v28 : after (opsR1 (F := Ideal)) Rb R⟦Cert.ReferenceIdeal.main_v28⟧ = Rb R⟦Cert.ReferenceIdeal.main_v28⟧ := by after_results
  have kc_main_arg2 : after (opsR1 (F := Ideal)) Rb R⟦Cert.ReferenceIdeal.main_arg2⟧ = Rb R⟦Cert.ReferenceIdeal.main_arg2⟧ := by after_results
  have kc_main_arg5 : after (opsR1 (F := Ideal)) Rb R⟦Cert.ReferenceIdeal.main_arg5⟧ = Rb R⟦Cert.ReferenceIdeal.main_arg5⟧ := by after_results
  have kc_main_arg6 : after (opsR1 (F := Ideal)) Rb R⟦Cert.ReferenceIdeal.main_arg6⟧ = Rb R⟦Cert.ReferenceIdeal.main_arg6⟧ := by after_results
  have kc_main_arg7 : after (opsR1 (F := Ideal)) Rb R⟦Cert.ReferenceIdeal.main_arg7⟧ = Rb R⟦Cert.ReferenceIdeal.main_arg7⟧ := by after_results
  have kc_main_arg8 : after (opsR1 (F := Ideal)) Rb R⟦Cert.ReferenceIdeal.main_arg8⟧ = Rb R⟦Cert.ReferenceIdeal.main_arg8⟧ := by after_results
  generalize after (opsR1 (F := Ideal)) Rb = Rc at *
  -- the second dense layer: the kernel's left half is the reference's first product, its right half the second
  have kd46 : after [opR46 (F := Ideal)] Rc R⟦Cert.ReferenceIdeal.main_v46⟧
      = extractStridedSlice S8192x64 ![0, 0] (W4 m c K⟦main_v47⟧) Facts₀.slices_S8192x128_S8192x64_0_0 := by
    refine Eq.trans (by after_results) ?_
    rw [s45, kc_main_arg5, kb_main_arg5, ka_main_arg5, k47 m c, Cert.Layers.layer1_lo]
  have kd_main_v3 : after [opR46 (F := Ideal)] Rc R⟦Cert.ReferenceIdeal.main_v3⟧ = Rc R⟦Cert.ReferenceIdeal.main_v3⟧ := by after_results
  have kd_main_v6 : after [opR46 (F := Ideal)] Rc R⟦Cert.ReferenceIdeal.main_v6⟧ = Rc R⟦Cert.ReferenceIdeal.main_v6⟧ := by after_results
  have kd_main_v28 : after [opR46 (F := Ideal)] Rc R⟦Cert.ReferenceIdeal.main_v28⟧ = Rc R⟦Cert.ReferenceIdeal.main_v28⟧ := by after_results
  have kd_main_v45 : after [opR46 (F := Ideal)] Rc R⟦Cert.ReferenceIdeal.main_v45⟧ = Rc R⟦Cert.ReferenceIdeal.main_v45⟧ := by after_results
  have kd_main_arg2 : after [opR46 (F := Ideal)] Rc R⟦Cert.ReferenceIdeal.main_arg2⟧ = Rc R⟦Cert.ReferenceIdeal.main_arg2⟧ := by after_results
  have kd_main_arg6 : after [opR46 (F := Ideal)] Rc R⟦Cert.ReferenceIdeal.main_arg6⟧ = Rc R⟦Cert.ReferenceIdeal.main_arg6⟧ := by after_results
  have kd_main_arg7 : after [opR46 (F := Ideal)] Rc R⟦Cert.ReferenceIdeal.main_arg7⟧ = Rc R⟦Cert.ReferenceIdeal.main_arg7⟧ := by after_results
  have kd_main_arg8 : after [opR46 (F := Ideal)] Rc R⟦Cert.ReferenceIdeal.main_arg8⟧ = Rc R⟦Cert.ReferenceIdeal.main_arg8⟧ := by after_results
  generalize after [opR46 (F := Ideal)] Rc = Rd at *
  -- the third stretch: the two graph convolutions and the reparameterisation
  refine Cert.Stages.stage2 (F := Ideal) (W4 m c) Rd kd46 ?_
    (kd_main_v3.trans (kc_main_v3.trans (kb_main_v3.trans (s3.trans (W4_edge m c main_v3 (by decide) (by decide) (by decide)).symm))))
    (kd_main_v6.trans (kc_main_v6.trans (kb_main_v6.trans (s6.trans (W4_edge m c main_v6 (by decide) (by decide) (by decide)).symm))))
    (kd_main_v28.trans (kc_main_v28.trans (kb_main_v28.trans (s28.trans (W4_edge m c main_v28 (by decide) (by decide) (by decide)).symm))))
    (kd_main_arg6.trans (kc_main_arg6.trans (kb_main_arg6.trans (ka_main_arg6.trans (W4_arg m c main_arg6 (by decide) (by decide) (by decide) (by decide)).symm))))
    (kd_main_arg8.trans (kc_main_arg8.trans (kb_main_arg8.trans (ka_main_arg8.trans (W4_arg m c main_arg8 (by decide) (by decide) (by decide) (by decide)).symm))))
    (kd_main_arg2.trans (kc_main_arg2.trans (kb_main_arg2.trans (ka_main_arg2.trans (W4_arg m c main_arg2 (by decide) (by decide) (by decide) (by decide)).symm))))
  rw [kd_main_v45, s45, kd_main_arg7, kc_main_arg7, kb_main_arg7, ka_main_arg7, k47 m c, Cert.Layers.layer1_hi]

set_option maxHeartbeats 8000000 in
/-- THE TWO RESULTS ARE ONE ARRAY: the reference's fold at its result buffer is the kernel program's last
    boundary's contents at its result buffer — both the logistic Gram matrix of the one latent matrix. -/
theorem result_eq : after (ops (F := Ideal)) (R0 m' c) R⟦Cert.ReferenceIdeal.main_v91⟧ = W8 m c K⟦main_v86⟧ := by
  rw [k86 m c, ← z_eq m m' c h0 h1 h2 h3 h4 h5 h6 h7 h8]
  have e : after (ops (F := Ideal)) (R0 m' c)
      = after (opsR3 (F := Ideal)) (after (opsR2a (F := Ideal) ++ opR63 (F := Ideal) :: opsR2b (F := Ideal))
          (after [opR46 (F := Ideal)] (after (opsR1 (F := Ideal)) (after [opR29 (F := Ideal)] (after (opsR0 (F := Ideal)) (R0 m' c)))))) := by
    simp only [ops, after_append, after_cons, after_nil]
  rw [e]
  exact Cert.Tails.ref_tail _

end

end Cert.Bridge

end
-- ==== Proof.lean ====
/-
  A variational graph auto-encoder's forward pass, kernel against reference, over the extended reals.

  Both programs compute, from node features X, an edge index, noise ε and the weights:
    the edge lists with self loops, and the symmetric normalisation  n_e = d^(-1/2)[src_e] · d^(-1/2)[dst_e],  d = max(deg, 1);
    h = GCN(X · W₀, b₀);   mean = GCN(h · Wm, bm);   log_std = GCN(h · Ws, bs)     (GCN(y, b)[v] = Σ_{e : dst_e = v} n_e · y[src_e] + b);
    z = mean + ε · exp(log_std);   result = clamp(logistic(z · zᵀ))               (clamp sends ±∞ to the largest finite floats).
  The kernel program runs X · W₀, h · [Wm | Ws] and the decoder as three blocked kernels and slices the second
  product into its two halves; the reference runs whole-array dot_generals.  Over the extended reals a change of
  float format is the identity, a blocked product with a zero accumulator is the plain sum over the contracted
  axis, column j of [Wm | Ws] is column j of Wm or column j − 64 of Ws, the logistic function is 1 / (1 + e^(−s)) on
  both sides and takes no infinite value, so the clamp — applied once more by the kernel program — changes nothing.

  The frames: each kernel region's body loads its input blocks, stores the payload into the output block, and
  the pipeline's write-backs tile the output array; the decoder's two input windows read ONE array, held at the
  two halves of a share.  No host operation and no region writes an argument.  The idealization rewrote no
  operation, so the word-level program's frame is the same text at the word-level instance.
-/
import proofs.«173583_j2808908611975_1_alg».proof.Defs
import proofs.«173583_j2808908611975_1_alg».proof.Proof.Gen.Kernel
import proofs.«173583_j2808908611975_1_alg».proof.Proof.Gen.KernelIdeal
import proofs.«173583_j2808908611975_1_alg».proof.Proof.Gen.ReferenceIdeal
import proofs.«173583_j2808908611975_1_alg».proof.Proof.Gen.Pre_finite_inputs
import proofs.«173583_j2808908611975_1_alg».proof.Proof.Kernel.Run
import proofs.«173583_j2808908611975_1_alg».proof.Proof.KernelIdeal.Run
import proofs.«173583_j2808908611975_1_alg».proof.Proof.RefFrame
import proofs.«173583_j2808908611975_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Regions.frame (F := Bits) m ρ

/-- The idealized kernel program runs and leaves its arguments unchanged. -/
theorem frame_ki : Cert.frame_KernelIdeal := fun m ρ _ => Cert.KernelIdeal.Regions.frame (F := Ideal) m ρ

/-- The idealized reference runs and leaves its arguments unchanged. -/
theorem frame_ri : Cert.frame_ReferenceIdeal := fun m ρ _ =>
  (θ_run Cert.ReferenceIdeal.defs _ _).mono (fun _ h c => (h c).2) (Cert.ReferenceIdeal.RefRun.run_main (F := Ideal) m ρ)

/-- The ideal pass rewrote no operation. -/
theorem preserves : Cert.preserves_Kernel_KernelIdeal := trivial

/-- From memories agreeing on the arguments both idealized programs end with ONE result array: the clamped
    logistic Gram matrix of the one latent matrix z. -/
theorem algebraic : Cert.algebraic_KernelIdeal_ReferenceIdeal := by
  intro m ρ m' ρ' _ hagree
  refine ⟨fun c => Cert.KernelIdeal.Regions.W8 m c (Proc.devRef .tc Cert.KernelIdeal.main_v86),
    Cert.KernelIdeal.Regions.run_main (F := Ideal) m ρ, ?_⟩
  refine (θ_run Cert.ReferenceIdeal.defs _ _).mono (fun _ h c => ⟨(h c).1.trans ?_, (h c).2⟩)
    (Cert.ReferenceIdeal.RefRun.run_main (F := Ideal) m' ρ')
  obtain ⟨a0, a1, a2, a3, a4, a5, a6, a7, a8⟩ := hagree c
  exact Cert.Bridge.result_eq m m' c a0 a1 a2 a3 a4 a5 a6 a7 a8

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
